-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S2x2048x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S1024x1024 : Shape := ⟨2, ![1024, 1024]⟩
abbrev S2x16x2048x64 : Shape := ⟨4, ![2, 16, 2048, 64]⟩
abbrev S1x512x1024 : Shape := ⟨3, ![1, 512, 1024]⟩
abbrev S1x16x512x64 : Shape := ⟨4, ![1, 16, 512, 64]⟩
abbrev S512x1024 : Shape := ⟨2, ![512, 1024]⟩
abbrev S512x64 : Shape := ⟨2, ![512, 64]⟩
abbrev S1x1x512x64 : Shape := ⟨4, ![1, 1, 512, 64]⟩
abbrev S1x1x1024x64 : Shape := ⟨4, ![1, 1, 1024, 64]⟩
abbrev S1024x1 : Shape := ⟨2, ![1024, 1]⟩
abbrev S1024x64 : Shape := ⟨2, ![1024, 64]⟩
abbrev S64x1024 : Shape := ⟨2, ![64, 1024]⟩
abbrev S1x1024 : Shape := ⟨2, ![1, 1024]⟩
abbrev S1024 : Shape := ⟨1, ![1024]⟩

abbrev nBuf : Space → Nat
  | .hbm => 15
  | .vmem => 27
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S2x16x2048x64, .bf16⟩
  | .hbm, ⟨9, _⟩ => ⟨S2x16x2048x64, .bf16⟩
  | .hbm, ⟨10, _⟩ => ⟨S2x16x2048x64, .bf16⟩
  | .hbm, ⟨11, _⟩ => ⟨S2x16x2048x64, .bf16⟩
  | .hbm, ⟨12, _⟩ => ⟨S1024x1024, .f32⟩
  | .hbm, ⟨13, _⟩ => ⟨S1024x1024, .bf16⟩
  | .hbm, ⟨14, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x16x512x64, .bf16⟩
  | .local _ .vmem, ⟨6, _⟩ => ⟨S1x16x512x64, .bf16⟩
  | .local _ .vmem, ⟨7, _⟩ => ⟨S1x16x512x64, .bf16⟩
  | .local _ .vmem, ⟨8, _⟩ => ⟨S1x16x512x64, .bf16⟩
  | .local _ .vmem, ⟨9, _⟩ => ⟨S1x16x512x64, .bf16⟩
  | .local _ .vmem, ⟨10, _⟩ => ⟨S1x16x512x64, .bf16⟩
  | .local _ .vmem, ⟨11, _⟩ => ⟨S1x1x1024x64, .bf16⟩
  | .local _ .vmem, ⟨12, _⟩ => ⟨S1x1x1024x64, .bf16⟩
  | .local _ .vmem, ⟨13, _⟩ => ⟨S1x1x1024x64, .bf16⟩
  | .local _ .vmem, ⟨14, _⟩ => ⟨S1x1x1024x64, .bf16⟩
  | .local _ .vmem, ⟨15, _⟩ => ⟨S1x1x1024x64, .bf16⟩
  | .local _ .vmem, ⟨16, _⟩ => ⟨S1x1x1024x64, .bf16⟩
  | .local _ .vmem, ⟨17, _⟩ => ⟨S1x1x1024x64, .bf16⟩
  | .local _ .vmem, ⟨18, _⟩ => ⟨S1x1x1024x64, .bf16⟩
  | .local _ .vmem, ⟨19, _⟩ => ⟨S1024x1, .f32⟩
  | .local _ .vmem, ⟨20, _⟩ => ⟨S1024x1, .f32⟩
  | .local _ .vmem, ⟨21, _⟩ => ⟨S1024x64, .f32⟩
  | .local _ .vmem, ⟨22, _⟩ => ⟨S1x16x512x64, .bf16⟩
  | .local _ .vmem, ⟨23, _⟩ => ⟨S1x16x512x64, .bf16⟩
  | .local _ .vmem, ⟨24, _⟩ => ⟨S1024x1024, .bf16⟩
  | .local _ .vmem, ⟨25, _⟩ => ⟨S1x512x1024, .f32⟩
  | .local _ .vmem, ⟨26, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨4, ![2, 16, 2, 2], ![false, false, false, false]⟩

def k1_cond3 (i : grid1.Coords) : BitVec 1 :=
  let arg3 : BitVec 32 := BitVec.ofNat 32 (i 3).val
  let c1_i32 : BitVec 32 := 1#32
  let v6 : BitVec 1 := Scalar.cmpi .eq arg3 c1_i32
  let v7 : BitVec 32 := Scalar.extui v6
  let c0_i32_2 : BitVec 32 := 0#32
  let v8 : BitVec 1 := Scalar.cmpi .ne v7 c0_i32_2
  v8

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg3 arg2
  let c0_i32 : BitVec 32 := 0#32
  let c0_i32_0 : BitVec 32 := 0#32
  ![arg0.toNat, arg1.toNat, v0.toNat, c0_i32.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg3 arg2
  let c0_i32 : BitVec 32 := 0#32
  let c0_i32_0 : BitVec 32 := 0#32
  ![arg0.toNat, arg1.toNat, v0.toNat, c0_i32.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

abbrev stage1_0 : Fin 2 → Memref sig .tc .vmem S1x1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true, false]

abbrev stage1_1 : Fin 2 → Memref sig .tc .vmem S1x1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true, true]

abbrev stage1_2 : Fin 2 → Memref sig .tc .vmem S1x1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true, true]

abbrev stage1_3 : Fin 2 → Memref sig .tc .vmem S1x1x1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true, false]

abbrev grid2 : Pipeline.Grid := ⟨2, ![2, 4], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x16x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S512x1024_o0_0_S512x64 : S512x1024.Slices ![0, 0] S512x64
  inb_S1x16x512x64_S1x1x512x64_0_0_0_0 : ∀ a, (![0, 0, 0, 0] : Fin 4 → Nat) a + S1x1x512x64.size a ≤ S1x16x512x64.size a
  h_S1x1x512x64 : 0 < S1x1x512x64.numel
  shapeCasts_S1x1x512x64_S512x64 : S1x1x512x64.ShapeCasts S512x64
  shapeCasts_S512x64_S1x1x512x64 : S512x64.ShapeCasts S1x1x512x64
  packedbf16_S1x16x512x64_S1x1x512x64_0_0_0_0 : (Rect.unit (s := S1x16x512x64) ![0, 0, 0, 0] S1x1x512x64.size inb_S1x16x512x64_S1x1x512x64_0_0_0_0).PackedRows (EltTy.packing .bf16)
  slices_S512x1024_o0_64_S512x64 : S512x1024.Slices ![0, 64] S512x64
  inb_S1x16x512x64_S1x1x512x64_0_1_0_0 : ∀ a, (![0, 1, 0, 0] : Fin 4 → Nat) a + S1x1x512x64.size a ≤ S1x16x512x64.size a
  packedbf16_S1x16x512x64_S1x1x512x64_0_1_0_0 : (Rect.unit (s := S1x16x512x64) ![0, 1, 0, 0] S1x1x512x64.size inb_S1x16x512x64_S1x1x512x64_0_1_0_0).PackedRows (EltTy.packing .bf16)
  slices_S512x1024_o0_128_S512x64 : S512x1024.Slices ![0, 128] S512x64
  inb_S1x16x512x64_S1x1x512x64_0_2_0_0 : ∀ a, (![0, 2, 0, 0] : Fin 4 → Nat) a + S1x1x512x64.size a ≤ S1x16x512x64.size a
  packedbf16_S1x16x512x64_S1x1x512x64_0_2_0_0 : (Rect.unit (s := S1x16x512x64) ![0, 2, 0, 0] S1x1x512x64.size inb_S1x16x512x64_S1x1x512x64_0_2_0_0).PackedRows (EltTy.packing .bf16)
  slices_S512x1024_o0_192_S512x64 : S512x1024.Slices ![0, 192] S512x64
  inb_S1x16x512x64_S1x1x512x64_0_3_0_0 : ∀ a, (![0, 3, 0, 0] : Fin 4 → Nat) a + S1x1x512x64.size a ≤ S1x16x512x64.size a
  packedbf16_S1x16x512x64_S1x1x512x64_0_3_0_0 : (Rect.unit (s := S1x16x512x64) ![0, 3, 0, 0] S1x1x512x64.size inb_S1x16x512x64_S1x1x512x64_0_3_0_0).PackedRows (EltTy.packing .bf16)
  slices_S512x1024_o0_256_S512x64 : S512x1024.Slices ![0, 256] S512x64
  inb_S1x16x512x64_S1x1x512x64_0_4_0_0 : ∀ a, (![0, 4, 0, 0] : Fin 4 → Nat) a + S1x1x512x64.size a ≤ S1x16x512x64.size a
  packedbf16_S1x16x512x64_S1x1x512x64_0_4_0_0 : (Rect.unit (s := S1x16x512x64) ![0, 4, 0, 0] S1x1x512x64.size inb_S1x16x512x64_S1x1x512x64_0_4_0_0).PackedRows (EltTy.packing .bf16)
  slices_S512x1024_o0_320_S512x64 : S512x1024.Slices ![0, 320] S512x64
  inb_S1x16x512x64_S1x1x512x64_0_5_0_0 : ∀ a, (![0, 5, 0, 0] : Fin 4 → Nat) a + S1x1x512x64.size a ≤ S1x16x512x64.size a
  packedbf16_S1x16x512x64_S1x1x512x64_0_5_0_0 : (Rect.unit (s := S1x16x512x64) ![0, 5, 0, 0] S1x1x512x64.size inb_S1x16x512x64_S1x1x512x64_0_5_0_0).PackedRows (EltTy.packing .bf16)
  slices_S512x1024_o0_384_S512x64 : S512x1024.Slices ![0, 384] S512x64
  inb_S1x16x512x64_S1x1x512x64_0_6_0_0 : ∀ a, (![0, 6, 0, 0] : Fin 4 → Nat) a + S1x1x512x64.size a ≤ S1x16x512x64.size a
  packedbf16_S1x16x512x64_S1x1x512x64_0_6_0_0 : (Rect.unit (s := S1x16x512x64) ![0, 6, 0, 0] S1x1x512x64.size inb_S1x16x512x64_S1x1x512x64_0_6_0_0).PackedRows (EltTy.packing .bf16)
  slices_S512x1024_o0_448_S512x64 : S512x1024.Slices ![0, 448] S512x64
  inb_S1x16x512x64_S1x1x512x64_0_7_0_0 : ∀ a, (![0, 7, 0, 0] : Fin 4 → Nat) a + S1x1x512x64.size a ≤ S1x16x512x64.size a
  packedbf16_S1x16x512x64_S1x1x512x64_0_7_0_0 : (Rect.unit (s := S1x16x512x64) ![0, 7, 0, 0] S1x1x512x64.size inb_S1x16x512x64_S1x1x512x64_0_7_0_0).PackedRows (EltTy.packing .bf16)
  slices_S512x1024_o0_512_S512x64 : S512x1024.Slices ![0, 512] S512x64
  inb_S1x16x512x64_S1x1x512x64_0_8_0_0 : ∀ a, (![0, 8, 0, 0] : Fin 4 → Nat) a + S1x1x512x64.size a ≤ S1x16x512x64.size a
  packedbf16_S1x16x512x64_S1x1x512x64_0_8_0_0 : (Rect.unit (s := S1x16x512x64) ![0, 8, 0, 0] S1x1x512x64.size inb_S1x16x512x64_S1x1x512x64_0_8_0_0).PackedRows (EltTy.packing .bf16)
  slices_S512x1024_o0_576_S512x64 : S512x1024.Slices ![0, 576] S512x64
  inb_S1x16x512x64_S1x1x512x64_0_9_0_0 : ∀ a, (![0, 9, 0, 0] : Fin 4 → Nat) a + S1x1x512x64.size a ≤ S1x16x512x64.size a
  packedbf16_S1x16x512x64_S1x1x512x64_0_9_0_0 : (Rect.unit (s := S1x16x512x64) ![0, 9, 0, 0] S1x1x512x64.size inb_S1x16x512x64_S1x1x512x64_0_9_0_0).PackedRows (EltTy.packing .bf16)
  slices_S512x1024_o0_640_S512x64 : S512x1024.Slices ![0, 640] S512x64
  inb_S1x16x512x64_S1x1x512x64_0_10_0_0 : ∀ a, (![0, 10, 0, 0] : Fin 4 → Nat) a + S1x1x512x64.size a ≤ S1x16x512x64.size a
  packedbf16_S1x16x512x64_S1x1x512x64_0_10_0_0 : (Rect.unit (s := S1x16x512x64) ![0, 10, 0, 0] S1x1x512x64.size inb_S1x16x512x64_S1x1x512x64_0_10_0_0).PackedRows (EltTy.packing .bf16)
  slices_S512x1024_o0_704_S512x64 : S512x1024.Slices ![0, 704] S512x64
  inb_S1x16x512x64_S1x1x512x64_0_11_0_0 : ∀ a, (![0, 11, 0, 0] : Fin 4 → Nat) a + S1x1x512x64.size a ≤ S1x16x512x64.size a
  packedbf16_S1x16x512x64_S1x1x512x64_0_11_0_0 : (Rect.unit (s := S1x16x512x64) ![0, 11, 0, 0] S1x1x512x64.size inb_S1x16x512x64_S1x1x512x64_0_11_0_0).PackedRows (EltTy.packing .bf16)
  slices_S512x1024_o0_768_S512x64 : S512x1024.Slices ![0, 768] S512x64
  inb_S1x16x512x64_S1x1x512x64_0_12_0_0 : ∀ a, (![0, 12, 0, 0] : Fin 4 → Nat) a + S1x1x512x64.size a ≤ S1x16x512x64.size a
  packedbf16_S1x16x512x64_S1x1x512x64_0_12_0_0 : (Rect.unit (s := S1x16x512x64) ![0, 12, 0, 0] S1x1x512x64.size inb_S1x16x512x64_S1x1x512x64_0_12_0_0).PackedRows (EltTy.packing .bf16)
  slices_S512x1024_o0_832_S512x64 : S512x1024.Slices ![0, 832] S512x64
  inb_S1x16x512x64_S1x1x512x64_0_13_0_0 : ∀ a, (![0, 13, 0, 0] : Fin 4 → Nat) a + S1x1x512x64.size a ≤ S1x16x512x64.size a
  packedbf16_S1x16x512x64_S1x1x512x64_0_13_0_0 : (Rect.unit (s := S1x16x512x64) ![0, 13, 0, 0] S1x1x512x64.size inb_S1x16x512x64_S1x1x512x64_0_13_0_0).PackedRows (EltTy.packing .bf16)
  slices_S512x1024_o0_896_S512x64 : S512x1024.Slices ![0, 896] S512x64
  inb_S1x16x512x64_S1x1x512x64_0_14_0_0 : ∀ a, (![0, 14, 0, 0] : Fin 4 → Nat) a + S1x1x512x64.size a ≤ S1x16x512x64.size a
  packedbf16_S1x16x512x64_S1x1x512x64_0_14_0_0 : (Rect.unit (s := S1x16x512x64) ![0, 14, 0, 0] S1x1x512x64.size inb_S1x16x512x64_S1x1x512x64_0_14_0_0).PackedRows (EltTy.packing .bf16)
  slices_S512x1024_o0_960_S512x64 : S512x1024.Slices ![0, 960] S512x64
  inb_S1x16x512x64_S1x1x512x64_0_15_0_0 : ∀ a, (![0, 15, 0, 0] : Fin 4 → Nat) a + S1x1x512x64.size a ≤ S1x16x512x64.size a
  packedbf16_S1x16x512x64_S1x1x512x64_0_15_0_0 : (Rect.unit (s := S1x16x512x64) ![0, 15, 0, 0] S1x1x512x64.size inb_S1x16x512x64_S1x1x512x64_0_15_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  transposes_S1024x64_p1_0_S64x1024 : S1024x64.Transposes [1, 0] S64x1024
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x64 : S1024x1.Broadcasts S1024x64
  shapeCasts_S1024x64_S1x1x1024x64 : S1024x64.ShapeCasts S1x1x1024x64
  packedbf16_S1x1x1024x64_S1x1x1024x64_0_0_0_0 : (Rect.unit (s := S1x1x1024x64) ![0, 0, 0, 0] S1x1x1024x64.size inb_S1x1x1024x64_S1x1x1024x64_0_0_0_0).PackedRows (EltTy.packing .bf16)
  transposes_S1024x1024_S1024x1024_1_0 : S1024x1024.Transposes [1, 0] S1024x1024
  concatenates_S512x64_S512x64_S512x64_S512x64_S512x64_S512x64_S512x64_S512x64_S512x64_S512x64_S512x64_S512x64_S512x64_S512x64_S512x64_S512x64_S512x1024_d1 : Shape.Concatenates [S512x64, S512x64, S512x64, S512x64, S512x64, S512x64, S512x64, S512x64, S512x64, S512x64, S512x64, S512x64, S512x64, S512x64, S512x64, S512x64] S512x1024 1
  shapeCasts_S512x1024_S1x512x1024 : S512x1024.ShapeCasts S1x512x1024
  dot_S512x1024_S1024x1024_S512x1024_1_1_0_0_n_n_wf : DotDims.WF S512x1024 S1024x1024 S512x1024 [1] [1] [0] [0] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x2048x1024.size a
  hwx0_0 : ∀ i : grid0.Coords, EltTy.bits .f32 = 32 ∨ (Rect.block (s := S2x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x512x64.size a ≤ S2x16x2048x64.size a
  hwx0_4 : ∀ i : grid0.Coords, EltTy.bits .bf16 = 32 ∨ (Rect.block (s := S2x16x2048x64) S1x16x512x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x512x64.size a ≤ S2x16x2048x64.size a
  hwx0_5 : ∀ i : grid0.Coords, EltTy.bits .bf16 = 32 ∨ (Rect.block (s := S2x16x2048x64) S1x16x512x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x512x64.size a ≤ S2x16x2048x64.size a
  hwx0_6 : ∀ i : grid0.Coords, EltTy.bits .bf16 = 32 ∨ (Rect.block (s := S2x16x2048x64) S1x16x512x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1024x64.size a ≤ S2x16x2048x64.size a
  hwx1_0 : ∀ i : grid1.Coords, EltTy.bits .bf16 = 32 ∨ (Rect.block (s := S2x16x2048x64) S1x1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024x64.size a ≤ S2x16x2048x64.size a
  hwx1_1 : ∀ i : grid1.Coords, EltTy.bits .bf16 = 32 ∨ (Rect.block (s := S2x16x2048x64) S1x1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024x64.size a ≤ S2x16x2048x64.size a
  hwx1_2 : ∀ i : grid1.Coords, EltTy.bits .bf16 = 32 ∨ (Rect.block (s := S2x16x2048x64) S1x1x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024x64.size a ≤ S2x16x2048x64.size a
  hwx1_3 : ∀ i : grid1.Coords, EltTy.bits .bf16 = 32 ∨ (Rect.block (s := S2x16x2048x64) S1x1x1024x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16x512x64.size a ≤ S2x16x2048x64.size a
  hwx2_0 : ∀ i : grid2.Coords, EltTy.bits .bf16 = 32 ∨ (Rect.block (s := S2x16x2048x64) S1x16x512x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x1024.size a ≤ S2x2048x1024.size a
  hwx2_2 : ∀ i : grid2.Coords, EltTy.bits .f32 = 32 ∨ (Rect.block (s := S2x2048x1024) S1x512x1024.size (cc2_transform_2 i) (hinb2_2 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x16x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x16x512x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_2) S1x16x512x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v3_0) S1x1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1x1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S1x1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev win2_0 : Pipeline.Window sig grid2 :=
  Pipeline.Window.ofSpec (Memref.whole main_v4) S1x16x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2048x2048 : Shape := ⟨2, ![2048, 2048]⟩
abbrev S2x16x2048 : Shape := ⟨3, ![2, 16, 2048]⟩
abbrev S2x16x2048x1 : Shape := ⟨4, ![2, 16, 2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S2x2048x1024, .f32⟩
  | .hbm, ⟨6, _⟩ => ⟨S2x2048x16x64, .f32⟩
  | .hbm, ⟨7, _⟩ => ⟨S2x16x2048x64, .f32⟩
  | .hbm, ⟨8, _⟩ => ⟨S2x2048x1024, .f32⟩
  | .hbm, ⟨9, _⟩ => ⟨S2x2048x16x64, .f32⟩
  | .hbm, ⟨10, _⟩ => ⟨S2x16x2048x64, .f32⟩
  | .hbm, ⟨11, _⟩ => ⟨S2x2048x1024, .f32⟩
  | .hbm, ⟨12, _⟩ => ⟨S2x2048x16x64, .f32⟩
  | .hbm, ⟨13, _⟩ => ⟨S2x16x2048x64, .f32⟩
  | .hbm, ⟨14, _⟩ => ⟨S2x16x2048x2048, .f32⟩
  | .hbm, ⟨15, _⟩ => ⟨S_, .f32⟩
  | .hbm, ⟨16, _⟩ => ⟨S_, .f32⟩
  | .hbm, ⟨17, _⟩ => ⟨S2x16x2048x2048, .f32⟩
  | .hbm, ⟨18, _⟩ => ⟨S2x16x2048x2048, .f32⟩
  | .hbm, ⟨19, _⟩ => ⟨S_, .i1⟩
  | .hbm, ⟨20, _⟩ => ⟨S2048x2048, .i1⟩
  | .hbm, ⟨21, _⟩ => ⟨S2048x2048, .i32⟩
  | .hbm, ⟨22, _⟩ => ⟨S_, .i32⟩
  | .hbm, ⟨23, _⟩ => ⟨S2048x2048, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .i1⟩
  | .hbm, ⟨28, _⟩ => ⟨S2048x2048, .i1⟩
  | .hbm, ⟨29, _⟩ => ⟨S2048x2048, .i1⟩
  | .hbm, ⟨30, _⟩ => ⟨S_, .f32⟩
  | .hbm, ⟨31, _⟩ => ⟨S_, .f32⟩
  | .hbm, ⟨32, _⟩ => ⟨S2x16x2048x2048, .i1⟩
  | .hbm, ⟨33, _⟩ => ⟨S2x16x2048x2048, .f32⟩
  | .hbm, ⟨34, _⟩ => ⟨S2x16x2048x2048, .f32⟩
  | .hbm, ⟨35, _⟩ => ⟨S_, .f32⟩
  | .hbm, ⟨36, _⟩ => ⟨S2x16x2048, .f32⟩
  | .hbm, ⟨37, _⟩ => ⟨S_, .f32⟩
  | .hbm, ⟨38, _⟩ => ⟨S2x16x2048, .f32⟩
  | .hbm, ⟨39, _⟩ => ⟨S2x16x2048, .f32⟩
  | .hbm, ⟨40, _⟩ => ⟨S2x16x2048x1, .f32⟩
  | .hbm, ⟨41, _⟩ => ⟨S2x16x2048x2048, .f32⟩
  | .hbm, ⟨42, _⟩ => ⟨S2x16x2048x2048, .f32⟩
  | .hbm, ⟨43, _⟩ => ⟨S2x16x2048x2048, .f32⟩
  | .hbm, ⟨44, _⟩ => ⟨S_, .f32⟩
  | .hbm, ⟨45, _⟩ => ⟨S2x16x2048, .f32⟩
  | .hbm, ⟨46, _⟩ => ⟨S2x16x2048x1, .f32⟩
  | .hbm, ⟨47, _⟩ => ⟨S2x16x2048x2048, .f32⟩
  | .hbm, ⟨48, _⟩ => ⟨S2x16x2048x2048, .f32⟩
  | .hbm, ⟨49, _⟩ => ⟨S2x16x2048x64, .f32⟩
  | .hbm, ⟨50, _⟩ => ⟨S2x2048x16x64, .f32⟩
  | .hbm, ⟨51, _⟩ => ⟨S2x2048x1024, .f32⟩
  | .hbm, ⟨52, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_0 : Ref sig .tc := ⟨.hbm, 27, rfl⟩
abbrev main_call0_v5 : Ref sig .tc := ⟨.hbm, 28, rfl⟩
abbrev main_v14 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S_S2048x2048 : S_.BroadcastsInDim S2048x2048 (![] : Fin 0 → Fin S2048x2048.rank)
  bcast_S2048x2048_S2x16x2048x2048_2_3 : S2048x2048.BroadcastsInDim S2x16x2048x2048 (![2, 3] : Fin 2 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.WR0Defs.lean ====
import proofs.«412418_j10084583211544_3_alg».proof.Proof.Gen.Kernel.Launch
import proofs.«412418_j10084583211544_3_alg».proof.Proof.Gen.Kernel.Skeleton
import proofs.«412418_j10084583211544_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The projection kernel (the first region): what a grid point reads and what it leaves

A grid point (b, s) of the first region reads the 512 rows `x[b, 512 s .. 512 s + 511, :]` and the three
weight matrices whole, forms the three products `x · Wᵀ` (rows by output channel) and writes each product's
sixteen column bands of width 64 into the sixteen heads of its output block. -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole row block of `x`, and a whole weight matrix. -/
abbrev rX0 : Rect S1x512x1024 := Rect.unit (s := S1x512x1024) ![0, 0, 0] S1x512x1024.size inb_S1x512x1024_S1x512x1024_0_0_0
abbrev rW0 : Rect S1024x1024 := Rect.unit (s := S1024x1024) ![0, 0] S1024x1024.size inb_S1024x1024_S1024x1024_0_0
/-- Head `h` of an output block: the rectangle `[0, h, 0..511, 0..63]`. -/
abbrev rH0_0 : Rect S1x16x512x64 := Rect.unit (s := S1x16x512x64) ![0, 0, 0, 0] S1x1x512x64.size inb_S1x16x512x64_S1x1x512x64_0_0_0_0
abbrev rH0_1 : Rect S1x16x512x64 := Rect.unit (s := S1x16x512x64) ![0, 1, 0, 0] S1x1x512x64.size inb_S1x16x512x64_S1x1x512x64_0_1_0_0
abbrev rH0_2 : Rect S1x16x512x64 := Rect.unit (s := S1x16x512x64) ![0, 2, 0, 0] S1x1x512x64.size inb_S1x16x512x64_S1x1x512x64_0_2_0_0
abbrev rH0_3 : Rect S1x16x512x64 := Rect.unit (s := S1x16x512x64) ![0, 3, 0, 0] S1x1x512x64.size inb_S1x16x512x64_S1x1x512x64_0_3_0_0
abbrev rH0_4 : Rect S1x16x512x64 := Rect.unit (s := S1x16x512x64) ![0, 4, 0, 0] S1x1x512x64.size inb_S1x16x512x64_S1x1x512x64_0_4_0_0
abbrev rH0_5 : Rect S1x16x512x64 := Rect.unit (s := S1x16x512x64) ![0, 5, 0, 0] S1x1x512x64.size inb_S1x16x512x64_S1x1x512x64_0_5_0_0
abbrev rH0_6 : Rect S1x16x512x64 := Rect.unit (s := S1x16x512x64) ![0, 6, 0, 0] S1x1x512x64.size inb_S1x16x512x64_S1x1x512x64_0_6_0_0
abbrev rH0_7 : Rect S1x16x512x64 := Rect.unit (s := S1x16x512x64) ![0, 7, 0, 0] S1x1x512x64.size inb_S1x16x512x64_S1x1x512x64_0_7_0_0
abbrev rH0_8 : Rect S1x16x512x64 := Rect.unit (s := S1x16x512x64) ![0, 8, 0, 0] S1x1x512x64.size inb_S1x16x512x64_S1x1x512x64_0_8_0_0
abbrev rH0_9 : Rect S1x16x512x64 := Rect.unit (s := S1x16x512x64) ![0, 9, 0, 0] S1x1x512x64.size inb_S1x16x512x64_S1x1x512x64_0_9_0_0
abbrev rH0_10 : Rect S1x16x512x64 := Rect.unit (s := S1x16x512x64) ![0, 10, 0, 0] S1x1x512x64.size inb_S1x16x512x64_S1x1x512x64_0_10_0_0
abbrev rH0_11 : Rect S1x16x512x64 := Rect.unit (s := S1x16x512x64) ![0, 11, 0, 0] S1x1x512x64.size inb_S1x16x512x64_S1x1x512x64_0_11_0_0
abbrev rH0_12 : Rect S1x16x512x64 := Rect.unit (s := S1x16x512x64) ![0, 12, 0, 0] S1x1x512x64.size inb_S1x16x512x64_S1x1x512x64_0_12_0_0
abbrev rH0_13 : Rect S1x16x512x64 := Rect.unit (s := S1x16x512x64) ![0, 13, 0, 0] S1x1x512x64.size inb_S1x16x512x64_S1x1x512x64_0_13_0_0
abbrev rH0_14 : Rect S1x16x512x64 := Rect.unit (s := S1x16x512x64) ![0, 14, 0, 0] S1x1x512x64.size inb_S1x16x512x64_S1x1x512x64_0_14_0_0
abbrev rH0_15 : Rect S1x16x512x64 := Rect.unit (s := S1x16x512x64) ![0, 15, 0, 0] S1x1x512x64.size inb_S1x16x512x64_S1x1x512x64_0_15_0_0

/-- The query block a point leaves: head `h` holds columns `64 h .. 64 h + 63` of `x · Wqᵀ` (the stores, last first). -/
def out0_4 (x0 : Vec F S1x512x1024 .f32) (x1 : Vec F S1024x1024 .bf16) : Vec F S1x16x512x64 .bf16 :=
  let v0 := View.ld x0 rX0
  let v3 := View.ld x1 rW0
  View.canon [⟨rH0_15, k0_pay24 (k0_pay7 v0 v3)⟩,
    ⟨rH0_14, k0_pay23 (k0_pay7 v0 v3)⟩,
    ⟨rH0_13, k0_pay22 (k0_pay7 v0 v3)⟩,
    ⟨rH0_12, k0_pay21 (k0_pay7 v0 v3)⟩,
    ⟨rH0_11, k0_pay20 (k0_pay19 (k0_pay7 v0 v3))⟩,
    ⟨rH0_10, k0_pay18 (k0_pay7 v0 v3)⟩,
    ⟨rH0_9, k0_pay17 (k0_pay7 v0 v3)⟩,
    ⟨rH0_8, k0_pay16 (k0_pay7 v0 v3)⟩,
    ⟨rH0_7, k0_pay15 (k0_pay7 v0 v3)⟩,
    ⟨rH0_6, k0_pay14 (k0_pay7 v0 v3)⟩,
    ⟨rH0_5, k0_pay13 (k0_pay7 v0 v3)⟩,
    ⟨rH0_4, k0_pay12 v0 v3⟩,
    ⟨rH0_3, k0_pay11 v0 v3⟩,
    ⟨rH0_2, k0_pay10 v0 v3⟩,
    ⟨rH0_1, k0_pay9 v0 v3⟩,
    ⟨rH0_0, k0_pay8 v0 v3⟩]

/-- The key block a point leaves, from `x` and `Wk`. -/
def out0_5 (x0 : Vec F S1x512x1024 .f32) (x2 : Vec F S1024x1024 .bf16) : Vec F S1x16x512x64 .bf16 :=
  let v0 := View.ld x0 rX0
  let v71 := View.ld x2 rW0
  View.canon [⟨rH0_15, k0_pay43 (k0_pay25 (k0_pay6 v0) v71)⟩,
    ⟨rH0_14, k0_pay42 (k0_pay25 (k0_pay6 v0) v71)⟩,
    ⟨rH0_13, k0_pay41 (k0_pay25 (k0_pay6 v0) v71)⟩,
    ⟨rH0_12, k0_pay40 (k0_pay25 (k0_pay6 v0) v71)⟩,
    ⟨rH0_11, k0_pay39 (k0_pay25 (k0_pay6 v0) v71)⟩,
    ⟨rH0_10, k0_pay38 (k0_pay25 (k0_pay6 v0) v71)⟩,
    ⟨rH0_9, k0_pay37 (k0_pay25 (k0_pay6 v0) v71)⟩,
    ⟨rH0_8, k0_pay36 (k0_pay35 (k0_pay25 (k0_pay6 v0) v71))⟩,
    ⟨rH0_7, k0_pay34 (k0_pay25 (k0_pay6 v0) v71)⟩,
    ⟨rH0_6, k0_pay33 (k0_pay25 (k0_pay6 v0) v71)⟩,
    ⟨rH0_5, k0_pay32 (k0_pay25 (k0_pay6 v0) v71)⟩,
    ⟨rH0_4, k0_pay31 (k0_pay25 (k0_pay6 v0) v71)⟩,
    ⟨rH0_3, k0_pay30 (k0_pay25 (k0_pay6 v0) v71)⟩,
    ⟨rH0_2, k0_pay29 (k0_pay25 (k0_pay6 v0) v71)⟩,
    ⟨rH0_1, k0_pay28 (k0_pay27 (k0_pay6 v0) v71)⟩,
    ⟨rH0_0, k0_pay26 (k0_pay6 v0) v71⟩]

/-- The value block a point leaves, from `x` and `Wv`. -/
def out0_6 (x0 : Vec F S1x512x1024 .f32) (x3 : Vec F S1024x1024 .bf16) : Vec F S1x16x512x64 .bf16 :=
  let v0 := View.ld x0 rX0
  let v139 := View.ld x3 rW0
  View.canon [⟨rH0_15, k0_pay5 (k0_pay44 (k0_pay6 v0) v139)⟩,
    ⟨rH0_14, k0_pay4 (k0_pay44 (k0_pay6 v0) v139)⟩,
    ⟨rH0_13, k0_pay3 (k0_pay44 (k0_pay6 v0) v139)⟩,
    ⟨rH0_12, k0_pay2 (k0_pay44 (k0_pay6 v0) v139)⟩,
    ⟨rH0_11, k0_pay1 (k0_pay57 (k0_pay44 (k0_pay6 v0) v139))⟩,
    ⟨rH0_10, k0_pay56 (k0_pay44 (k0_pay6 v0) v139)⟩,
    ⟨rH0_9, k0_pay55 (k0_pay44 (k0_pay6 v0) v139)⟩,
    ⟨rH0_8, k0_pay54 (k0_pay44 (k0_pay6 v0) v139)⟩,
    ⟨rH0_7, k0_pay53 (k0_pay44 (k0_pay6 v0) v139)⟩,
    ⟨rH0_6, k0_pay52 (k0_pay44 (k0_pay6 v0) v139)⟩,
    ⟨rH0_5, k0_pay51 (k0_pay44 (k0_pay6 v0) v139)⟩,
    ⟨rH0_4, k0_pay50 (k0_pay49 (k0_pay6 v0) v139)⟩,
    ⟨rH0_3, k0_pay48 (k0_pay6 v0) v139⟩,
    ⟨rH0_2, k0_pay47 (k0_pay6 v0) v139⟩,
    ⟨rH0_1, k0_pay46 (k0_pay6 v0) v139⟩,
    ⟨rH0_0, k0_pay45 (k0_pay6 v0) v139⟩]

/-- The proof data of the first region on core `c`: the arrays as the region finds them; after the body at a point each
    input's buffer still at its block and each output's at the block above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

end Cert.Kernel.Hand

end
-- ==== Proof.WR0Body.lean ====
import proofs.«412418_j10084583211544_3_alg».proof.Proof.WR0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What a point finds in its four input buffers

The row block of `x` moves with every point; each weight matrix is one block for the whole grid, brought in at the
first point only. Either way the buffer holds the window's block at every point: where nothing was brought in, the
block index has not moved since the point before. -/

/-- The rows of `x` a point works on are in the first buffer. -/
theorem rows_found (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The query weights are in the second buffer at every point, brought in at the first. -/
theorem wq_found (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The key weights likewise, in the third buffer. -/
theorem wk_found (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- The value weights likewise, in the fourth buffer. -/
theorem wv_found (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-! ## The sixteen heads tile an output block

An output block is `[1, 16, 512, 64]`; head `h` is the rectangle `[0, h, 0..511, 0..63]`. One band per head, whatever
the bands hold, leaves no entry of the block unwritten. -/

theorem heads_cover (p0 p1 p2 p3 p4 p5 p6 p7 p8 p9 p10 p11 p12 p13 p14 p15 : Vec F S1x1x512x64 .bf16) (y : S1x16x512x64.Idx) :
    ∃ pc ∈ ([⟨rH0_15, p15⟩, ⟨rH0_14, p14⟩, ⟨rH0_13, p13⟩, ⟨rH0_12, p12⟩, ⟨rH0_11, p11⟩, ⟨rH0_10, p10⟩, ⟨rH0_9, p9⟩, ⟨rH0_8, p8⟩, ⟨rH0_7, p7⟩, ⟨rH0_6, p6⟩, ⟨rH0_5, p5⟩, ⟨rH0_4, p4⟩, ⟨rH0_3, p3⟩, ⟨rH0_2, p2⟩, ⟨rH0_1, p1⟩, ⟨rH0_0, p0⟩] : List (View.Piece (Elt F) S1x16x512x64 .bf16)), y ∈ pc.1.set :=
  View.cover_of_tiled (s := S1x16x512x64) [⟨rH0_15, p15⟩, ⟨rH0_14, p14⟩, ⟨rH0_13, p13⟩, ⟨rH0_12, p12⟩, ⟨rH0_11, p11⟩, ⟨rH0_10, p10⟩, ⟨rH0_9, p9⟩, ⟨rH0_8, p8⟩, ⟨rH0_7, p7⟩, ⟨rH0_6, p6⟩, ⟨rH0_5, p5⟩, ⟨rH0_4, p4⟩, ⟨rH0_3, p3⟩, ⟨rH0_2, p2⟩, ⟨rH0_1, p1⟩, ⟨rH0_0, p0⟩] S1x1x512x64.size (by rfl) y

/-! ## The body's triple -/

set_option maxHeartbeats 4000000 in
/-- The projection body on whole buffers — the rows `x0` and the three weight matrices `x1 x2 x3` as read, the three
    output buffers at anything (the body reads each head before it writes it and drops what it read) — runs to its
    return with the inputs as they were and the outputs at the query, key and value blocks of `x0`. -/
theorem projection_body (c : Dev nD) (E : Set ℕ) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x16x512x64 .bf16) (harg6 : arg6.IsWhole)
    (arg7 : Memref sig .tc .vmem S1x16x512x64 .bf16) (harg7 : arg7.IsWhole)
    (arg8 : Memref sig .tc .vmem S1x16x512x64 .bf16) (harg8 : arg8.IsWhole)
    (x0 : Vec F S1x512x1024 .f32) (x1 x2 x3 : Vec F S1024x1024 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0_4 x0 x1) ∗ owns (c : Thread nD τ) arg7 fullShare (out0_5 x0 x2)
            ∗ owns (c : Thread nD τ) arg8 fullShare (out0_6 x0 x3)) -∗ K ⟨⟩))
      ⊢ wp frame (wpE (defs₀ (F := F)) Variants.none c none) E
          (cc0__qkv_fused_kernel i arg2 harg2 arg3 harg3 arg4 harg4 arg5 harg5 arg6 harg6 arg7 harg7 arg8 harg8) K := by
  simp only [cc0__qkv_fused_kernel_eq_skeleton]; unfold cc0__qkv_fused_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold out0_4
    sl_unfold_run_names
    exact View.read_writes_eq_canon _ _ _ (heads_cover _ _ _ _ _ _ _ _ _ _ _ _ _ _ _ _)
  isplitl [H5]
  · iexists _; isplitr
    swap; · iexact H5
    ipureintro
    unfold out0_5
    sl_unfold_run_names
    exact View.read_writes_eq_canon _ _ _ (heads_cover _ _ _ _ _ _ _ _ _ _ _ _ _ _ _ _)
  iexists _; isplitr
  swap; · iexact H6
  ipureintro
  unfold out0_6
  sl_unfold_run_names
  exact View.read_writes_eq_canon _ _ _ (heads_cover _ _ _ _ _ _ _ _ _ _ _ _ _ _ _ _)

/-! ## The body obligation, at a generic point -/

/-- What the body is called with at point `t`: the invariant, what the core owes, and each window's current buffer. -/
def pointPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns: the same invariant and debt, the inputs' buffers at their blocks, the outputs' at the three
    projections of the point's rows. -/
def pointPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the four input buffers hold their blocks, so the body's triple applies to them; the
    invariant and the core's debt pass through unread. -/
theorem projection_point (c : Dev nD) (t : Fin cfg0.N) :
    pointPre V c t ⊢ wp frame (wpE (defs₀ (F := F)) Variants.none c none) Set.univ (bodyAt0 t) (fun _ => pointPost V c t) := by
  unfold pointPre pointPost bodyAt0
  simp only [rows_found, wq_found, wk_found, wv_found]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (projection_body c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation of region 0, at every point. -/
theorem body_obligation0 (c : Dev nD) : BodyObligation (dat0 (F := F) V c) (defs₀ (F := F)) Variants.none () Set.univ := by
  intro t
  rw [bigSep_W0, bigSep_W0]
  exact projection_point V c t

end Cert.Kernel.Hand

end
-- ==== Proof.WR1Defs.lean ====
import proofs.«412418_j10084583211544_3_alg».proof.Proof.Gen.Kernel.Launch
import proofs.«412418_j10084583211544_3_alg».proof.Proof.Gen.Kernel.Skeleton
import proofs.«412418_j10084583211544_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The attention kernel (the second region): the running state, point by point

A grid point (b, h, qt, kv) of the second region works on query rows `1024 qt .. 1024 qt + 1023` of head (b, h) against key and
value rows `1024 kv ..`. Three scratch buffers carry, between the points of one (b, h, qt), the running row maximum `m`, the
running denominator `l` and the running numerator `acc`. At `kv = 0` the three are reset; where `kv ≤ qt` they are updated
from the score tile; at `kv = 1` the quotient `acc / l` is stored into the output block. -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running state: row maximum, denominator, numerator. -/
abbrev St (F : FTy → Type) [FloatOps F] : Type := Vec F S1024x1 .f32 × Vec F S1024x1 .f32 × Vec F S1024x64 .f32

/-- The three scratch buffers, whole. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2

/-- The whole blocks the body loads and stores. -/
abbrev rQ1 : Rect S1x1x1024x64 := Rect.unit (s := S1x1x1024x64) ![0, 0, 0, 0] S1x1x1024x64.size inb_S1x1x1024x64_S1x1x1024x64_0_0_0_0
abbrev rM1 : Rect S1024x1 := Rect.unit (s := S1024x1) ![0, 0] S1024x1.size inb_S1024x1_S1024x1_0_0
abbrev rA1 : Rect S1024x64 := Rect.unit (s := S1024x64) ![0, 0] S1024x64.size inb_S1024x64_S1024x64_0_0

/-- The state a reset leaves: maximum -inf, denominator 0, numerator 0. -/
def reset1 : St F := (k1_pay1, k1_pay2, k1_pay3)

/-- One update of the running state from the score tile of query tile `a2` against key tile `a3`: the new maximum; the
    denominator rescaled by `exp (m - m')` plus the tile's row sums of `exp (s - m')`; the numerator rescaled the same way
    plus `exp (s - m') · v`. -/
def comp1 (a2 a3 : BitVec 32) (xq xk xv : Vec F S1x1x1024x64 .bf16) (s : St F) : St F :=
  (k1_pay6 (k1_pay10 a2 a3 xq xk s.1),
   k1_pay4 (k1_pay12 a2 a3 xq xk s.1) (k1_pay13 a2 a3 xq xk s.1 s.1 s.2.1),
   k1_pay5 (k1_pay8 xv) (k1_pay11 a2 a3 xq xk s.1 s.1) (k1_pay12 a2 a3 xq xk s.1) s.2.2)

/-- What a finishing point stores into the output block: numerator over denominator. -/
def fin1 (s : St F) : Vec F S1x1x1024x64 .bf16 := k1_pay7 s.2.2 s.2.1

/-- One point's effect on the running state: reset where `kv = 0`, then update where `kv ≤ qt`. -/
def step1 (c : Dev nD) (t : Fin cfg1.N) (s : St F) : St F :=
  let i := grid1.coords t
  let s0 : St F := if (i 3).val = 0 then reset1 else s
  if (i 3).val ≤ (i 2).val then
    comp1 (BitVec.ofNat 32 (i 2).val) (BitVec.ofNat 32 (i 3).val) (iblk1 V c 0 t) (iblk1 V c 1 t) (iblk1 V c 2 t) s0
  else s0

/-- The running state after the body at position `n`. -/
def stAt1 (c : Dev nD) : (n : ℕ) → n < cfg1.N → St F
  | 0, h => step1 V c ⟨0, h⟩ reset1
  | n + 1, h => step1 V c ⟨n + 1, h⟩ (stAt1 c n (Nat.lt_of_succ_lt h))

theorem stAt1_zero (c : Dev nD) (h : 0 < cfg1.N) : stAt1 V c 0 h = step1 V c ⟨0, h⟩ reset1 := rfl
theorem stAt1_succ (c : Dev nD) (n : ℕ) (h : n + 1 < cfg1.N) :
    stAt1 V c (n + 1) h = step1 V c ⟨n + 1, h⟩ (stAt1 V c n (Nat.lt_of_succ_lt h)) := rfl

/-- The other two kernels' staging buffers, at some contents each: scoped buffers this kernel never touches. -/
def restA1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))
def restB1 (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

/-- The region invariant before position `n`: before the first point the scoped rest at anything; afterwards the three scratch
    buffers at the running state the point before left, everything else at anything. -/
def PhiS1 (c : Dev nD) : (n : ℕ) → n ≤ cfg1.N → sProp 𝕄
  | 0, _ => Pipeline.ΦA spec1 c
  | n + 1, hn => iprop(restA1 (F := F) c ∗ owns (c : Thread nD τ) scM1_0 fullShare (stAt1 V c n hn).1
      ∗ owns (c : Thread nD τ) scM1_1 fullShare (stAt1 V c n hn).2.1 ∗ owns (c : Thread nD τ) scM1_2 fullShare (stAt1 V c n hn).2.2
      ∗ restB1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(restA1 (F := F) c ∗ owns (c : Thread nD τ) scM1_0 fullShare (stAt1 V c n hn).1
      ∗ owns (c : Thread nD τ) scM1_1 fullShare (stAt1 V c n hn).2.1 ∗ owns (c : Thread nD τ) scM1_2 fullShare (stAt1 V c n hn).2.2
      ∗ restB1 (F := F) c ∗ (∃ r, prngReg c r)) := rfl

theorem PhiS1_pos (c : Dev nD) (n : ℕ) (h : n ≤ cfg1.N) (hz : n ≠ 0) :
    PhiS1 V c n h = iprop(restA1 (F := F) c ∗ owns (c : Thread nD τ) scM1_0 fullShare (stAt1 V c (n - 1) (by omega)).1
      ∗ owns (c : Thread nD τ) scM1_1 fullShare (stAt1 V c (n - 1) (by omega)).2.1 ∗ owns (c : Thread nD τ) scM1_2 fullShare (stAt1 V c (n - 1) (by omega)).2.2
      ∗ restB1 (F := F) c ∗ (∃ r, prngReg c r)) := by
  cases n with
  | zero => exact absurd rfl hz
  | succ n => rfl

/-- The proof data of the second region on core `c`: each input's buffer left at its block; the output's, at a finishing point,
    at the quotient of the running state; the invariant carrying the running state; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => fin1 (stAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = fin1 (stAt1 V c t.val t.isLt) := by dsimp only [dat1]
theorem Phi1_castSucc (c : Dev nD) (t : Fin cfg1.N) : (dat1 V c).Φ t.castSucc = PhiS1 V c t.val (Nat.le_of_lt t.isLt) := by
  dsimp only [dat1]; simp only [Fin.coe_castSucc]

end Cert.Kernel.Hand

end
-- ==== Proof.WR1Run.lean ====
import proofs.«412418_j10084583211544_3_alg».proof.Proof.WR1Defs
import Idealize.ShloMosaic.Lib.Pipeline.Value
import Mathlib.Tactic.IntervalCases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The attention kernel's body, run once per control case

The body branches three times on the grid coordinates: reset where `kv = 0`, update where `kv ≤ qt`, store the quotient where
`kv = 1`. On the grid (qt, kv ∈ {0, 1}) three combinations occur. Each run below is on whole staging memrefs and whole scratch
memrefs; the inputs' blocks come back as they were. -/

/-! ## The three conditions, as words of the coordinates -/

/-- The reset test (kv = 0), as the body computes it. -/
abbrev w1 (i : grid1.Coords) : BitVec 1 :=
  Scalar.cmpi .ne (Scalar.extui (Scalar.cmpi .eq (BitVec.ofNat 32 (i 3).val) 0#32)) 0#32

/-- The update test (kv ≤ qt), as the body computes it. -/
abbrev w2 (i : grid1.Coords) : BitVec 1 :=
  Scalar.cmpi .ne (Scalar.extui (Scalar.cmpi .sle (BitVec.ofNat 32 (i 3).val) (BitVec.ofNat 32 (i 2).val))) 0#32

theorem w1_of_kv0 (i : grid1.Coords) (hkv : (i 3).val = 0) : w1 i = 1#1 := by
  unfold w1; rw [hkv]; decide

theorem w1_of_kv1 (i : grid1.Coords) (hkv : (i 3).val = 1) : ¬ w1 i = 1#1 := by
  unfold w1; rw [hkv]; decide

theorem w2_of_kv0 (i : grid1.Coords) (hkv : (i 3).val = 0) : w2 i = 1#1 := by
  have h2 : (i 2).val < 2 := (i 2).isLt
  unfold w2; rw [hkv]
  generalize (i 2).val = n at h2
  interval_cases n <;> decide

theorem w2_of_01 (i : grid1.Coords) (hqt : (i 2).val = 0) (hkv : (i 3).val = 1) : ¬ w2 i = 1#1 := by
  unfold w2; rw [hqt, hkv]; decide

theorem w2_of_11 (i : grid1.Coords) (hqt : (i 2).val = 1) (hkv : (i 3).val = 1) : w2 i = 1#1 := by
  unfold w2; rw [hqt, hkv]; decide

theorem c3_of_kv0 (i : grid1.Coords) (hkv : (i 3).val = 0) : ¬ k1_cond3 i = 1#1 := by
  unfold k1_cond3; rw [hkv]; decide

theorem c3_of_kv1 (i : grid1.Coords) (hkv : (i 3).val = 1) : k1_cond3 i = 1#1 := by
  unfold k1_cond3; rw [hkv]; decide

/-- The zero offsets of the whole rectangles, in the two ranks met. -/
theorem hz4 : (![0, 0, 0, 0] : Fin 4 → Nat) = fun _ => 0 := funext fun a => by fin_cases a <;> rfl
theorem hz2 : (![0, 0] : Fin 2 → Nat) = fun _ => 0 := funext fun a => by fin_cases a <;> rfl

/-- What a buffer reads after a last store through the whole rectangle at zero offsets: that store's payload, whatever was
    stored before and whatever the buffer held. Stated over an abstract shape. -/
theorem read_writes_cons_unit_zero {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨(⟨Rect.unit off S.size inb, w⟩ : View.Piece Val S e), List.mem_cons.mpr (Or.inl rfl),
    View.mem_set_unit_zero h inb y⟩)]
  exact View.canon_cons_unit_zero h inb w L

/-! ## Whole loads and whole stores

A load through the whole rectangle reads the contents of a whole memref; after one whole store it reads that store's payload,
whatever the buffer held before; and a buffer whose last store was whole reads that store's payload. One statement per shape
met. -/

theorem rdQ {m : Memref sig .tc .vmem S1x1x1024x64 .bf16} (h : m.IsWhole) (X : Vec F S1x1x1024x64 .bf16) :
    View.readAt (Elt F) m.view (Rect.unit (s := S1x1x1024x64) ![0, 0, 0, 0] S1x1x1024x64.size inb_S1x1x1024x64_S1x1x1024x64_0_0_0_0).toLoadRect (h.unread X) = X := by
  rw [View.readAt_eq_ld, h.read_unread]; exact View.ld_unit_zero (S := S1x1x1024x64) hz4 _ X

theorem rdM {m : Memref sig .tc .vmem S1024x1 .f32} (h : m.IsWhole) (X : Vec F S1024x1 .f32) :
    View.readAt (Elt F) m.view (Rect.unit (s := S1024x1) ![0, 0] S1024x1.size inb_S1024x1_S1024x1_0_0).toLoadRect (h.unread X) = X := by
  rw [View.readAt_eq_ld, h.read_unread]; exact View.ld_unit_zero (S := S1024x1) hz2 _ X

theorem rdA {m : Memref sig .tc .vmem S1024x64 .f32} (h : m.IsWhole) (X : Vec F S1024x64 .f32) :
    View.readAt (Elt F) m.view (Rect.unit (s := S1024x64) ![0, 0] S1024x64.size inb_S1024x64_S1024x64_0_0).toLoadRect (h.unread X) = X := by
  rw [View.readAt_eq_ld, h.read_unread]; exact View.ld_unit_zero (S := S1024x64) hz2 _ X

theorem rcM (m : Memref sig .tc .vmem S1024x1 .f32) (w : Vec F S1024x1 .f32) :
    m.view.readCov [(⟨Rect.unit (s := S1024x1) ![0, 0] S1024x1.size inb_S1024x1_S1024x1_0_0, w⟩ : View.Piece (Elt F) S1024x1 .f32)]
      (Rect.unit (s := S1024x1) ![0, 0] S1024x1.size inb_S1024x1_S1024x1_0_0).toLoadRect = w :=
  View.readCov_unit_zero (S := S1024x1) _ hz2 _ w

theorem rcA (m : Memref sig .tc .vmem S1024x64 .f32) (w : Vec F S1024x64 .f32) :
    m.view.readCov [(⟨Rect.unit (s := S1024x64) ![0, 0] S1024x64.size inb_S1024x64_S1024x64_0_0, w⟩ : View.Piece (Elt F) S1024x64 .f32)]
      (Rect.unit (s := S1024x64) ![0, 0] S1024x64.size inb_S1024x64_S1024x64_0_0).toLoadRect = w :=
  View.readCov_unit_zero (S := S1024x64) _ hz2 _ w

theorem wrM (m : Memref sig .tc .vmem S1024x1 .f32) (f : m.view.ty.Contents (Elt F)) (w : Vec F S1024x1 .f32) (L : List (View.Piece (Elt F) S1024x1 .f32)) :
    m.view.read (Elt F) (m.view.writes (Elt F) f ((⟨Rect.unit (s := S1024x1) ![0, 0] S1024x1.size inb_S1024x1_S1024x1_0_0, w⟩ : View.Piece (Elt F) S1024x1 .f32) :: L)) = w :=
  read_writes_cons_unit_zero (S := S1024x1) m.view f hz2 inb_S1024x1_S1024x1_0_0 w L

theorem wrA (m : Memref sig .tc .vmem S1024x64 .f32) (f : m.view.ty.Contents (Elt F)) (w : Vec F S1024x64 .f32) (L : List (View.Piece (Elt F) S1024x64 .f32)) :
    m.view.read (Elt F) (m.view.writes (Elt F) f ((⟨Rect.unit (s := S1024x64) ![0, 0] S1024x64.size inb_S1024x64_S1024x64_0_0, w⟩ : View.Piece (Elt F) S1024x64 .f32) :: L)) = w :=
  read_writes_cons_unit_zero (S := S1024x64) m.view f hz2 inb_S1024x64_S1024x64_0_0 w L

theorem wrQ (m : Memref sig .tc .vmem S1x1x1024x64 .bf16) (f : m.view.ty.Contents (Elt F)) (w : Vec F S1x1x1024x64 .bf16) (L : List (View.Piece (Elt F) S1x1x1024x64 .bf16)) :
    m.view.read (Elt F) (m.view.writes (Elt F) f ((⟨Rect.unit (s := S1x1x1024x64) ![0, 0, 0, 0] S1x1x1024x64.size inb_S1x1x1024x64_S1x1x1024x64_0_0_0_0, w⟩ : View.Piece (Elt F) S1x1x1024x64 .bf16) :: L)) = w :=
  read_writes_cons_unit_zero (S := S1x1x1024x64) m.view f hz4 inb_S1x1x1024x64_S1x1x1024x64_0_0_0_0 w L

/-- The same five loads, with the rectangle's sizes written out as literals. -/
theorem rdQ' {m : Memref sig .tc .vmem S1x1x1024x64 .bf16} (h : m.IsWhole) (X : Vec F S1x1x1024x64 .bf16) :
    View.readAt (Elt F) m.view (Rect.unit (s := S1x1x1024x64) ![0, 0, 0, 0] ![1, 1, 1024, 64] inb_S1x1x1024x64_S1x1x1024x64_0_0_0_0).toLoadRect (h.unread X) = X :=
  rdQ h X

theorem rdM' {m : Memref sig .tc .vmem S1024x1 .f32} (h : m.IsWhole) (X : Vec F S1024x1 .f32) :
    View.readAt (Elt F) m.view (Rect.unit (s := S1024x1) ![0, 0] ![1024, 1] inb_S1024x1_S1024x1_0_0).toLoadRect (h.unread X) = X :=
  rdM h X

theorem rdA' {m : Memref sig .tc .vmem S1024x64 .f32} (h : m.IsWhole) (X : Vec F S1024x64 .f32) :
    View.readAt (Elt F) m.view (Rect.unit (s := S1024x64) ![0, 0] ![1024, 64] inb_S1024x64_S1024x64_0_0).toLoadRect (h.unread X) = X :=
  rdA h X

theorem rcM' (m : Memref sig .tc .vmem S1024x1 .f32) (w : Vec F S1024x1 .f32) :
    m.view.readCov [(⟨Rect.unit (s := S1024x1) ![0, 0] ![1024, 1] inb_S1024x1_S1024x1_0_0, w⟩ : View.Piece (Elt F) S1024x1 .f32)]
      (Rect.unit (s := S1024x1) ![0, 0] ![1024, 1] inb_S1024x1_S1024x1_0_0).toLoadRect = w :=
  rcM m w

theorem rcA' (m : Memref sig .tc .vmem S1024x64 .f32) (w : Vec F S1024x64 .f32) :
    m.view.readCov [(⟨Rect.unit (s := S1024x64) ![0, 0] ![1024, 64] inb_S1024x64_S1024x64_0_0, w⟩ : View.Piece (Elt F) S1024x64 .f32)]
      (Rect.unit (s := S1024x64) ![0, 0] ![1024, 64] inb_S1024x64_S1024x64_0_0).toLoadRect = w :=
  rcA m w

variable (c : Dev nD)

set_option maxHeartbeats 4000000 in
/-- `kv = 0` (so `kv ≤ qt`): the scratch, at anything, is reset and updated once from the tile; the output block is not touched. -/
theorem run1_A (i : grid1.Coords) (hkv : (i 3).val = 0)
    (arg4 : Memref sig .tc .vmem S1x1x1024x64 .bf16) (harg4 : arg4.IsWhole) (arg5 : Memref sig .tc .vmem S1x1x1024x64 .bf16) (harg5 : arg5.IsWhole)
    (arg6 : Memref sig .tc .vmem S1x1x1024x64 .bf16) (harg6 : arg6.IsWhole) (arg7 : Memref sig .tc .vmem S1x1x1024x64 .bf16) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x64 .f32) (harg10 : arg10.IsWhole)
    (xq xk xv xo : Vec F S1x1x1024x64 .bf16) (E : Set ℕ) (K : PUnit → sProp 𝕄) :
    iprop(owns (c : Thread nD τ) arg4 fullShare xq ∗ owns (c : Thread nD τ) arg5 fullShare xk ∗ owns (c : Thread nD τ) arg6 fullShare xv ∗ owns (c : Thread nD τ) arg7 fullShare xo
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg4 fullShare xq ∗ owns (c : Thread nD τ) arg5 fullShare xk ∗ owns (c : Thread nD τ) arg6 fullShare xv ∗ owns (c : Thread nD τ) arg7 fullShare xo
            ∗ owns (c : Thread nD τ) arg8 fullShare (comp1 (BitVec.ofNat 32 (i 2).val) (BitVec.ofNat 32 (i 3).val) xq xk xv reset1).1
            ∗ owns (c : Thread nD τ) arg9 fullShare (comp1 (BitVec.ofNat 32 (i 2).val) (BitVec.ofNat 32 (i 3).val) xq xk xv reset1).2.1
            ∗ owns (c : Thread nD τ) arg10 fullShare (comp1 (BitVec.ofNat 32 (i 2).val) (BitVec.ofNat 32 (i 3).val) xq xk xv reset1).2.2) -∗ K ⟨⟩))
      ⊢ wp frame (wpE (defs₀ (F := F)) Variants.none c none) E (cc1_kernel i arg4 harg4 arg5 harg5 arg6 harg6 arg7 harg7 arg8 harg8 arg9 harg9 arg10 harg10) K := by
  have h1 : w1 i = 1#1 := w1_of_kv0 i hkv
  have h2 : w2 i = 1#1 := w2_of_kv0 i hkv
  have h3 : ¬ k1_cond3 i = 1#1 := c3_of_kv0 i hkv
  simp only [cc1_kernel_eq_skeleton]; unfold cc1_kernel_skel
  simp only [k1_part1_eq_skeleton]; unfold k1_part1_skel
  unfold owns
  iintro ⟨⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg4.eq_unread hf4; obtain rfl := harg5.eq_unread hf5; obtain rfl := harg6.eq_unread hf6
  obtain rfl := harg7.eq_unread hf7
  sl_exec (disch := first | exact h1 | exact h2 | exact h3)
  sl_step
  iapply Hk
  -- the inputs and the output block come back as found; each scratch buffer ends with the update's whole store, whose
  -- scratch loads read the reset values back
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap
    · iexact H8
    ipureintro
    sl_unfold_run_names
    rw [wrM]
    try dsimp only
    simp only [rdQ, rdM, rdA, rcM, rcA, rdQ', rdM', rdA', rcM', rcA', comp1, reset1, fin1]
  isplitl [H9]
  · iexists _; isplitr; swap
    · iexact H9
    ipureintro
    sl_unfold_run_names
    rw [wrM]
    try dsimp only
    simp only [rdQ, rdM, rdA, rcM, rcA, rdQ', rdM', rdA', rcM', rcA', comp1, reset1, fin1]
  iexists _; isplitr; swap
  · iexact H10
  ipureintro
  sl_unfold_run_names
  rw [wrA]
  try dsimp only
  simp only [rdQ, rdM, rdA, rcM, rcA, rdQ', rdM', rdA', rcM', rcA', comp1, reset1, fin1]

set_option maxHeartbeats 4000000 in
/-- `qt = 0`, `kv = 1` (so not `kv ≤ qt`): the scratch is left as found and the quotient of the state it holds is stored. -/
theorem run1_B (i : grid1.Coords) (hqt : (i 2).val = 0) (hkv : (i 3).val = 1)
    (arg4 : Memref sig .tc .vmem S1x1x1024x64 .bf16) (harg4 : arg4.IsWhole) (arg5 : Memref sig .tc .vmem S1x1x1024x64 .bf16) (harg5 : arg5.IsWhole)
    (arg6 : Memref sig .tc .vmem S1x1x1024x64 .bf16) (harg6 : arg6.IsWhole) (arg7 : Memref sig .tc .vmem S1x1x1024x64 .bf16) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x64 .f32) (harg10 : arg10.IsWhole)
    (xq xk xv : Vec F S1x1x1024x64 .bf16) (s : St F) (E : Set ℕ) (K : PUnit → sProp 𝕄) :
    iprop(owns (c : Thread nD τ) arg4 fullShare xq ∗ owns (c : Thread nD τ) arg5 fullShare xk ∗ owns (c : Thread nD τ) arg6 fullShare xv ∗ (∃ d, owns (c : Thread nD τ) arg7 fullShare d)
        ∗ owns (c : Thread nD τ) arg8 fullShare s.1 ∗ owns (c : Thread nD τ) arg9 fullShare s.2.1 ∗ owns (c : Thread nD τ) arg10 fullShare s.2.2
        ∗ (iprop(owns (c : Thread nD τ) arg4 fullShare xq ∗ owns (c : Thread nD τ) arg5 fullShare xk ∗ owns (c : Thread nD τ) arg6 fullShare xv ∗ owns (c : Thread nD τ) arg7 fullShare (fin1 s)
            ∗ owns (c : Thread nD τ) arg8 fullShare s.1 ∗ owns (c : Thread nD τ) arg9 fullShare s.2.1 ∗ owns (c : Thread nD τ) arg10 fullShare s.2.2) -∗ K ⟨⟩))
      ⊢ wp frame (wpE (defs₀ (F := F)) Variants.none c none) E (cc1_kernel i arg4 harg4 arg5 harg5 arg6 harg6 arg7 harg7 arg8 harg8 arg9 harg9 arg10 harg10) K := by
  have h1 : ¬ w1 i = 1#1 := w1_of_kv1 i hkv
  have h2 : ¬ w2 i = 1#1 := w2_of_01 i hqt hkv
  have h3 : k1_cond3 i = 1#1 := c3_of_kv1 i hkv
  simp only [cc1_kernel_eq_skeleton]; unfold cc1_kernel_skel
  unfold owns
  iintro ⟨⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
  obtain rfl := harg4.eq_unread hf4; obtain rfl := harg5.eq_unread hf5; obtain rfl := harg6.eq_unread hf6
  obtain rfl := harg8.eq_unread hf8; obtain rfl := harg9.eq_unread hf9; obtain rfl := harg10.eq_unread hf10
  sl_exec (disch := first | exact h1 | exact h2 | exact h3)
  sl_step
  iapply Hk
  -- the output block ends with one whole store, the quotient of the two scratch loads, which read the state found; all else
  -- comes back as found
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap
    · iexact H7
    ipureintro
    sl_unfold_run_names
    rw [wrQ]
    try dsimp only
    simp only [rdQ, rdM, rdA, rcM, rcA, rdQ', rdM', rdA', rcM', rcA', comp1, reset1, fin1]
  isplitl [H8]
  · iexists _; isplitr; · ipureintro; exact harg8.read_unread _
    iexact H8
  isplitl [H9]
  · iexists _; isplitr; · ipureintro; exact harg9.read_unread _
    iexact H9
  iexists _; isplitr; · ipureintro; exact harg10.read_unread _
  iexact H10

set_option maxHeartbeats 4000000 in
/-- `qt = 1`, `kv = 1`: the scratch is updated from the tile and the quotient of the new state is stored. -/
theorem run1_C (i : grid1.Coords) (hqt : (i 2).val = 1) (hkv : (i 3).val = 1)
    (arg4 : Memref sig .tc .vmem S1x1x1024x64 .bf16) (harg4 : arg4.IsWhole) (arg5 : Memref sig .tc .vmem S1x1x1024x64 .bf16) (harg5 : arg5.IsWhole)
    (arg6 : Memref sig .tc .vmem S1x1x1024x64 .bf16) (harg6 : arg6.IsWhole) (arg7 : Memref sig .tc .vmem S1x1x1024x64 .bf16) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x64 .f32) (harg10 : arg10.IsWhole)
    (xq xk xv : Vec F S1x1x1024x64 .bf16) (s : St F) (E : Set ℕ) (K : PUnit → sProp 𝕄) :
    iprop(owns (c : Thread nD τ) arg4 fullShare xq ∗ owns (c : Thread nD τ) arg5 fullShare xk ∗ owns (c : Thread nD τ) arg6 fullShare xv ∗ (∃ d, owns (c : Thread nD τ) arg7 fullShare d)
        ∗ owns (c : Thread nD τ) arg8 fullShare s.1 ∗ owns (c : Thread nD τ) arg9 fullShare s.2.1 ∗ owns (c : Thread nD τ) arg10 fullShare s.2.2
        ∗ (iprop(owns (c : Thread nD τ) arg4 fullShare xq ∗ owns (c : Thread nD τ) arg5 fullShare xk ∗ owns (c : Thread nD τ) arg6 fullShare xv ∗ owns (c : Thread nD τ) arg7 fullShare (fin1 (comp1 (BitVec.ofNat 32 (i 2).val) (BitVec.ofNat 32 (i 3).val) xq xk xv s))
            ∗ owns (c : Thread nD τ) arg8 fullShare (comp1 (BitVec.ofNat 32 (i 2).val) (BitVec.ofNat 32 (i 3).val) xq xk xv s).1
            ∗ owns (c : Thread nD τ) arg9 fullShare (comp1 (BitVec.ofNat 32 (i 2).val) (BitVec.ofNat 32 (i 3).val) xq xk xv s).2.1
            ∗ owns (c : Thread nD τ) arg10 fullShare (comp1 (BitVec.ofNat 32 (i 2).val) (BitVec.ofNat 32 (i 3).val) xq xk xv s).2.2) -∗ K ⟨⟩))
      ⊢ wp frame (wpE (defs₀ (F := F)) Variants.none c none) E (cc1_kernel i arg4 harg4 arg5 harg5 arg6 harg6 arg7 harg7 arg8 harg8 arg9 harg9 arg10 harg10) K := by
  have h1 : ¬ w1 i = 1#1 := w1_of_kv1 i hkv
  have h2 : w2 i = 1#1 := w2_of_11 i hqt hkv
  have h3 : k1_cond3 i = 1#1 := c3_of_kv1 i hkv
  simp only [cc1_kernel_eq_skeleton]; unfold cc1_kernel_skel
  simp only [k1_part1_eq_skeleton]; unfold k1_part1_skel
  unfold owns
  iintro ⟨⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
  obtain rfl := harg4.eq_unread hf4; obtain rfl := harg5.eq_unread hf5; obtain rfl := harg6.eq_unread hf6
  obtain rfl := harg8.eq_unread hf8; obtain rfl := harg9.eq_unread hf9; obtain rfl := harg10.eq_unread hf10
  sl_exec (disch := first | exact h1 | exact h2 | exact h3)
  sl_step
  iapply Hk
  -- each scratch buffer ends with the update's whole store over the state found; the output block with the quotient of the
  -- new numerator and denominator read back
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap
    · iexact H7
    ipureintro
    sl_unfold_run_names
    rw [wrQ]
    try dsimp only
    simp only [rdQ, rdM, rdA, rcM, rcA, rdQ', rdM', rdA', rcM', rcA', comp1, reset1, fin1]
  isplitl [H8]
  · iexists _; isplitr; swap
    · iexact H8
    ipureintro
    sl_unfold_run_names
    rw [wrM]
    try dsimp only
    simp only [rdQ, rdM, rdA, rcM, rcA, rdQ', rdM', rdA', rcM', rcA', comp1, reset1, fin1]
  isplitl [H9]
  · iexists _; isplitr; swap
    · iexact H9
    ipureintro
    sl_unfold_run_names
    rw [wrM]
    try dsimp only
    simp only [rdQ, rdM, rdA, rcM, rcA, rdQ', rdM', rdA', rcM', rcA', comp1, reset1, fin1]
  iexists _; isplitr; swap
  · iexact H10
  ipureintro
  sl_unfold_run_names
  rw [wrA]
  try dsimp only
  simp only [rdQ, rdM, rdA, rcM, rcA, rdQ', rdM', rdA', rcM', rcA', comp1, reset1, fin1]

end Cert.Kernel.Hand

end
-- ==== Proof.WR1Body.lean ====
import proofs.«412418_j10084583211544_3_alg».proof.Proof.WR1Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The attention kernel's region: the body obligation

The grid runs (b, h, qt, kv) with kv fastest, so a point's parity is its key/value tile and the next bit its query tile. At an
even point (kv = 0) the running maximum, denominator and numerator are reset and updated once from the score tile, and the output
block is left alone: it is idle there and not written back. At an odd point (kv = 1) the quotient numerator / denominator is stored
into the output block, after one more update of the running state where qt = 1 (kv ≤ qt), and of the state as found where qt = 0. -/

/-! ## The grid's coordinates and the output window's schedule, decided over the 128 points -/

/-- A point's key/value tile is its parity. -/
theorem kvAt1 : ∀ t : Fin cfg1.N, (grid1.coords t 3).val = t.val % 2 :=
  (by decide +kernel : ∀ t : Fin grid1.N, (grid1.coords t 3).val = t.val % 2)

/-- A point's query tile is its second bit. -/
theorem qtAt1 : ∀ t : Fin cfg1.N, (grid1.coords t 2).val = (t.val / 2) % 2 :=
  (by decide +kernel : ∀ t : Fin grid1.N, (grid1.coords t 2).val = (t.val / 2) % 2)

/-- The three inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

/-- At the even points (kv = 0) the output block is idle: nothing is stored into it there. -/
theorem idleAt1_3 : ∀ t : Fin cfg1.N, t.val % 2 = 0 → cfg1.idle 3 (grid1.coords t) = true :=
  (by decide +kernel : ∀ t : Fin grid1.N, t.val % 2 = 0 → idle1 3 (grid1.coords t) = true)

/-- At the odd points (kv = 1) it is live: the quotient is stored into it. -/
theorem liveAt1_3 : ∀ t : Fin cfg1.N, t.val % 2 = 1 → cfg1.idle 3 (grid1.coords t) = false :=
  (by decide +kernel : ∀ t : Fin grid1.N, t.val % 2 = 1 → idle1 3 (grid1.coords t) = false)

/-- At the even points the output block is not written back. -/
theorem noFlush1_3 (t : Fin cfg1.N) (h : t.val % 2 = 0) : (cfg1.win 3).flush t = false :=
  Bool.eq_false_iff.mpr fun hf => by have := (flush1_3 t).mp hf; omega

/-! ## The running state at a point, by the point's case -/

/-- Where kv = 0 the state found is forgotten: the reset state, updated once from the tile. -/
theorem step1_first (c : Dev nD) (t : Fin cfg1.N) (s : St F) (hkv : (grid1.coords t 3).val = 0) :
    step1 V c t s = comp1 (BitVec.ofNat 32 (grid1.coords t 2).val) (BitVec.ofNat 32 (grid1.coords t 3).val)
      (iblk1 V c 0 t) (iblk1 V c 1 t) (iblk1 V c 2 t) reset1 := by
  unfold step1
  dsimp only
  rw [if_pos (show (grid1.coords t 3).val ≤ (grid1.coords t 2).val by omega), if_pos hkv]

/-- Where qt = 0 and kv = 1 (the tile lies wholly above the diagonal) the state is left as found. -/
theorem step1_keep (c : Dev nD) (t : Fin cfg1.N) (s : St F) (hqt : (grid1.coords t 2).val = 0) (hkv : (grid1.coords t 3).val = 1) :
    step1 V c t s = s := by
  unfold step1
  dsimp only
  rw [if_neg (show ¬ (grid1.coords t 3).val ≤ (grid1.coords t 2).val by omega), if_neg (show ¬ (grid1.coords t 3).val = 0 by omega)]

/-- Where qt = 1 and kv = 1 the state found is updated from the tile. -/
theorem step1_update (c : Dev nD) (t : Fin cfg1.N) (s : St F) (hqt : (grid1.coords t 2).val = 1) (hkv : (grid1.coords t 3).val = 1) :
    step1 V c t s = comp1 (BitVec.ofNat 32 (grid1.coords t 2).val) (BitVec.ofNat 32 (grid1.coords t 3).val)
      (iblk1 V c 0 t) (iblk1 V c 1 t) (iblk1 V c 2 t) s := by
  unfold step1
  dsimp only
  rw [if_pos (show (grid1.coords t 3).val ≤ (grid1.coords t 2).val by omega), if_neg (show ¬ (grid1.coords t 3).val = 0 by omega)]

/-- After a point with kv = 0: the reset state updated once, whatever came before. -/
theorem stAt1_first (c : Dev nD) (t : Fin cfg1.N) (hkv : (grid1.coords t 3).val = 0) :
    stAt1 V c t.val t.isLt = comp1 (BitVec.ofNat 32 (grid1.coords t 2).val) (BitVec.ofNat 32 (grid1.coords t 3).val)
      (iblk1 V c 0 t) (iblk1 V c 1 t) (iblk1 V c 2 t) reset1 := by
  obtain ⟨n, hn⟩ := t
  cases n with
  | zero => exact (stAt1_zero V c hn).trans (step1_first V c ⟨0, hn⟩ reset1 hkv)
  | succ n => exact (stAt1_succ V c n hn).trans (step1_first V c ⟨n + 1, hn⟩ _ hkv)

/-- After a point with qt = 0, kv = 1: the state the point before left. -/
theorem stAt1_keep (c : Dev nD) (t : Fin cfg1.N) (hqt : (grid1.coords t 2).val = 0) (hkv : (grid1.coords t 3).val = 1) (hz : t.val ≠ 0) :
    stAt1 V c t.val t.isLt = stAt1 V c (t.val - 1) (Nat.lt_of_le_of_lt (Nat.sub_le _ _) t.isLt) := by
  obtain ⟨n, hn⟩ := t
  cases n with
  | zero => exact absurd rfl hz
  | succ n => exact (stAt1_succ V c n hn).trans (step1_keep V c ⟨n + 1, hn⟩ _ hqt hkv)

/-- After a point with qt = 1, kv = 1: the state the point before left, updated from the tile. -/
theorem stAt1_update (c : Dev nD) (t : Fin cfg1.N) (hqt : (grid1.coords t 2).val = 1) (hkv : (grid1.coords t 3).val = 1) (hz : t.val ≠ 0) :
    stAt1 V c t.val t.isLt = comp1 (BitVec.ofNat 32 (grid1.coords t 2).val) (BitVec.ofNat 32 (grid1.coords t 3).val)
      (iblk1 V c 0 t) (iblk1 V c 1 t) (iblk1 V c 2 t) (stAt1 V c (t.val - 1) (Nat.lt_of_le_of_lt (Nat.sub_le _ _) t.isLt)) := by
  obtain ⟨n, hn⟩ := t
  cases n with
  | zero => exact absurd rfl hz
  | succ n => exact (stAt1_succ V c n hn).trans (step1_update V c ⟨n + 1, hn⟩ _ hqt hkv)

/-! ## The scoped rest: the other two kernels' staging buffers, the running state's three buffers, the generator -/

/-- The class invariant, opened: the first kernel's staging buffers, the three buffers of the running state at anything, the third
    kernel's staging buffers, the generator register at some state. -/
theorem PhiA1_eq (c : Dev nD) :
    (Pipeline.ΦA spec1 c : sProp 𝕄)
      = iprop(restA1 (F := F) c ∗ (∃ d, owns (c : Thread nD τ) scM1_0 fullShare d) ∗ (∃ d, owns (c : Thread nD τ) scM1_1 fullShare d)
          ∗ (∃ d, owns (c : Thread nD τ) scM1_2 fullShare d) ∗ restB1 (F := F) c ∗ (∃ r, prngReg c r)) := by
  have h₁ : (Pipeline.ΦA spec1 c : sProp 𝕄)
      ⊢ iprop(restA1 (F := F) c ∗ (∃ d, owns (c : Thread nD τ) scM1_0 fullShare d) ∗ (∃ d, owns (c : Thread nD τ) scM1_1 fullShare d)
          ∗ (∃ d, owns (c : Thread nD τ) scM1_2 fullShare d) ∗ restB1 (F := F) c ∗ (∃ r, prngReg c r)) := by
    unfold Pipeline.ΦA restA1 restB1
    rw [scopedRest1_eq]
    simp only [scM1_0, scM1_1, scM1_2, owns_whole]
    iintro ⟨⟨A0, A1, A2, A3, A4, A5, A6, A7, A8, A9, A10, S0, S1, S2, B0, B1, B2, B3, B4⟩, Hg⟩
    isplitl [A0 A1 A2 A3 A4 A5 A6 A7 A8 A9 A10]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      iexact A10
    isplitl [S0]; · iexact S0
    isplitl [S1]; · iexact S1
    isplitl [S2]; · iexact S2
    isplitl [B0 B1 B2 B3 B4]
    · isplitl [B0]; · iexact B0
      isplitl [B1]; · iexact B1
      isplitl [B2]; · iexact B2
      isplitl [B3]; · iexact B3
      iexact B4
    iexact Hg
  have h₂ : iprop(restA1 (F := F) c ∗ (∃ d, owns (c : Thread nD τ) scM1_0 fullShare d) ∗ (∃ d, owns (c : Thread nD τ) scM1_1 fullShare d)
          ∗ (∃ d, owns (c : Thread nD τ) scM1_2 fullShare d) ∗ restB1 (F := F) c ∗ (∃ r, prngReg c r))
      ⊢ (Pipeline.ΦA spec1 c : sProp 𝕄) := by
    unfold Pipeline.ΦA restA1 restB1
    rw [scopedRest1_eq]
    simp only [scM1_0, scM1_1, scM1_2, owns_whole]
    iintro ⟨⟨A0, A1, A2, A3, A4, A5, A6, A7, A8, A9, A10⟩, S0, S1, S2, ⟨B0, B1, B2, B3, B4⟩, Hg⟩
    isplitr [Hg]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [S0]; · iexact S0
      isplitl [S1]; · iexact S1
      isplitl [S2]; · iexact S2
      isplitl [B0]; · iexact B0
      isplitl [B1]; · iexact B1
      isplitl [B2]; · iexact B2
      isplitl [B3]; · iexact B3
      iexact B4
    iexact Hg
  exact BI.equiv_iff.mp ⟨h₁, h₂⟩

/-- Before any position the invariant gives the opened class invariant: the running state's named contents are forgotten. -/
theorem PhiS1_forget (c : Dev nD) (n : ℕ) (h : n ≤ cfg1.N) :
    PhiS1 V c n h ⊢ iprop(restA1 (F := F) c ∗ (∃ d, owns (c : Thread nD τ) scM1_0 fullShare d) ∗ (∃ d, owns (c : Thread nD τ) scM1_1 fullShare d)
      ∗ (∃ d, owns (c : Thread nD τ) scM1_2 fullShare d) ∗ restB1 (F := F) c ∗ (∃ r, prngReg c r)) := by
  by_cases hz : n = 0
  · rw [PhiS1_zero V c n h hz, PhiA1_eq]
  · rw [PhiS1_pos V c n h hz]
    iintro ⟨HA, HS0, HS1, HS2, HB, Hg⟩
    isplitl [HA]; · iexact HA
    isplitl [HS0]; · iexists _; iexact HS0
    isplitl [HS1]; · iexists _; iexact HS1
    isplitl [HS2]; · iexists _; iexact HS2
    isplitl [HB]; · iexact HB
    iexact Hg

/-! ## What the body finds in the query, key and value blocks' buffers -/

/-- The query block's buffer holds the block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The key block's buffer holds the block (tile min(kv, qt)) at every point: where it is not fetched the tile has not moved. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The value block's buffer likewise. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation at a generic point -/

/-- What the body is called with at point `t`: the invariant, nothing owed, the four blocks' current buffers. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The three input buffers hold their blocks and come back as they were. At an even point the running
    state is found at anything (the class invariant's at the first point, the point before's afterwards, forgotten), reset and
    updated once, and the output block, idle and not written back, is handed back untouched. At an odd point the running state is
    found at what the point before left; with qt = 0 it stays and its quotient is stored, with qt = 1 it is updated once more
    and the new state's quotient is stored. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [Phi1_castSucc V c t]
  have hkv := kvAt1 t
  have hqt := qtAt1 t
  by_cases h2 : t.val % 2 = 0
  · have hkv0 : (grid1.coords t 3).val = 0 := by rw [hkv, h2]
    rw [Dat.leavesExact_idle (dat1 V c) 3 t (idleAt1_3 t h2) (noFlush1_3 t h2)]
    rw [stAt1_first V c t hkv0]
    refine (sep_mono_left (PhiS1_forget V c _ _)).trans ?_
    iintro ⟨⟨HA, ⟨%e0, HS0⟩, ⟨%e1, HS1⟩, ⟨%e2, HS2⟩, HB, Hg⟩, Ho, ⟨%d0, H0⟩, ⟨%d1, H1⟩, ⟨%d2, H2⟩, ⟨%d3, H3⟩⟩
    iapply (run1_A c (grid1.coords t) hkv0 _ _ _ _ _ _ _ _ _ _ _ _ _ _ (iblk1 V c 0 t) (iblk1 V c 1 t) (iblk1 V c 2 t) _ Set.univ _)
    isplitl [H0]; · iexact H0
    isplitl [H1]; · iexact H1
    isplitl [H2]; · iexact H2
    isplitl [H3]; · iexact H3
    isplitl [HS0]; · iexists _; iexact HS0
    isplitl [HS1]; · iexists _; iexact HS1
    isplitl [HS2]; · iexists _; iexact HS2
    iintro ⟨H0, H1, H2, H3, HS0, HS1, HS2⟩
    isplitl [HA HS0 HS1 HS2 HB Hg]
    · isplitl [HA]; · iexact HA
      isplitl [HS0]; · iexact HS0
      isplitl [HS1]; · iexact HS1
      isplitl [HS2]; · iexact HS2
      isplitl [HB]; · iexact HB
      iexact Hg
    isplitl [Ho]; · iexact Ho
    isplitl [H0]; · iexact H0
    isplitl [H1]; · iexact H1
    isplitl [H2]; · iexact H2
    iexists _; iexact H3
  · have h21 : t.val % 2 = 1 := by omega
    have hkv1 : (grid1.coords t 3).val = 1 := by rw [hkv, h21]
    have hz : t.val ≠ 0 := by omega
    rw [show (dat1 V c).leavesExact 3 t = owns (c : Thread nD τ) (st1_3 t) fullShare ((dat1 V c).after 3 t) from by
      unfold Dat.leavesExact; rw [liveAt1_3 t h21], after1_3]
    rw [PhiS1_pos V c _ _ hz]
    by_cases h4 : (t.val / 2) % 2 = 0
    · have hqt0 : (grid1.coords t 2).val = 0 := by rw [hqt, h4]
      rw [stAt1_keep V c t hqt0 hkv1 hz]
      iintro ⟨⟨HA, HS0, HS1, HS2, HB, Hg⟩, Ho, ⟨%d0, H0⟩, ⟨%d1, H1⟩, ⟨%d2, H2⟩, ⟨%d3, H3⟩⟩
      iapply (run1_B c (grid1.coords t) hqt0 hkv1 _ _ _ _ _ _ _ _ _ _ _ _ _ _ (iblk1 V c 0 t) (iblk1 V c 1 t) (iblk1 V c 2 t)
        (stAt1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HA HS0 HS1 HS2 HB Hg]
      · isplitl [HA]; · iexact HA
        isplitl [HS0]; · iexact HS0
        isplitl [HS1]; · iexact HS1
        isplitl [HS2]; · iexact HS2
        isplitl [HB]; · iexact HB
        iexact Hg
      isplitl [Ho]; · iexact Ho
      isplitl [H0]; · iexact H0
      isplitl [H1]; · iexact H1
      isplitl [H2]; · iexact H2
      iexact H3
    · have hqt1 : (grid1.coords t 2).val = 1 := by rw [hqt]; omega
      rw [stAt1_update V c t hqt1 hkv1 hz]
      iintro ⟨⟨HA, HS0, HS1, HS2, HB, Hg⟩, Ho, ⟨%d0, H0⟩, ⟨%d1, H1⟩, ⟨%d2, H2⟩, ⟨%d3, H3⟩⟩
      iapply (run1_C c (grid1.coords t) hqt1 hkv1 _ _ _ _ _ _ _ _ _ _ _ _ _ _ (iblk1 V c 0 t) (iblk1 V c 1 t) (iblk1 V c 2 t)
        (stAt1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HA HS0 HS1 HS2 HB Hg]
      · isplitl [HA]; · iexact HA
        isplitl [HS0]; · iexact HS0
        isplitl [HS1]; · iexact HS1
        isplitl [HS2]; · iexact HS2
        isplitl [HB]; · iexact HB
        iexact Hg
      isplitl [Ho]; · iexact Ho
      isplitl [H0]; · iexact H0
      isplitl [H1]; · iexact H1
      isplitl [H2]; · iexact H2
      iexact H3

/-- The library's body obligation of region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 (F := F) V c).Φ 0 := by
  rw [show (dat1 (F := F) V c).Φ 0 = PhiS1 V c 0 (Nat.zero_le _) from rfl, PhiS1_zero V c 0 _ rfl]

/-- After the last point the invariant gives the scoped rest back, the running state forgotten. -/
theorem hout1 (c : Dev nD) : (dat1 (F := F) V c).Φ (Fin.last cfg1.N) ⊢ Pipeline.ΦA spec1 c := by
  rw [show (dat1 (F := F) V c).Φ (Fin.last cfg1.N) = PhiS1 V c (Fin.last cfg1.N).val (Nat.le_of_lt_succ (Fin.last cfg1.N).isLt) from rfl, PhiA1_eq]
  exact PhiS1_forget V c _ _

end Cert.Kernel.Hand

end
-- ==== Proof.WR2Defs.lean ====
import proofs.«412418_j10084583211544_3_alg».proof.Proof.Gen.Kernel.Launch
import proofs.«412418_j10084583211544_3_alg».proof.Proof.Gen.Kernel.Skeleton
import proofs.«412418_j10084583211544_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The output projection (the third region): what a grid point reads and what it leaves

A grid point (b, s) of the third region reads the sixteen heads' rows `512 s .. 512 s + 511` of the attention output,
lays them side by side into a 512 × 1024 tile (head `h` in columns `64 h .. 64 h + 63`) and multiplies by `Woᵀ`. -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rH2_0 : Rect S1x16x512x64 := Rect.unit (s := S1x16x512x64) ![0, 0, 0, 0] S1x1x512x64.size inb_S1x16x512x64_S1x1x512x64_0_0_0_0
abbrev rH2_1 : Rect S1x16x512x64 := Rect.unit (s := S1x16x512x64) ![0, 1, 0, 0] S1x1x512x64.size inb_S1x16x512x64_S1x1x512x64_0_1_0_0
abbrev rH2_2 : Rect S1x16x512x64 := Rect.unit (s := S1x16x512x64) ![0, 2, 0, 0] S1x1x512x64.size inb_S1x16x512x64_S1x1x512x64_0_2_0_0
abbrev rH2_3 : Rect S1x16x512x64 := Rect.unit (s := S1x16x512x64) ![0, 3, 0, 0] S1x1x512x64.size inb_S1x16x512x64_S1x1x512x64_0_3_0_0
abbrev rH2_4 : Rect S1x16x512x64 := Rect.unit (s := S1x16x512x64) ![0, 4, 0, 0] S1x1x512x64.size inb_S1x16x512x64_S1x1x512x64_0_4_0_0
abbrev rH2_5 : Rect S1x16x512x64 := Rect.unit (s := S1x16x512x64) ![0, 5, 0, 0] S1x1x512x64.size inb_S1x16x512x64_S1x1x512x64_0_5_0_0
abbrev rH2_6 : Rect S1x16x512x64 := Rect.unit (s := S1x16x512x64) ![0, 6, 0, 0] S1x1x512x64.size inb_S1x16x512x64_S1x1x512x64_0_6_0_0
abbrev rH2_7 : Rect S1x16x512x64 := Rect.unit (s := S1x16x512x64) ![0, 7, 0, 0] S1x1x512x64.size inb_S1x16x512x64_S1x1x512x64_0_7_0_0
abbrev rH2_8 : Rect S1x16x512x64 := Rect.unit (s := S1x16x512x64) ![0, 8, 0, 0] S1x1x512x64.size inb_S1x16x512x64_S1x1x512x64_0_8_0_0
abbrev rH2_9 : Rect S1x16x512x64 := Rect.unit (s := S1x16x512x64) ![0, 9, 0, 0] S1x1x512x64.size inb_S1x16x512x64_S1x1x512x64_0_9_0_0
abbrev rH2_10 : Rect S1x16x512x64 := Rect.unit (s := S1x16x512x64) ![0, 10, 0, 0] S1x1x512x64.size inb_S1x16x512x64_S1x1x512x64_0_10_0_0
abbrev rH2_11 : Rect S1x16x512x64 := Rect.unit (s := S1x16x512x64) ![0, 11, 0, 0] S1x1x512x64.size inb_S1x16x512x64_S1x1x512x64_0_11_0_0
abbrev rH2_12 : Rect S1x16x512x64 := Rect.unit (s := S1x16x512x64) ![0, 12, 0, 0] S1x1x512x64.size inb_S1x16x512x64_S1x1x512x64_0_12_0_0
abbrev rH2_13 : Rect S1x16x512x64 := Rect.unit (s := S1x16x512x64) ![0, 13, 0, 0] S1x1x512x64.size inb_S1x16x512x64_S1x1x512x64_0_13_0_0
abbrev rH2_14 : Rect S1x16x512x64 := Rect.unit (s := S1x16x512x64) ![0, 14, 0, 0] S1x1x512x64.size inb_S1x16x512x64_S1x1x512x64_0_14_0_0
abbrev rH2_15 : Rect S1x16x512x64 := Rect.unit (s := S1x16x512x64) ![0, 15, 0, 0] S1x1x512x64.size inb_S1x16x512x64_S1x1x512x64_0_15_0_0
abbrev rW2 : Rect S1024x1024 := Rect.unit (s := S1024x1024) ![0, 0] S1024x1024.size inb_S1024x1024_S1024x1024_0_0
abbrev rO2 : Rect S1x512x1024 := Rect.unit (s := S1x512x1024) ![0, 0, 0] S1x512x1024.size inb_S1x512x1024_S1x512x1024_0_0_0

/-- The sixteen heads side by side. -/
def cat2 (x0 : Vec F S1x16x512x64 .bf16) : FVec F S512x1024 .bf16 :=
  k2_pay1 (k2_pay3 (View.ld x0 rH2_0)) (k2_pay4 (View.ld x0 rH2_1)) (k2_pay5 (View.ld x0 rH2_2)) (k2_pay6 (View.ld x0 rH2_3)) (k2_pay7 (View.ld x0 rH2_4)) (k2_pay8 (View.ld x0 rH2_5)) (k2_pay9 (View.ld x0 rH2_6)) (k2_pay10 (View.ld x0 rH2_7)) (k2_pay11 (View.ld x0 rH2_8)) (View.ld x0 rH2_9) (View.ld x0 rH2_10) (View.ld x0 rH2_11) (View.ld x0 rH2_12) (View.ld x0 rH2_13) (View.ld x0 rH2_14) (View.ld x0 rH2_15)

/-- The output block a point leaves: the concatenated heads times `Woᵀ`. -/
def out2_2 (x0 : Vec F S1x16x512x64 .bf16) (x1 : Vec F S1024x1024 .bf16) : Vec F S1x512x1024 .f32 :=
  View.canon [⟨rO2, k2_pay2 (cat2 x0) (View.ld x1 rW2)⟩]

/-- The proof data of the third region on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

end Cert.Kernel.Hand

end
-- ==== Proof.WR2Body.lean ====
import proofs.«412418_j10084583211544_3_alg».proof.Proof.WR2Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The output projection at one grid point

At point (b, s) the attention buffer holds the sixteen heads' rows of sequence tile s, the weight buffer holds all of
`Woᵀ` (its block index never moves, so it is brought in once and stays), and the body overwrites the whole output
buffer with (heads side by side) · `Woᵀ`. -/

/-- The attention buffer holds the point's block of the attention output (all sixteen heads, 512 rows), at every point. -/
theorem heads_held (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- The weight buffer holds the whole of `Woᵀ` at every point: brought in at the first point, its block index constant,
    and the body leaves it as it was. -/
theorem weights_held (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- The one store of the body is of the whole 1 × 512 × 1024 block, so every index of the block lies in it. -/
theorem whole_block_stored (p : Vec F S1x512x1024 .f32) (y : S1x512x1024.Idx) :
    ∃ pc ∈ ([⟨rO2, p⟩] : List (View.Piece (Elt F) S1x512x1024 .f32)), y ∈ pc.1.set :=
  View.cover_of_tiled [⟨rO2, p⟩] S1x512x1024.size (by rfl) y

set_option maxHeartbeats 1000000 in
/-- The body on whole buffers: with the attention buffer reading `x0`, the weight buffer reading `x1` and the output
    buffer at anything, it loads the sixteen heads (the first nine inside the first part), the weights, and — its
    value unused — the output block, and stores (heads side by side) · weights over the whole output block; the two
    inputs stay as they were. -/
theorem proj_body (c : Dev nD) (E : Set ℕ) (i : grid2.Coords)
    (arg2 : Memref sig .tc .vmem S1x16x512x64 .bf16) (harg2 : arg2.IsWhole)
    (arg3 : Memref sig .tc .vmem S1024x1024 .bf16) (harg3 : arg3.IsWhole)
    (arg4 : Memref sig .tc .vmem S1x512x1024 .f32) (harg4 : arg4.IsWhole)
    (x0 : Vec F S1x16x512x64 .bf16) (x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__o_proj_kernel i arg2 harg2 arg3 harg3 arg4 harg4) K := by
  simp only [cc2__o_proj_kernel_eq_skeleton]; unfold cc2__o_proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (whole_block_stored _)

/-- What the body is handed at point `t`: the region's invariant, what the core owes, and the three current buffers. -/
def projPre (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it hands back: the same invariant and debt, the inputs' blocks in place, the projected block in the output buffer. -/
def projPost (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the
    debt are not read. -/
theorem proj_at_point (c : Dev nD) (t : Fin cfg2.N) :
    projPre V c t ⊢ wp frame (wpE (defs₀ (F := F)) Variants.none c none) Set.univ (bodyAt2 t) (fun _ => projPost V c t) := by
  unfold projPre projPost bodyAt2
  simp only [heads_held, weights_held]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (proj_body c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation of region 2, at every point. -/
theorem body_obligation2 (c : Dev nD) : BodyObligation (dat2 (F := F) V c) (defs₀ (F := F)) Variants.none () Set.univ := fun t => by
  rw [bigSep_W2, bigSep_W2]
  exact proj_at_point V c t

end Cert.Kernel.Hand

end
-- ==== Proof.WRun.lean ====
import proofs.«412418_j10084583211544_3_alg».proof.Proof.WR0Body
import proofs.«412418_j10084583211544_3_alg».proof.Proof.WR1Body
import proofs.«412418_j10084583211544_3_alg».proof.Proof.WR2Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! # The run of the whole program: three regions among two stretches of host operations

The buffer contents at each boundary of `@main`, folded from the launch memory: the three weight casts, the projection region,
the attention region, the transpose and cast of `Wo`, the output region. -/

/-- Core `c`'s buffers at launch. -/
abbrev W0 : Dev nD → Valuation τ sig (Elt F) := fun c b => (s₀ m ρ).mem (c, b)
/-- After the three weight casts (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the transpose and cast of `Wo` (the output region's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- At region 2's exit: its arrays at what the write-backs leave, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The result array at the end is what the output region's write-backs leave. -/
theorem W5_main_v7 (c : Dev nD) : W5 m ρ c (Proc.devRef .tc main_v7) = (dat2 (V4 m ρ) c).arrAt 2 cfg2.N :=
  W5_arr m ρ c 2

/-! ## The proof data family and the thread state -/

abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered with every unscoped buffer at `W1`, left with them at `W2`; its arrays split
    out of the unscoped buffers and put back at what the write-backs leave; the generator register into the invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`; its arrays split
    out of the unscoped buffers and put back at what the write-backs leave; the generator register into the invariant and out. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin1 (V2 m ρ) c)
    change (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (hout1 (V2 m ρ) c) ?_
    change (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W4`, left with them at `W5`; its arrays split
    out of the unscoped buffers and put back at what the write-backs leave; the generator register into the invariant and out. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ) ]

theorem main_run (c : Dev nD) : main (F := F) c = Pipeline.Seg.run (segs m ρ) := (main_chain c).trans (by chain_rfl)

set_option backward.isDefEq.respectTransparency.types false in
/-- THE RUN. From any memory with zero counters every weakly fair execution of `@main` terminates, nothing faulting, and in
    every final state each unscoped buffer of each core holds the last boundary's contents `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_main m ρ)

/-- THE RUN WITH ITS RESULT: the result array ends at what the output region's write-backs leave, the arguments as launched. -/
theorem run_value : θ_run defs (onTc (τ := τ) (main (F := F))) ⟨m, fun _ => 0, ρ⟩ (fun r => ∀ c : Dev nD,
      r.2.mem ((c.tc : Thread nD τ).loc main_v7) = (dat2 (V4 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v7 (by decide))).trans (W5_main_v7 m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_main m ρ)

end Cert.Kernel.Hand

end
-- ==== Proof.R0Defs.lean ====
import proofs.«412418_j10084583211544_3_alg».proof.Proof.Gen.KernelIdeal.Launch
import proofs.«412418_j10084583211544_3_alg».proof.Proof.Gen.KernelIdeal.Skeleton
import proofs.«412418_j10084583211544_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The projection kernel (the first region): what a grid point reads and what it leaves

A grid point (b, s) of the first region reads the 512 rows `x[b, 512 s .. 512 s + 511, :]` and the three
weight matrices whole, forms the three products `x · Wᵀ` (rows by output channel) and writes each product's
sixteen column bands of width 64 into the sixteen heads of its output block. -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole row block of `x`, and a whole weight matrix. -/
abbrev rX0 : Rect S1x512x1024 := Rect.unit (s := S1x512x1024) ![0, 0, 0] S1x512x1024.size inb_S1x512x1024_S1x512x1024_0_0_0
abbrev rW0 : Rect S1024x1024 := Rect.unit (s := S1024x1024) ![0, 0] S1024x1024.size inb_S1024x1024_S1024x1024_0_0
/-- Head `h` of an output block: the rectangle `[0, h, 0..511, 0..63]`. -/
abbrev rH0_0 : Rect S1x16x512x64 := Rect.unit (s := S1x16x512x64) ![0, 0, 0, 0] S1x1x512x64.size inb_S1x16x512x64_S1x1x512x64_0_0_0_0
abbrev rH0_1 : Rect S1x16x512x64 := Rect.unit (s := S1x16x512x64) ![0, 1, 0, 0] S1x1x512x64.size inb_S1x16x512x64_S1x1x512x64_0_1_0_0
abbrev rH0_2 : Rect S1x16x512x64 := Rect.unit (s := S1x16x512x64) ![0, 2, 0, 0] S1x1x512x64.size inb_S1x16x512x64_S1x1x512x64_0_2_0_0
abbrev rH0_3 : Rect S1x16x512x64 := Rect.unit (s := S1x16x512x64) ![0, 3, 0, 0] S1x1x512x64.size inb_S1x16x512x64_S1x1x512x64_0_3_0_0
abbrev rH0_4 : Rect S1x16x512x64 := Rect.unit (s := S1x16x512x64) ![0, 4, 0, 0] S1x1x512x64.size inb_S1x16x512x64_S1x1x512x64_0_4_0_0
abbrev rH0_5 : Rect S1x16x512x64 := Rect.unit (s := S1x16x512x64) ![0, 5, 0, 0] S1x1x512x64.size inb_S1x16x512x64_S1x1x512x64_0_5_0_0
abbrev rH0_6 : Rect S1x16x512x64 := Rect.unit (s := S1x16x512x64) ![0, 6, 0, 0] S1x1x512x64.size inb_S1x16x512x64_S1x1x512x64_0_6_0_0
abbrev rH0_7 : Rect S1x16x512x64 := Rect.unit (s := S1x16x512x64) ![0, 7, 0, 0] S1x1x512x64.size inb_S1x16x512x64_S1x1x512x64_0_7_0_0
abbrev rH0_8 : Rect S1x16x512x64 := Rect.unit (s := S1x16x512x64) ![0, 8, 0, 0] S1x1x512x64.size inb_S1x16x512x64_S1x1x512x64_0_8_0_0
abbrev rH0_9 : Rect S1x16x512x64 := Rect.unit (s := S1x16x512x64) ![0, 9, 0, 0] S1x1x512x64.size inb_S1x16x512x64_S1x1x512x64_0_9_0_0
abbrev rH0_10 : Rect S1x16x512x64 := Rect.unit (s := S1x16x512x64) ![0, 10, 0, 0] S1x1x512x64.size inb_S1x16x512x64_S1x1x512x64_0_10_0_0
abbrev rH0_11 : Rect S1x16x512x64 := Rect.unit (s := S1x16x512x64) ![0, 11, 0, 0] S1x1x512x64.size inb_S1x16x512x64_S1x1x512x64_0_11_0_0
abbrev rH0_12 : Rect S1x16x512x64 := Rect.unit (s := S1x16x512x64) ![0, 12, 0, 0] S1x1x512x64.size inb_S1x16x512x64_S1x1x512x64_0_12_0_0
abbrev rH0_13 : Rect S1x16x512x64 := Rect.unit (s := S1x16x512x64) ![0, 13, 0, 0] S1x1x512x64.size inb_S1x16x512x64_S1x1x512x64_0_13_0_0
abbrev rH0_14 : Rect S1x16x512x64 := Rect.unit (s := S1x16x512x64) ![0, 14, 0, 0] S1x1x512x64.size inb_S1x16x512x64_S1x1x512x64_0_14_0_0
abbrev rH0_15 : Rect S1x16x512x64 := Rect.unit (s := S1x16x512x64) ![0, 15, 0, 0] S1x1x512x64.size inb_S1x16x512x64_S1x1x512x64_0_15_0_0

/-- The query block a point leaves: head `h` holds columns `64 h .. 64 h + 63` of `x · Wqᵀ` (the stores, last first). -/
def out0_4 (x0 : Vec F S1x512x1024 .f32) (x1 : Vec F S1024x1024 .bf16) : Vec F S1x16x512x64 .bf16 :=
  let v0 := View.ld x0 rX0
  let v3 := View.ld x1 rW0
  View.canon [⟨rH0_15, k0_pay24 (k0_pay7 v0 v3)⟩,
    ⟨rH0_14, k0_pay23 (k0_pay7 v0 v3)⟩,
    ⟨rH0_13, k0_pay22 (k0_pay7 v0 v3)⟩,
    ⟨rH0_12, k0_pay21 (k0_pay7 v0 v3)⟩,
    ⟨rH0_11, k0_pay20 (k0_pay19 (k0_pay7 v0 v3))⟩,
    ⟨rH0_10, k0_pay18 (k0_pay7 v0 v3)⟩,
    ⟨rH0_9, k0_pay17 (k0_pay7 v0 v3)⟩,
    ⟨rH0_8, k0_pay16 (k0_pay7 v0 v3)⟩,
    ⟨rH0_7, k0_pay15 (k0_pay7 v0 v3)⟩,
    ⟨rH0_6, k0_pay14 (k0_pay7 v0 v3)⟩,
    ⟨rH0_5, k0_pay13 (k0_pay7 v0 v3)⟩,
    ⟨rH0_4, k0_pay12 v0 v3⟩,
    ⟨rH0_3, k0_pay11 v0 v3⟩,
    ⟨rH0_2, k0_pay10 v0 v3⟩,
    ⟨rH0_1, k0_pay9 v0 v3⟩,
    ⟨rH0_0, k0_pay8 v0 v3⟩]

/-- The key block a point leaves, from `x` and `Wk`. -/
def out0_5 (x0 : Vec F S1x512x1024 .f32) (x2 : Vec F S1024x1024 .bf16) : Vec F S1x16x512x64 .bf16 :=
  let v0 := View.ld x0 rX0
  let v71 := View.ld x2 rW0
  View.canon [⟨rH0_15, k0_pay43 (k0_pay25 (k0_pay6 v0) v71)⟩,
    ⟨rH0_14, k0_pay42 (k0_pay25 (k0_pay6 v0) v71)⟩,
    ⟨rH0_13, k0_pay41 (k0_pay25 (k0_pay6 v0) v71)⟩,
    ⟨rH0_12, k0_pay40 (k0_pay25 (k0_pay6 v0) v71)⟩,
    ⟨rH0_11, k0_pay39 (k0_pay25 (k0_pay6 v0) v71)⟩,
    ⟨rH0_10, k0_pay38 (k0_pay25 (k0_pay6 v0) v71)⟩,
    ⟨rH0_9, k0_pay37 (k0_pay25 (k0_pay6 v0) v71)⟩,
    ⟨rH0_8, k0_pay36 (k0_pay35 (k0_pay25 (k0_pay6 v0) v71))⟩,
    ⟨rH0_7, k0_pay34 (k0_pay25 (k0_pay6 v0) v71)⟩,
    ⟨rH0_6, k0_pay33 (k0_pay25 (k0_pay6 v0) v71)⟩,
    ⟨rH0_5, k0_pay32 (k0_pay25 (k0_pay6 v0) v71)⟩,
    ⟨rH0_4, k0_pay31 (k0_pay25 (k0_pay6 v0) v71)⟩,
    ⟨rH0_3, k0_pay30 (k0_pay25 (k0_pay6 v0) v71)⟩,
    ⟨rH0_2, k0_pay29 (k0_pay25 (k0_pay6 v0) v71)⟩,
    ⟨rH0_1, k0_pay28 (k0_pay27 (k0_pay6 v0) v71)⟩,
    ⟨rH0_0, k0_pay26 (k0_pay6 v0) v71⟩]

/-- The value block a point leaves, from `x` and `Wv`. -/
def out0_6 (x0 : Vec F S1x512x1024 .f32) (x3 : Vec F S1024x1024 .bf16) : Vec F S1x16x512x64 .bf16 :=
  let v0 := View.ld x0 rX0
  let v139 := View.ld x3 rW0
  View.canon [⟨rH0_15, k0_pay5 (k0_pay44 (k0_pay6 v0) v139)⟩,
    ⟨rH0_14, k0_pay4 (k0_pay44 (k0_pay6 v0) v139)⟩,
    ⟨rH0_13, k0_pay3 (k0_pay44 (k0_pay6 v0) v139)⟩,
    ⟨rH0_12, k0_pay2 (k0_pay44 (k0_pay6 v0) v139)⟩,
    ⟨rH0_11, k0_pay1 (k0_pay57 (k0_pay44 (k0_pay6 v0) v139))⟩,
    ⟨rH0_10, k0_pay56 (k0_pay44 (k0_pay6 v0) v139)⟩,
    ⟨rH0_9, k0_pay55 (k0_pay44 (k0_pay6 v0) v139)⟩,
    ⟨rH0_8, k0_pay54 (k0_pay44 (k0_pay6 v0) v139)⟩,
    ⟨rH0_7, k0_pay53 (k0_pay44 (k0_pay6 v0) v139)⟩,
    ⟨rH0_6, k0_pay52 (k0_pay44 (k0_pay6 v0) v139)⟩,
    ⟨rH0_5, k0_pay51 (k0_pay44 (k0_pay6 v0) v139)⟩,
    ⟨rH0_4, k0_pay50 (k0_pay49 (k0_pay6 v0) v139)⟩,
    ⟨rH0_3, k0_pay48 (k0_pay6 v0) v139⟩,
    ⟨rH0_2, k0_pay47 (k0_pay6 v0) v139⟩,
    ⟨rH0_1, k0_pay46 (k0_pay6 v0) v139⟩,
    ⟨rH0_0, k0_pay45 (k0_pay6 v0) v139⟩]

/-- The proof data of the first region on core `c`: the arrays as the region finds them; after the body at a point each
    input's buffer still at its block and each output's at the block above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

end Cert.KernelIdeal.Hand

end
-- ==== Proof.R0Body.lean ====
import proofs.«412418_j10084583211544_3_alg».proof.Proof.R0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## What a point finds in its four input buffers

The row block of `x` moves with every point; each weight matrix is one block for the whole grid, brought in at the
first point only. Either way the buffer holds the window's block at every point: where nothing was brought in, the
block index has not moved since the point before. -/

/-- The rows of `x` a point works on are in the first buffer. -/
theorem rows_found (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The query weights are in the second buffer at every point, brought in at the first. -/
theorem wq_found (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The key weights likewise, in the third buffer. -/
theorem wk_found (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- The value weights likewise, in the fourth buffer. -/
theorem wv_found (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-! ## The sixteen heads tile an output block

An output block is `[1, 16, 512, 64]`; head `h` is the rectangle `[0, h, 0..511, 0..63]`. One band per head, whatever
the bands hold, leaves no entry of the block unwritten. -/

theorem heads_cover (p0 p1 p2 p3 p4 p5 p6 p7 p8 p9 p10 p11 p12 p13 p14 p15 : Vec F S1x1x512x64 .bf16) (y : S1x16x512x64.Idx) :
    ∃ pc ∈ ([⟨rH0_15, p15⟩, ⟨rH0_14, p14⟩, ⟨rH0_13, p13⟩, ⟨rH0_12, p12⟩, ⟨rH0_11, p11⟩, ⟨rH0_10, p10⟩, ⟨rH0_9, p9⟩, ⟨rH0_8, p8⟩, ⟨rH0_7, p7⟩, ⟨rH0_6, p6⟩, ⟨rH0_5, p5⟩, ⟨rH0_4, p4⟩, ⟨rH0_3, p3⟩, ⟨rH0_2, p2⟩, ⟨rH0_1, p1⟩, ⟨rH0_0, p0⟩] : List (View.Piece (Elt F) S1x16x512x64 .bf16)), y ∈ pc.1.set :=
  View.cover_of_tiled (s := S1x16x512x64) [⟨rH0_15, p15⟩, ⟨rH0_14, p14⟩, ⟨rH0_13, p13⟩, ⟨rH0_12, p12⟩, ⟨rH0_11, p11⟩, ⟨rH0_10, p10⟩, ⟨rH0_9, p9⟩, ⟨rH0_8, p8⟩, ⟨rH0_7, p7⟩, ⟨rH0_6, p6⟩, ⟨rH0_5, p5⟩, ⟨rH0_4, p4⟩, ⟨rH0_3, p3⟩, ⟨rH0_2, p2⟩, ⟨rH0_1, p1⟩, ⟨rH0_0, p0⟩] S1x1x512x64.size (by rfl) y

/-! ## The body's triple -/

set_option maxHeartbeats 4000000 in
/-- The projection body on whole buffers — the rows `x0` and the three weight matrices `x1 x2 x3` as read, the three
    output buffers at anything (the body reads each head before it writes it and drops what it read) — runs to its
    return with the inputs as they were and the outputs at the query, key and value blocks of `x0`. -/
theorem projection_body (c : Dev nD) (E : Set ℕ) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x16x512x64 .bf16) (harg6 : arg6.IsWhole)
    (arg7 : Memref sig .tc .vmem S1x16x512x64 .bf16) (harg7 : arg7.IsWhole)
    (arg8 : Memref sig .tc .vmem S1x16x512x64 .bf16) (harg8 : arg8.IsWhole)
    (x0 : Vec F S1x512x1024 .f32) (x1 x2 x3 : Vec F S1024x1024 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0_4 x0 x1) ∗ owns (c : Thread nD τ) arg7 fullShare (out0_5 x0 x2)
            ∗ owns (c : Thread nD τ) arg8 fullShare (out0_6 x0 x3)) -∗ K ⟨⟩))
      ⊢ wp frame (wpE (defs₀ (F := F)) Variants.none c none) E
          (cc0__qkv_fused_kernel i arg2 harg2 arg3 harg3 arg4 harg4 arg5 harg5 arg6 harg6 arg7 harg7 arg8 harg8) K := by
  simp only [cc0__qkv_fused_kernel_eq_skeleton]; unfold cc0__qkv_fused_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold out0_4
    sl_unfold_run_names
    exact View.read_writes_eq_canon _ _ _ (heads_cover _ _ _ _ _ _ _ _ _ _ _ _ _ _ _ _)
  isplitl [H5]
  · iexists _; isplitr
    swap; · iexact H5
    ipureintro
    unfold out0_5
    sl_unfold_run_names
    exact View.read_writes_eq_canon _ _ _ (heads_cover _ _ _ _ _ _ _ _ _ _ _ _ _ _ _ _)
  iexists _; isplitr
  swap; · iexact H6
  ipureintro
  unfold out0_6
  sl_unfold_run_names
  exact View.read_writes_eq_canon _ _ _ (heads_cover _ _ _ _ _ _ _ _ _ _ _ _ _ _ _ _)

/-! ## The body obligation, at a generic point -/

/-- What the body is called with at point `t`: the invariant, what the core owes, and each window's current buffer. -/
def pointPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns: the same invariant and debt, the inputs' buffers at their blocks, the outputs' at the three
    projections of the point's rows. -/
def pointPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the four input buffers hold their blocks, so the body's triple applies to them; the
    invariant and the core's debt pass through unread. -/
theorem projection_point (c : Dev nD) (t : Fin cfg0.N) :
    pointPre V c t ⊢ wp frame (wpE (defs₀ (F := F)) Variants.none c none) Set.univ (bodyAt0 t) (fun _ => pointPost V c t) := by
  unfold pointPre pointPost bodyAt0
  simp only [rows_found, wq_found, wk_found, wv_found]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (projection_body c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation of region 0, at every point. -/
theorem body_obligation0 (c : Dev nD) : BodyObligation (dat0 (F := F) V c) (defs₀ (F := F)) Variants.none () Set.univ := by
  intro t
  rw [bigSep_W0, bigSep_W0]
  exact projection_point V c t

end Cert.KernelIdeal.Hand

end
-- ==== Proof.R1Defs.lean ====
import proofs.«412418_j10084583211544_3_alg».proof.Proof.Gen.KernelIdeal.Launch
import proofs.«412418_j10084583211544_3_alg».proof.Proof.Gen.KernelIdeal.Skeleton
import proofs.«412418_j10084583211544_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The attention kernel (the second region): the running state, point by point

A grid point (b, h, qt, kv) of the second region works on query rows `1024 qt .. 1024 qt + 1023` of head (b, h) against key and
value rows `1024 kv ..`. Three scratch buffers carry, between the points of one (b, h, qt), the running row maximum `m`, the
running denominator `l` and the running numerator `acc`. At `kv = 0` the three are reset; where `kv ≤ qt` they are updated
from the score tile; at `kv = 1` the quotient `acc / l` is stored into the output block. -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running state: row maximum, denominator, numerator. -/
abbrev St (F : FTy → Type) [FloatOps F] : Type := Vec F S1024x1 .f32 × Vec F S1024x1 .f32 × Vec F S1024x64 .f32

/-- The three scratch buffers, whole. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2

/-- The whole blocks the body loads and stores. -/
abbrev rQ1 : Rect S1x1x1024x64 := Rect.unit (s := S1x1x1024x64) ![0, 0, 0, 0] S1x1x1024x64.size inb_S1x1x1024x64_S1x1x1024x64_0_0_0_0
abbrev rM1 : Rect S1024x1 := Rect.unit (s := S1024x1) ![0, 0] S1024x1.size inb_S1024x1_S1024x1_0_0
abbrev rA1 : Rect S1024x64 := Rect.unit (s := S1024x64) ![0, 0] S1024x64.size inb_S1024x64_S1024x64_0_0

/-- The state a reset leaves: maximum -inf, denominator 0, numerator 0. -/
def reset1 : St F := (k1_pay1, k1_pay2, k1_pay3)

/-- One update of the running state from the score tile of query tile `a2` against key tile `a3`: the new maximum; the
    denominator rescaled by `exp (m - m')` plus the tile's row sums of `exp (s - m')`; the numerator rescaled the same way
    plus `exp (s - m') · v`. -/
def comp1 (a2 a3 : BitVec 32) (xq xk xv : Vec F S1x1x1024x64 .bf16) (s : St F) : St F :=
  (k1_pay6 (k1_pay10 a2 a3 xq xk s.1),
   k1_pay4 (k1_pay12 a2 a3 xq xk s.1) (k1_pay13 a2 a3 xq xk s.1 s.1 s.2.1),
   k1_pay5 (k1_pay8 xv) (k1_pay11 a2 a3 xq xk s.1 s.1) (k1_pay12 a2 a3 xq xk s.1) s.2.2)

/-- What a finishing point stores into the output block: numerator over denominator. -/
def fin1 (s : St F) : Vec F S1x1x1024x64 .bf16 := k1_pay7 s.2.2 s.2.1

/-- One point's effect on the running state: reset where `kv = 0`, then update where `kv ≤ qt`. -/
def step1 (c : Dev nD) (t : Fin cfg1.N) (s : St F) : St F :=
  let i := grid1.coords t
  let s0 : St F := if (i 3).val = 0 then reset1 else s
  if (i 3).val ≤ (i 2).val then
    comp1 (BitVec.ofNat 32 (i 2).val) (BitVec.ofNat 32 (i 3).val) (iblk1 V c 0 t) (iblk1 V c 1 t) (iblk1 V c 2 t) s0
  else s0

/-- The running state after the body at position `n`. -/
def stAt1 (c : Dev nD) : (n : ℕ) → n < cfg1.N → St F
  | 0, h => step1 V c ⟨0, h⟩ reset1
  | n + 1, h => step1 V c ⟨n + 1, h⟩ (stAt1 c n (Nat.lt_of_succ_lt h))

theorem stAt1_zero (c : Dev nD) (h : 0 < cfg1.N) : stAt1 V c 0 h = step1 V c ⟨0, h⟩ reset1 := rfl
theorem stAt1_succ (c : Dev nD) (n : ℕ) (h : n + 1 < cfg1.N) :
    stAt1 V c (n + 1) h = step1 V c ⟨n + 1, h⟩ (stAt1 V c n (Nat.lt_of_succ_lt h)) := rfl

/-- The other two kernels' staging buffers, at some contents each: scoped buffers this kernel never touches. -/
def restA1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))
def restB1 (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

/-- The region invariant before position `n`: before the first point the scoped rest at anything; afterwards the three scratch
    buffers at the running state the point before left, everything else at anything. -/
def PhiS1 (c : Dev nD) : (n : ℕ) → n ≤ cfg1.N → sProp 𝕄
  | 0, _ => Pipeline.ΦA spec1 c
  | n + 1, hn => iprop(restA1 (F := F) c ∗ owns (c : Thread nD τ) scM1_0 fullShare (stAt1 V c n hn).1
      ∗ owns (c : Thread nD τ) scM1_1 fullShare (stAt1 V c n hn).2.1 ∗ owns (c : Thread nD τ) scM1_2 fullShare (stAt1 V c n hn).2.2
      ∗ restB1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(restA1 (F := F) c ∗ owns (c : Thread nD τ) scM1_0 fullShare (stAt1 V c n hn).1
      ∗ owns (c : Thread nD τ) scM1_1 fullShare (stAt1 V c n hn).2.1 ∗ owns (c : Thread nD τ) scM1_2 fullShare (stAt1 V c n hn).2.2
      ∗ restB1 (F := F) c ∗ (∃ r, prngReg c r)) := rfl

theorem PhiS1_pos (c : Dev nD) (n : ℕ) (h : n ≤ cfg1.N) (hz : n ≠ 0) :
    PhiS1 V c n h = iprop(restA1 (F := F) c ∗ owns (c : Thread nD τ) scM1_0 fullShare (stAt1 V c (n - 1) (by omega)).1
      ∗ owns (c : Thread nD τ) scM1_1 fullShare (stAt1 V c (n - 1) (by omega)).2.1 ∗ owns (c : Thread nD τ) scM1_2 fullShare (stAt1 V c (n - 1) (by omega)).2.2
      ∗ restB1 (F := F) c ∗ (∃ r, prngReg c r)) := by
  cases n with
  | zero => exact absurd rfl hz
  | succ n => rfl

/-- The proof data of the second region on core `c`: each input's buffer left at its block; the output's, at a finishing point,
    at the quotient of the running state; the invariant carrying the running state; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => fin1 (stAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = fin1 (stAt1 V c t.val t.isLt) := by dsimp only [dat1]
theorem Phi1_castSucc (c : Dev nD) (t : Fin cfg1.N) : (dat1 V c).Φ t.castSucc = PhiS1 V c t.val (Nat.le_of_lt t.isLt) := by
  dsimp only [dat1]; simp only [Fin.coe_castSucc]

end Cert.KernelIdeal.Hand

end
-- ==== Proof.R1Run.lean ====
import proofs.«412418_j10084583211544_3_alg».proof.Proof.R1Defs
import Idealize.ShloMosaic.Lib.Pipeline.Value
import Mathlib.Tactic.IntervalCases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The attention kernel's body, run once per control case

The body branches three times on the grid coordinates: reset where `kv = 0`, update where `kv ≤ qt`, store the quotient where
`kv = 1`. On the grid (qt, kv ∈ {0, 1}) three combinations occur. Each run below is on whole staging memrefs and whole scratch
memrefs; the inputs' blocks come back as they were. -/

/-! ## The three conditions, as words of the coordinates -/

/-- The reset test (kv = 0), as the body computes it. -/
abbrev w1 (i : grid1.Coords) : BitVec 1 :=
  Scalar.cmpi .ne (Scalar.extui (Scalar.cmpi .eq (BitVec.ofNat 32 (i 3).val) 0#32)) 0#32

/-- The update test (kv ≤ qt), as the body computes it. -/
abbrev w2 (i : grid1.Coords) : BitVec 1 :=
  Scalar.cmpi .ne (Scalar.extui (Scalar.cmpi .sle (BitVec.ofNat 32 (i 3).val) (BitVec.ofNat 32 (i 2).val))) 0#32

theorem w1_of_kv0 (i : grid1.Coords) (hkv : (i 3).val = 0) : w1 i = 1#1 := by
  unfold w1; rw [hkv]; decide

theorem w1_of_kv1 (i : grid1.Coords) (hkv : (i 3).val = 1) : ¬ w1 i = 1#1 := by
  unfold w1; rw [hkv]; decide

theorem w2_of_kv0 (i : grid1.Coords) (hkv : (i 3).val = 0) : w2 i = 1#1 := by
  have h2 : (i 2).val < 2 := (i 2).isLt
  unfold w2; rw [hkv]
  generalize (i 2).val = n at h2
  interval_cases n <;> decide

theorem w2_of_01 (i : grid1.Coords) (hqt : (i 2).val = 0) (hkv : (i 3).val = 1) : ¬ w2 i = 1#1 := by
  unfold w2; rw [hqt, hkv]; decide

theorem w2_of_11 (i : grid1.Coords) (hqt : (i 2).val = 1) (hkv : (i 3).val = 1) : w2 i = 1#1 := by
  unfold w2; rw [hqt, hkv]; decide

theorem c3_of_kv0 (i : grid1.Coords) (hkv : (i 3).val = 0) : ¬ k1_cond3 i = 1#1 := by
  unfold k1_cond3; rw [hkv]; decide

theorem c3_of_kv1 (i : grid1.Coords) (hkv : (i 3).val = 1) : k1_cond3 i = 1#1 := by
  unfold k1_cond3; rw [hkv]; decide

/-- The zero offsets of the whole rectangles, in the two ranks met. -/
theorem hz4 : (![0, 0, 0, 0] : Fin 4 → Nat) = fun _ => 0 := funext fun a => by fin_cases a <;> rfl
theorem hz2 : (![0, 0] : Fin 2 → Nat) = fun _ => 0 := funext fun a => by fin_cases a <;> rfl

/-- What a buffer reads after a last store through the whole rectangle at zero offsets: that store's payload, whatever was
    stored before and whatever the buffer held. Stated over an abstract shape. -/
theorem read_writes_cons_unit_zero {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨(⟨Rect.unit off S.size inb, w⟩ : View.Piece Val S e), List.mem_cons.mpr (Or.inl rfl),
    View.mem_set_unit_zero h inb y⟩)]
  exact View.canon_cons_unit_zero h inb w L

/-! ## Whole loads and whole stores

A load through the whole rectangle reads the contents of a whole memref; after one whole store it reads that store's payload,
whatever the buffer held before; and a buffer whose last store was whole reads that store's payload. One statement per shape
met. -/

theorem rdQ {m : Memref sig .tc .vmem S1x1x1024x64 .bf16} (h : m.IsWhole) (X : Vec F S1x1x1024x64 .bf16) :
    View.readAt (Elt F) m.view (Rect.unit (s := S1x1x1024x64) ![0, 0, 0, 0] S1x1x1024x64.size inb_S1x1x1024x64_S1x1x1024x64_0_0_0_0).toLoadRect (h.unread X) = X := by
  rw [View.readAt_eq_ld, h.read_unread]; exact View.ld_unit_zero (S := S1x1x1024x64) hz4 _ X

theorem rdM {m : Memref sig .tc .vmem S1024x1 .f32} (h : m.IsWhole) (X : Vec F S1024x1 .f32) :
    View.readAt (Elt F) m.view (Rect.unit (s := S1024x1) ![0, 0] S1024x1.size inb_S1024x1_S1024x1_0_0).toLoadRect (h.unread X) = X := by
  rw [View.readAt_eq_ld, h.read_unread]; exact View.ld_unit_zero (S := S1024x1) hz2 _ X

theorem rdA {m : Memref sig .tc .vmem S1024x64 .f32} (h : m.IsWhole) (X : Vec F S1024x64 .f32) :
    View.readAt (Elt F) m.view (Rect.unit (s := S1024x64) ![0, 0] S1024x64.size inb_S1024x64_S1024x64_0_0).toLoadRect (h.unread X) = X := by
  rw [View.readAt_eq_ld, h.read_unread]; exact View.ld_unit_zero (S := S1024x64) hz2 _ X

theorem rcM (m : Memref sig .tc .vmem S1024x1 .f32) (w : Vec F S1024x1 .f32) :
    m.view.readCov [(⟨Rect.unit (s := S1024x1) ![0, 0] S1024x1.size inb_S1024x1_S1024x1_0_0, w⟩ : View.Piece (Elt F) S1024x1 .f32)]
      (Rect.unit (s := S1024x1) ![0, 0] S1024x1.size inb_S1024x1_S1024x1_0_0).toLoadRect = w :=
  View.readCov_unit_zero (S := S1024x1) _ hz2 _ w

theorem rcA (m : Memref sig .tc .vmem S1024x64 .f32) (w : Vec F S1024x64 .f32) :
    m.view.readCov [(⟨Rect.unit (s := S1024x64) ![0, 0] S1024x64.size inb_S1024x64_S1024x64_0_0, w⟩ : View.Piece (Elt F) S1024x64 .f32)]
      (Rect.unit (s := S1024x64) ![0, 0] S1024x64.size inb_S1024x64_S1024x64_0_0).toLoadRect = w :=
  View.readCov_unit_zero (S := S1024x64) _ hz2 _ w

theorem wrM (m : Memref sig .tc .vmem S1024x1 .f32) (f : m.view.ty.Contents (Elt F)) (w : Vec F S1024x1 .f32) (L : List (View.Piece (Elt F) S1024x1 .f32)) :
    m.view.read (Elt F) (m.view.writes (Elt F) f ((⟨Rect.unit (s := S1024x1) ![0, 0] S1024x1.size inb_S1024x1_S1024x1_0_0, w⟩ : View.Piece (Elt F) S1024x1 .f32) :: L)) = w :=
  read_writes_cons_unit_zero (S := S1024x1) m.view f hz2 inb_S1024x1_S1024x1_0_0 w L

theorem wrA (m : Memref sig .tc .vmem S1024x64 .f32) (f : m.view.ty.Contents (Elt F)) (w : Vec F S1024x64 .f32) (L : List (View.Piece (Elt F) S1024x64 .f32)) :
    m.view.read (Elt F) (m.view.writes (Elt F) f ((⟨Rect.unit (s := S1024x64) ![0, 0] S1024x64.size inb_S1024x64_S1024x64_0_0, w⟩ : View.Piece (Elt F) S1024x64 .f32) :: L)) = w :=
  read_writes_cons_unit_zero (S := S1024x64) m.view f hz2 inb_S1024x64_S1024x64_0_0 w L

theorem wrQ (m : Memref sig .tc .vmem S1x1x1024x64 .bf16) (f : m.view.ty.Contents (Elt F)) (w : Vec F S1x1x1024x64 .bf16) (L : List (View.Piece (Elt F) S1x1x1024x64 .bf16)) :
    m.view.read (Elt F) (m.view.writes (Elt F) f ((⟨Rect.unit (s := S1x1x1024x64) ![0, 0, 0, 0] S1x1x1024x64.size inb_S1x1x1024x64_S1x1x1024x64_0_0_0_0, w⟩ : View.Piece (Elt F) S1x1x1024x64 .bf16) :: L)) = w :=
  read_writes_cons_unit_zero (S := S1x1x1024x64) m.view f hz4 inb_S1x1x1024x64_S1x1x1024x64_0_0_0_0 w L

/-- The same five loads, with the rectangle's sizes written out as literals. -/
theorem rdQ' {m : Memref sig .tc .vmem S1x1x1024x64 .bf16} (h : m.IsWhole) (X : Vec F S1x1x1024x64 .bf16) :
    View.readAt (Elt F) m.view (Rect.unit (s := S1x1x1024x64) ![0, 0, 0, 0] ![1, 1, 1024, 64] inb_S1x1x1024x64_S1x1x1024x64_0_0_0_0).toLoadRect (h.unread X) = X :=
  rdQ h X

theorem rdM' {m : Memref sig .tc .vmem S1024x1 .f32} (h : m.IsWhole) (X : Vec F S1024x1 .f32) :
    View.readAt (Elt F) m.view (Rect.unit (s := S1024x1) ![0, 0] ![1024, 1] inb_S1024x1_S1024x1_0_0).toLoadRect (h.unread X) = X :=
  rdM h X

theorem rdA' {m : Memref sig .tc .vmem S1024x64 .f32} (h : m.IsWhole) (X : Vec F S1024x64 .f32) :
    View.readAt (Elt F) m.view (Rect.unit (s := S1024x64) ![0, 0] ![1024, 64] inb_S1024x64_S1024x64_0_0).toLoadRect (h.unread X) = X :=
  rdA h X

theorem rcM' (m : Memref sig .tc .vmem S1024x1 .f32) (w : Vec F S1024x1 .f32) :
    m.view.readCov [(⟨Rect.unit (s := S1024x1) ![0, 0] ![1024, 1] inb_S1024x1_S1024x1_0_0, w⟩ : View.Piece (Elt F) S1024x1 .f32)]
      (Rect.unit (s := S1024x1) ![0, 0] ![1024, 1] inb_S1024x1_S1024x1_0_0).toLoadRect = w :=
  rcM m w

theorem rcA' (m : Memref sig .tc .vmem S1024x64 .f32) (w : Vec F S1024x64 .f32) :
    m.view.readCov [(⟨Rect.unit (s := S1024x64) ![0, 0] ![1024, 64] inb_S1024x64_S1024x64_0_0, w⟩ : View.Piece (Elt F) S1024x64 .f32)]
      (Rect.unit (s := S1024x64) ![0, 0] ![1024, 64] inb_S1024x64_S1024x64_0_0).toLoadRect = w :=
  rcA m w

variable (c : Dev nD)

set_option maxHeartbeats 4000000 in
/-- `kv = 0` (so `kv ≤ qt`): the scratch, at anything, is reset and updated once from the tile; the output block is not touched. -/
theorem run1_A (i : grid1.Coords) (hkv : (i 3).val = 0)
    (arg4 : Memref sig .tc .vmem S1x1x1024x64 .bf16) (harg4 : arg4.IsWhole) (arg5 : Memref sig .tc .vmem S1x1x1024x64 .bf16) (harg5 : arg5.IsWhole)
    (arg6 : Memref sig .tc .vmem S1x1x1024x64 .bf16) (harg6 : arg6.IsWhole) (arg7 : Memref sig .tc .vmem S1x1x1024x64 .bf16) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x64 .f32) (harg10 : arg10.IsWhole)
    (xq xk xv xo : Vec F S1x1x1024x64 .bf16) (E : Set ℕ) (K : PUnit → sProp 𝕄) :
    iprop(owns (c : Thread nD τ) arg4 fullShare xq ∗ owns (c : Thread nD τ) arg5 fullShare xk ∗ owns (c : Thread nD τ) arg6 fullShare xv ∗ owns (c : Thread nD τ) arg7 fullShare xo
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg4 fullShare xq ∗ owns (c : Thread nD τ) arg5 fullShare xk ∗ owns (c : Thread nD τ) arg6 fullShare xv ∗ owns (c : Thread nD τ) arg7 fullShare xo
            ∗ owns (c : Thread nD τ) arg8 fullShare (comp1 (BitVec.ofNat 32 (i 2).val) (BitVec.ofNat 32 (i 3).val) xq xk xv reset1).1
            ∗ owns (c : Thread nD τ) arg9 fullShare (comp1 (BitVec.ofNat 32 (i 2).val) (BitVec.ofNat 32 (i 3).val) xq xk xv reset1).2.1
            ∗ owns (c : Thread nD τ) arg10 fullShare (comp1 (BitVec.ofNat 32 (i 2).val) (BitVec.ofNat 32 (i 3).val) xq xk xv reset1).2.2) -∗ K ⟨⟩))
      ⊢ wp frame (wpE (defs₀ (F := F)) Variants.none c none) E (cc1_kernel i arg4 harg4 arg5 harg5 arg6 harg6 arg7 harg7 arg8 harg8 arg9 harg9 arg10 harg10) K := by
  have h1 : w1 i = 1#1 := w1_of_kv0 i hkv
  have h2 : w2 i = 1#1 := w2_of_kv0 i hkv
  have h3 : ¬ k1_cond3 i = 1#1 := c3_of_kv0 i hkv
  simp only [cc1_kernel_eq_skeleton]; unfold cc1_kernel_skel
  simp only [k1_part1_eq_skeleton]; unfold k1_part1_skel
  unfold owns
  iintro ⟨⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg4.eq_unread hf4; obtain rfl := harg5.eq_unread hf5; obtain rfl := harg6.eq_unread hf6
  obtain rfl := harg7.eq_unread hf7
  sl_exec (disch := first | exact h1 | exact h2 | exact h3)
  sl_step
  iapply Hk
  -- the inputs and the output block come back as found; each scratch buffer ends with the update's whole store, whose
  -- scratch loads read the reset values back
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap
    · iexact H8
    ipureintro
    sl_unfold_run_names
    rw [wrM]
    try dsimp only
    simp only [rdQ, rdM, rdA, rcM, rcA, rdQ', rdM', rdA', rcM', rcA', comp1, reset1, fin1]
  isplitl [H9]
  · iexists _; isplitr; swap
    · iexact H9
    ipureintro
    sl_unfold_run_names
    rw [wrM]
    try dsimp only
    simp only [rdQ, rdM, rdA, rcM, rcA, rdQ', rdM', rdA', rcM', rcA', comp1, reset1, fin1]
  iexists _; isplitr; swap
  · iexact H10
  ipureintro
  sl_unfold_run_names
  rw [wrA]
  try dsimp only
  simp only [rdQ, rdM, rdA, rcM, rcA, rdQ', rdM', rdA', rcM', rcA', comp1, reset1, fin1]

set_option maxHeartbeats 4000000 in
/-- `qt = 0`, `kv = 1` (so not `kv ≤ qt`): the scratch is left as found and the quotient of the state it holds is stored. -/
theorem run1_B (i : grid1.Coords) (hqt : (i 2).val = 0) (hkv : (i 3).val = 1)
    (arg4 : Memref sig .tc .vmem S1x1x1024x64 .bf16) (harg4 : arg4.IsWhole) (arg5 : Memref sig .tc .vmem S1x1x1024x64 .bf16) (harg5 : arg5.IsWhole)
    (arg6 : Memref sig .tc .vmem S1x1x1024x64 .bf16) (harg6 : arg6.IsWhole) (arg7 : Memref sig .tc .vmem S1x1x1024x64 .bf16) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x64 .f32) (harg10 : arg10.IsWhole)
    (xq xk xv : Vec F S1x1x1024x64 .bf16) (s : St F) (E : Set ℕ) (K : PUnit → sProp 𝕄) :
    iprop(owns (c : Thread nD τ) arg4 fullShare xq ∗ owns (c : Thread nD τ) arg5 fullShare xk ∗ owns (c : Thread nD τ) arg6 fullShare xv ∗ (∃ d, owns (c : Thread nD τ) arg7 fullShare d)
        ∗ owns (c : Thread nD τ) arg8 fullShare s.1 ∗ owns (c : Thread nD τ) arg9 fullShare s.2.1 ∗ owns (c : Thread nD τ) arg10 fullShare s.2.2
        ∗ (iprop(owns (c : Thread nD τ) arg4 fullShare xq ∗ owns (c : Thread nD τ) arg5 fullShare xk ∗ owns (c : Thread nD τ) arg6 fullShare xv ∗ owns (c : Thread nD τ) arg7 fullShare (fin1 s)
            ∗ owns (c : Thread nD τ) arg8 fullShare s.1 ∗ owns (c : Thread nD τ) arg9 fullShare s.2.1 ∗ owns (c : Thread nD τ) arg10 fullShare s.2.2) -∗ K ⟨⟩))
      ⊢ wp frame (wpE (defs₀ (F := F)) Variants.none c none) E (cc1_kernel i arg4 harg4 arg5 harg5 arg6 harg6 arg7 harg7 arg8 harg8 arg9 harg9 arg10 harg10) K := by
  have h1 : ¬ w1 i = 1#1 := w1_of_kv1 i hkv
  have h2 : ¬ w2 i = 1#1 := w2_of_01 i hqt hkv
  have h3 : k1_cond3 i = 1#1 := c3_of_kv1 i hkv
  simp only [cc1_kernel_eq_skeleton]; unfold cc1_kernel_skel
  unfold owns
  iintro ⟨⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
  obtain rfl := harg4.eq_unread hf4; obtain rfl := harg5.eq_unread hf5; obtain rfl := harg6.eq_unread hf6
  obtain rfl := harg8.eq_unread hf8; obtain rfl := harg9.eq_unread hf9; obtain rfl := harg10.eq_unread hf10
  sl_exec (disch := first | exact h1 | exact h2 | exact h3)
  sl_step
  iapply Hk
  -- the output block ends with one whole store, the quotient of the two scratch loads, which read the state found; all else
  -- comes back as found
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap
    · iexact H7
    ipureintro
    sl_unfold_run_names
    rw [wrQ]
    try dsimp only
    simp only [rdQ, rdM, rdA, rcM, rcA, rdQ', rdM', rdA', rcM', rcA', comp1, reset1, fin1]
  isplitl [H8]
  · iexists _; isplitr; · ipureintro; exact harg8.read_unread _
    iexact H8
  isplitl [H9]
  · iexists _; isplitr; · ipureintro; exact harg9.read_unread _
    iexact H9
  iexists _; isplitr; · ipureintro; exact harg10.read_unread _
  iexact H10

set_option maxHeartbeats 4000000 in
/-- `qt = 1`, `kv = 1`: the scratch is updated from the tile and the quotient of the new state is stored. -/
theorem run1_C (i : grid1.Coords) (hqt : (i 2).val = 1) (hkv : (i 3).val = 1)
    (arg4 : Memref sig .tc .vmem S1x1x1024x64 .bf16) (harg4 : arg4.IsWhole) (arg5 : Memref sig .tc .vmem S1x1x1024x64 .bf16) (harg5 : arg5.IsWhole)
    (arg6 : Memref sig .tc .vmem S1x1x1024x64 .bf16) (harg6 : arg6.IsWhole) (arg7 : Memref sig .tc .vmem S1x1x1024x64 .bf16) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x64 .f32) (harg10 : arg10.IsWhole)
    (xq xk xv : Vec F S1x1x1024x64 .bf16) (s : St F) (E : Set ℕ) (K : PUnit → sProp 𝕄) :
    iprop(owns (c : Thread nD τ) arg4 fullShare xq ∗ owns (c : Thread nD τ) arg5 fullShare xk ∗ owns (c : Thread nD τ) arg6 fullShare xv ∗ (∃ d, owns (c : Thread nD τ) arg7 fullShare d)
        ∗ owns (c : Thread nD τ) arg8 fullShare s.1 ∗ owns (c : Thread nD τ) arg9 fullShare s.2.1 ∗ owns (c : Thread nD τ) arg10 fullShare s.2.2
        ∗ (iprop(owns (c : Thread nD τ) arg4 fullShare xq ∗ owns (c : Thread nD τ) arg5 fullShare xk ∗ owns (c : Thread nD τ) arg6 fullShare xv ∗ owns (c : Thread nD τ) arg7 fullShare (fin1 (comp1 (BitVec.ofNat 32 (i 2).val) (BitVec.ofNat 32 (i 3).val) xq xk xv s))
            ∗ owns (c : Thread nD τ) arg8 fullShare (comp1 (BitVec.ofNat 32 (i 2).val) (BitVec.ofNat 32 (i 3).val) xq xk xv s).1
            ∗ owns (c : Thread nD τ) arg9 fullShare (comp1 (BitVec.ofNat 32 (i 2).val) (BitVec.ofNat 32 (i 3).val) xq xk xv s).2.1
            ∗ owns (c : Thread nD τ) arg10 fullShare (comp1 (BitVec.ofNat 32 (i 2).val) (BitVec.ofNat 32 (i 3).val) xq xk xv s).2.2) -∗ K ⟨⟩))
      ⊢ wp frame (wpE (defs₀ (F := F)) Variants.none c none) E (cc1_kernel i arg4 harg4 arg5 harg5 arg6 harg6 arg7 harg7 arg8 harg8 arg9 harg9 arg10 harg10) K := by
  have h1 : ¬ w1 i = 1#1 := w1_of_kv1 i hkv
  have h2 : w2 i = 1#1 := w2_of_11 i hqt hkv
  have h3 : k1_cond3 i = 1#1 := c3_of_kv1 i hkv
  simp only [cc1_kernel_eq_skeleton]; unfold cc1_kernel_skel
  simp only [k1_part1_eq_skeleton]; unfold k1_part1_skel
  unfold owns
  iintro ⟨⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
  obtain rfl := harg4.eq_unread hf4; obtain rfl := harg5.eq_unread hf5; obtain rfl := harg6.eq_unread hf6
  obtain rfl := harg8.eq_unread hf8; obtain rfl := harg9.eq_unread hf9; obtain rfl := harg10.eq_unread hf10
  sl_exec (disch := first | exact h1 | exact h2 | exact h3)
  sl_step
  iapply Hk
  -- each scratch buffer ends with the update's whole store over the state found; the output block with the quotient of the
  -- new numerator and denominator read back
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap
    · iexact H7
    ipureintro
    sl_unfold_run_names
    rw [wrQ]
    try dsimp only
    simp only [rdQ, rdM, rdA, rcM, rcA, rdQ', rdM', rdA', rcM', rcA', comp1, reset1, fin1]
  isplitl [H8]
  · iexists _; isplitr; swap
    · iexact H8
    ipureintro
    sl_unfold_run_names
    rw [wrM]
    try dsimp only
    simp only [rdQ, rdM, rdA, rcM, rcA, rdQ', rdM', rdA', rcM', rcA', comp1, reset1, fin1]
  isplitl [H9]
  · iexists _; isplitr; swap
    · iexact H9
    ipureintro
    sl_unfold_run_names
    rw [wrM]
    try dsimp only
    simp only [rdQ, rdM, rdA, rcM, rcA, rdQ', rdM', rdA', rcM', rcA', comp1, reset1, fin1]
  iexists _; isplitr; swap
  · iexact H10
  ipureintro
  sl_unfold_run_names
  rw [wrA]
  try dsimp only
  simp only [rdQ, rdM, rdA, rcM, rcA, rdQ', rdM', rdA', rcM', rcA', comp1, reset1, fin1]

end Cert.KernelIdeal.Hand

end
-- ==== Proof.R1Body.lean ====
import proofs.«412418_j10084583211544_3_alg».proof.Proof.R1Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The attention kernel's region: the body obligation

The grid runs (b, h, qt, kv) with kv fastest, so a point's parity is its key/value tile and the next bit its query tile. At an
even point (kv = 0) the running maximum, denominator and numerator are reset and updated once from the score tile, and the output
block is left alone: it is idle there and not written back. At an odd point (kv = 1) the quotient numerator / denominator is stored
into the output block, after one more update of the running state where qt = 1 (kv ≤ qt), and of the state as found where qt = 0. -/

/-! ## The grid's coordinates and the output window's schedule, decided over the 128 points -/

/-- A point's key/value tile is its parity. -/
theorem kvAt1 : ∀ t : Fin cfg1.N, (grid1.coords t 3).val = t.val % 2 :=
  (by decide +kernel : ∀ t : Fin grid1.N, (grid1.coords t 3).val = t.val % 2)

/-- A point's query tile is its second bit. -/
theorem qtAt1 : ∀ t : Fin cfg1.N, (grid1.coords t 2).val = (t.val / 2) % 2 :=
  (by decide +kernel : ∀ t : Fin grid1.N, (grid1.coords t 2).val = (t.val / 2) % 2)

/-- The three inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

/-- At the even points (kv = 0) the output block is idle: nothing is stored into it there. -/
theorem idleAt1_3 : ∀ t : Fin cfg1.N, t.val % 2 = 0 → cfg1.idle 3 (grid1.coords t) = true :=
  (by decide +kernel : ∀ t : Fin grid1.N, t.val % 2 = 0 → idle1 3 (grid1.coords t) = true)

/-- At the odd points (kv = 1) it is live: the quotient is stored into it. -/
theorem liveAt1_3 : ∀ t : Fin cfg1.N, t.val % 2 = 1 → cfg1.idle 3 (grid1.coords t) = false :=
  (by decide +kernel : ∀ t : Fin grid1.N, t.val % 2 = 1 → idle1 3 (grid1.coords t) = false)

/-- At the even points the output block is not written back. -/
theorem noFlush1_3 (t : Fin cfg1.N) (h : t.val % 2 = 0) : (cfg1.win 3).flush t = false :=
  Bool.eq_false_iff.mpr fun hf => by have := (flush1_3 t).mp hf; omega

/-! ## The running state at a point, by the point's case -/

/-- Where kv = 0 the state found is forgotten: the reset state, updated once from the tile. -/
theorem step1_first (c : Dev nD) (t : Fin cfg1.N) (s : St F) (hkv : (grid1.coords t 3).val = 0) :
    step1 V c t s = comp1 (BitVec.ofNat 32 (grid1.coords t 2).val) (BitVec.ofNat 32 (grid1.coords t 3).val)
      (iblk1 V c 0 t) (iblk1 V c 1 t) (iblk1 V c 2 t) reset1 := by
  unfold step1
  dsimp only
  rw [if_pos (show (grid1.coords t 3).val ≤ (grid1.coords t 2).val by omega), if_pos hkv]

/-- Where qt = 0 and kv = 1 (the tile lies wholly above the diagonal) the state is left as found. -/
theorem step1_keep (c : Dev nD) (t : Fin cfg1.N) (s : St F) (hqt : (grid1.coords t 2).val = 0) (hkv : (grid1.coords t 3).val = 1) :
    step1 V c t s = s := by
  unfold step1
  dsimp only
  rw [if_neg (show ¬ (grid1.coords t 3).val ≤ (grid1.coords t 2).val by omega), if_neg (show ¬ (grid1.coords t 3).val = 0 by omega)]

/-- Where qt = 1 and kv = 1 the state found is updated from the tile. -/
theorem step1_update (c : Dev nD) (t : Fin cfg1.N) (s : St F) (hqt : (grid1.coords t 2).val = 1) (hkv : (grid1.coords t 3).val = 1) :
    step1 V c t s = comp1 (BitVec.ofNat 32 (grid1.coords t 2).val) (BitVec.ofNat 32 (grid1.coords t 3).val)
      (iblk1 V c 0 t) (iblk1 V c 1 t) (iblk1 V c 2 t) s := by
  unfold step1
  dsimp only
  rw [if_pos (show (grid1.coords t 3).val ≤ (grid1.coords t 2).val by omega), if_neg (show ¬ (grid1.coords t 3).val = 0 by omega)]

/-- After a point with kv = 0: the reset state updated once, whatever came before. -/
theorem stAt1_first (c : Dev nD) (t : Fin cfg1.N) (hkv : (grid1.coords t 3).val = 0) :
    stAt1 V c t.val t.isLt = comp1 (BitVec.ofNat 32 (grid1.coords t 2).val) (BitVec.ofNat 32 (grid1.coords t 3).val)
      (iblk1 V c 0 t) (iblk1 V c 1 t) (iblk1 V c 2 t) reset1 := by
  obtain ⟨n, hn⟩ := t
  cases n with
  | zero => exact (stAt1_zero V c hn).trans (step1_first V c ⟨0, hn⟩ reset1 hkv)
  | succ n => exact (stAt1_succ V c n hn).trans (step1_first V c ⟨n + 1, hn⟩ _ hkv)

/-- After a point with qt = 0, kv = 1: the state the point before left. -/
theorem stAt1_keep (c : Dev nD) (t : Fin cfg1.N) (hqt : (grid1.coords t 2).val = 0) (hkv : (grid1.coords t 3).val = 1) (hz : t.val ≠ 0) :
    stAt1 V c t.val t.isLt = stAt1 V c (t.val - 1) (Nat.lt_of_le_of_lt (Nat.sub_le _ _) t.isLt) := by
  obtain ⟨n, hn⟩ := t
  cases n with
  | zero => exact absurd rfl hz
  | succ n => exact (stAt1_succ V c n hn).trans (step1_keep V c ⟨n + 1, hn⟩ _ hqt hkv)

/-- After a point with qt = 1, kv = 1: the state the point before left, updated from the tile. -/
theorem stAt1_update (c : Dev nD) (t : Fin cfg1.N) (hqt : (grid1.coords t 2).val = 1) (hkv : (grid1.coords t 3).val = 1) (hz : t.val ≠ 0) :
    stAt1 V c t.val t.isLt = comp1 (BitVec.ofNat 32 (grid1.coords t 2).val) (BitVec.ofNat 32 (grid1.coords t 3).val)
      (iblk1 V c 0 t) (iblk1 V c 1 t) (iblk1 V c 2 t) (stAt1 V c (t.val - 1) (Nat.lt_of_le_of_lt (Nat.sub_le _ _) t.isLt)) := by
  obtain ⟨n, hn⟩ := t
  cases n with
  | zero => exact absurd rfl hz
  | succ n => exact (stAt1_succ V c n hn).trans (step1_update V c ⟨n + 1, hn⟩ _ hqt hkv)

/-! ## The scoped rest: the other two kernels' staging buffers, the running state's three buffers, the generator -/

/-- The class invariant, opened: the first kernel's staging buffers, the three buffers of the running state at anything, the third
    kernel's staging buffers, the generator register at some state. -/
theorem PhiA1_eq (c : Dev nD) :
    (Pipeline.ΦA spec1 c : sProp 𝕄)
      = iprop(restA1 (F := F) c ∗ (∃ d, owns (c : Thread nD τ) scM1_0 fullShare d) ∗ (∃ d, owns (c : Thread nD τ) scM1_1 fullShare d)
          ∗ (∃ d, owns (c : Thread nD τ) scM1_2 fullShare d) ∗ restB1 (F := F) c ∗ (∃ r, prngReg c r)) := by
  have h₁ : (Pipeline.ΦA spec1 c : sProp 𝕄)
      ⊢ iprop(restA1 (F := F) c ∗ (∃ d, owns (c : Thread nD τ) scM1_0 fullShare d) ∗ (∃ d, owns (c : Thread nD τ) scM1_1 fullShare d)
          ∗ (∃ d, owns (c : Thread nD τ) scM1_2 fullShare d) ∗ restB1 (F := F) c ∗ (∃ r, prngReg c r)) := by
    unfold Pipeline.ΦA restA1 restB1
    rw [scopedRest1_eq]
    simp only [scM1_0, scM1_1, scM1_2, owns_whole]
    iintro ⟨⟨A0, A1, A2, A3, A4, A5, A6, A7, A8, A9, A10, S0, S1, S2, B0, B1, B2, B3, B4⟩, Hg⟩
    isplitl [A0 A1 A2 A3 A4 A5 A6 A7 A8 A9 A10]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      iexact A10
    isplitl [S0]; · iexact S0
    isplitl [S1]; · iexact S1
    isplitl [S2]; · iexact S2
    isplitl [B0 B1 B2 B3 B4]
    · isplitl [B0]; · iexact B0
      isplitl [B1]; · iexact B1
      isplitl [B2]; · iexact B2
      isplitl [B3]; · iexact B3
      iexact B4
    iexact Hg
  have h₂ : iprop(restA1 (F := F) c ∗ (∃ d, owns (c : Thread nD τ) scM1_0 fullShare d) ∗ (∃ d, owns (c : Thread nD τ) scM1_1 fullShare d)
          ∗ (∃ d, owns (c : Thread nD τ) scM1_2 fullShare d) ∗ restB1 (F := F) c ∗ (∃ r, prngReg c r))
      ⊢ (Pipeline.ΦA spec1 c : sProp 𝕄) := by
    unfold Pipeline.ΦA restA1 restB1
    rw [scopedRest1_eq]
    simp only [scM1_0, scM1_1, scM1_2, owns_whole]
    iintro ⟨⟨A0, A1, A2, A3, A4, A5, A6, A7, A8, A9, A10⟩, S0, S1, S2, ⟨B0, B1, B2, B3, B4⟩, Hg⟩
    isplitr [Hg]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [S0]; · iexact S0
      isplitl [S1]; · iexact S1
      isplitl [S2]; · iexact S2
      isplitl [B0]; · iexact B0
      isplitl [B1]; · iexact B1
      isplitl [B2]; · iexact B2
      isplitl [B3]; · iexact B3
      iexact B4
    iexact Hg
  exact BI.equiv_iff.mp ⟨h₁, h₂⟩

/-- Before any position the invariant gives the opened class invariant: the running state's named contents are forgotten. -/
theorem PhiS1_forget (c : Dev nD) (n : ℕ) (h : n ≤ cfg1.N) :
    PhiS1 V c n h ⊢ iprop(restA1 (F := F) c ∗ (∃ d, owns (c : Thread nD τ) scM1_0 fullShare d) ∗ (∃ d, owns (c : Thread nD τ) scM1_1 fullShare d)
      ∗ (∃ d, owns (c : Thread nD τ) scM1_2 fullShare d) ∗ restB1 (F := F) c ∗ (∃ r, prngReg c r)) := by
  by_cases hz : n = 0
  · rw [PhiS1_zero V c n h hz, PhiA1_eq]
  · rw [PhiS1_pos V c n h hz]
    iintro ⟨HA, HS0, HS1, HS2, HB, Hg⟩
    isplitl [HA]; · iexact HA
    isplitl [HS0]; · iexists _; iexact HS0
    isplitl [HS1]; · iexists _; iexact HS1
    isplitl [HS2]; · iexists _; iexact HS2
    isplitl [HB]; · iexact HB
    iexact Hg

/-! ## What the body finds in the query, key and value blocks' buffers -/

/-- The query block's buffer holds the block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The key block's buffer holds the block (tile min(kv, qt)) at every point: where it is not fetched the tile has not moved. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The value block's buffer likewise. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation at a generic point -/

/-- What the body is called with at point `t`: the invariant, nothing owed, the four blocks' current buffers. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The three input buffers hold their blocks and come back as they were. At an even point the running
    state is found at anything (the class invariant's at the first point, the point before's afterwards, forgotten), reset and
    updated once, and the output block, idle and not written back, is handed back untouched. At an odd point the running state is
    found at what the point before left; with qt = 0 it stays and its quotient is stored, with qt = 1 it is updated once more
    and the new state's quotient is stored. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [Phi1_castSucc V c t]
  have hkv := kvAt1 t
  have hqt := qtAt1 t
  by_cases h2 : t.val % 2 = 0
  · have hkv0 : (grid1.coords t 3).val = 0 := by rw [hkv, h2]
    rw [Dat.leavesExact_idle (dat1 V c) 3 t (idleAt1_3 t h2) (noFlush1_3 t h2)]
    rw [stAt1_first V c t hkv0]
    refine (sep_mono_left (PhiS1_forget V c _ _)).trans ?_
    iintro ⟨⟨HA, ⟨%e0, HS0⟩, ⟨%e1, HS1⟩, ⟨%e2, HS2⟩, HB, Hg⟩, Ho, ⟨%d0, H0⟩, ⟨%d1, H1⟩, ⟨%d2, H2⟩, ⟨%d3, H3⟩⟩
    iapply (run1_A c (grid1.coords t) hkv0 _ _ _ _ _ _ _ _ _ _ _ _ _ _ (iblk1 V c 0 t) (iblk1 V c 1 t) (iblk1 V c 2 t) _ Set.univ _)
    isplitl [H0]; · iexact H0
    isplitl [H1]; · iexact H1
    isplitl [H2]; · iexact H2
    isplitl [H3]; · iexact H3
    isplitl [HS0]; · iexists _; iexact HS0
    isplitl [HS1]; · iexists _; iexact HS1
    isplitl [HS2]; · iexists _; iexact HS2
    iintro ⟨H0, H1, H2, H3, HS0, HS1, HS2⟩
    isplitl [HA HS0 HS1 HS2 HB Hg]
    · isplitl [HA]; · iexact HA
      isplitl [HS0]; · iexact HS0
      isplitl [HS1]; · iexact HS1
      isplitl [HS2]; · iexact HS2
      isplitl [HB]; · iexact HB
      iexact Hg
    isplitl [Ho]; · iexact Ho
    isplitl [H0]; · iexact H0
    isplitl [H1]; · iexact H1
    isplitl [H2]; · iexact H2
    iexists _; iexact H3
  · have h21 : t.val % 2 = 1 := by omega
    have hkv1 : (grid1.coords t 3).val = 1 := by rw [hkv, h21]
    have hz : t.val ≠ 0 := by omega
    rw [show (dat1 V c).leavesExact 3 t = owns (c : Thread nD τ) (st1_3 t) fullShare ((dat1 V c).after 3 t) from by
      unfold Dat.leavesExact; rw [liveAt1_3 t h21], after1_3]
    rw [PhiS1_pos V c _ _ hz]
    by_cases h4 : (t.val / 2) % 2 = 0
    · have hqt0 : (grid1.coords t 2).val = 0 := by rw [hqt, h4]
      rw [stAt1_keep V c t hqt0 hkv1 hz]
      iintro ⟨⟨HA, HS0, HS1, HS2, HB, Hg⟩, Ho, ⟨%d0, H0⟩, ⟨%d1, H1⟩, ⟨%d2, H2⟩, ⟨%d3, H3⟩⟩
      iapply (run1_B c (grid1.coords t) hqt0 hkv1 _ _ _ _ _ _ _ _ _ _ _ _ _ _ (iblk1 V c 0 t) (iblk1 V c 1 t) (iblk1 V c 2 t)
        (stAt1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HA HS0 HS1 HS2 HB Hg]
      · isplitl [HA]; · iexact HA
        isplitl [HS0]; · iexact HS0
        isplitl [HS1]; · iexact HS1
        isplitl [HS2]; · iexact HS2
        isplitl [HB]; · iexact HB
        iexact Hg
      isplitl [Ho]; · iexact Ho
      isplitl [H0]; · iexact H0
      isplitl [H1]; · iexact H1
      isplitl [H2]; · iexact H2
      iexact H3
    · have hqt1 : (grid1.coords t 2).val = 1 := by rw [hqt]; omega
      rw [stAt1_update V c t hqt1 hkv1 hz]
      iintro ⟨⟨HA, HS0, HS1, HS2, HB, Hg⟩, Ho, ⟨%d0, H0⟩, ⟨%d1, H1⟩, ⟨%d2, H2⟩, ⟨%d3, H3⟩⟩
      iapply (run1_C c (grid1.coords t) hqt1 hkv1 _ _ _ _ _ _ _ _ _ _ _ _ _ _ (iblk1 V c 0 t) (iblk1 V c 1 t) (iblk1 V c 2 t)
        (stAt1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HA HS0 HS1 HS2 HB Hg]
      · isplitl [HA]; · iexact HA
        isplitl [HS0]; · iexact HS0
        isplitl [HS1]; · iexact HS1
        isplitl [HS2]; · iexact HS2
        isplitl [HB]; · iexact HB
        iexact Hg
      isplitl [Ho]; · iexact Ho
      isplitl [H0]; · iexact H0
      isplitl [H1]; · iexact H1
      isplitl [H2]; · iexact H2
      iexact H3

/-- The library's body obligation of region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 (F := F) V c).Φ 0 := by
  rw [show (dat1 (F := F) V c).Φ 0 = PhiS1 V c 0 (Nat.zero_le _) from rfl, PhiS1_zero V c 0 _ rfl]

/-- After the last point the invariant gives the scoped rest back, the running state forgotten. -/
theorem hout1 (c : Dev nD) : (dat1 (F := F) V c).Φ (Fin.last cfg1.N) ⊢ Pipeline.ΦA spec1 c := by
  rw [show (dat1 (F := F) V c).Φ (Fin.last cfg1.N) = PhiS1 V c (Fin.last cfg1.N).val (Nat.le_of_lt_succ (Fin.last cfg1.N).isLt) from rfl, PhiA1_eq]
  exact PhiS1_forget V c _ _

end Cert.KernelIdeal.Hand

end
-- ==== Proof.R2Defs.lean ====
import proofs.«412418_j10084583211544_3_alg».proof.Proof.Gen.KernelIdeal.Launch
import proofs.«412418_j10084583211544_3_alg».proof.Proof.Gen.KernelIdeal.Skeleton
import proofs.«412418_j10084583211544_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The output projection (the third region): what a grid point reads and what it leaves

A grid point (b, s) of the third region reads the sixteen heads' rows `512 s .. 512 s + 511` of the attention output,
lays them side by side into a 512 × 1024 tile (head `h` in columns `64 h .. 64 h + 63`) and multiplies by `Woᵀ`. -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rH2_0 : Rect S1x16x512x64 := Rect.unit (s := S1x16x512x64) ![0, 0, 0, 0] S1x1x512x64.size inb_S1x16x512x64_S1x1x512x64_0_0_0_0
abbrev rH2_1 : Rect S1x16x512x64 := Rect.unit (s := S1x16x512x64) ![0, 1, 0, 0] S1x1x512x64.size inb_S1x16x512x64_S1x1x512x64_0_1_0_0
abbrev rH2_2 : Rect S1x16x512x64 := Rect.unit (s := S1x16x512x64) ![0, 2, 0, 0] S1x1x512x64.size inb_S1x16x512x64_S1x1x512x64_0_2_0_0
abbrev rH2_3 : Rect S1x16x512x64 := Rect.unit (s := S1x16x512x64) ![0, 3, 0, 0] S1x1x512x64.size inb_S1x16x512x64_S1x1x512x64_0_3_0_0
abbrev rH2_4 : Rect S1x16x512x64 := Rect.unit (s := S1x16x512x64) ![0, 4, 0, 0] S1x1x512x64.size inb_S1x16x512x64_S1x1x512x64_0_4_0_0
abbrev rH2_5 : Rect S1x16x512x64 := Rect.unit (s := S1x16x512x64) ![0, 5, 0, 0] S1x1x512x64.size inb_S1x16x512x64_S1x1x512x64_0_5_0_0
abbrev rH2_6 : Rect S1x16x512x64 := Rect.unit (s := S1x16x512x64) ![0, 6, 0, 0] S1x1x512x64.size inb_S1x16x512x64_S1x1x512x64_0_6_0_0
abbrev rH2_7 : Rect S1x16x512x64 := Rect.unit (s := S1x16x512x64) ![0, 7, 0, 0] S1x1x512x64.size inb_S1x16x512x64_S1x1x512x64_0_7_0_0
abbrev rH2_8 : Rect S1x16x512x64 := Rect.unit (s := S1x16x512x64) ![0, 8, 0, 0] S1x1x512x64.size inb_S1x16x512x64_S1x1x512x64_0_8_0_0
abbrev rH2_9 : Rect S1x16x512x64 := Rect.unit (s := S1x16x512x64) ![0, 9, 0, 0] S1x1x512x64.size inb_S1x16x512x64_S1x1x512x64_0_9_0_0
abbrev rH2_10 : Rect S1x16x512x64 := Rect.unit (s := S1x16x512x64) ![0, 10, 0, 0] S1x1x512x64.size inb_S1x16x512x64_S1x1x512x64_0_10_0_0
abbrev rH2_11 : Rect S1x16x512x64 := Rect.unit (s := S1x16x512x64) ![0, 11, 0, 0] S1x1x512x64.size inb_S1x16x512x64_S1x1x512x64_0_11_0_0
abbrev rH2_12 : Rect S1x16x512x64 := Rect.unit (s := S1x16x512x64) ![0, 12, 0, 0] S1x1x512x64.size inb_S1x16x512x64_S1x1x512x64_0_12_0_0
abbrev rH2_13 : Rect S1x16x512x64 := Rect.unit (s := S1x16x512x64) ![0, 13, 0, 0] S1x1x512x64.size inb_S1x16x512x64_S1x1x512x64_0_13_0_0
abbrev rH2_14 : Rect S1x16x512x64 := Rect.unit (s := S1x16x512x64) ![0, 14, 0, 0] S1x1x512x64.size inb_S1x16x512x64_S1x1x512x64_0_14_0_0
abbrev rH2_15 : Rect S1x16x512x64 := Rect.unit (s := S1x16x512x64) ![0, 15, 0, 0] S1x1x512x64.size inb_S1x16x512x64_S1x1x512x64_0_15_0_0
abbrev rW2 : Rect S1024x1024 := Rect.unit (s := S1024x1024) ![0, 0] S1024x1024.size inb_S1024x1024_S1024x1024_0_0
abbrev rO2 : Rect S1x512x1024 := Rect.unit (s := S1x512x1024) ![0, 0, 0] S1x512x1024.size inb_S1x512x1024_S1x512x1024_0_0_0

/-- The sixteen heads side by side. -/
def cat2 (x0 : Vec F S1x16x512x64 .bf16) : FVec F S512x1024 .bf16 :=
  k2_pay1 (k2_pay3 (View.ld x0 rH2_0)) (k2_pay4 (View.ld x0 rH2_1)) (k2_pay5 (View.ld x0 rH2_2)) (k2_pay6 (View.ld x0 rH2_3)) (k2_pay7 (View.ld x0 rH2_4)) (k2_pay8 (View.ld x0 rH2_5)) (k2_pay9 (View.ld x0 rH2_6)) (k2_pay10 (View.ld x0 rH2_7)) (k2_pay11 (View.ld x0 rH2_8)) (View.ld x0 rH2_9) (View.ld x0 rH2_10) (View.ld x0 rH2_11) (View.ld x0 rH2_12) (View.ld x0 rH2_13) (View.ld x0 rH2_14) (View.ld x0 rH2_15)

/-- The output block a point leaves: the concatenated heads times `Woᵀ`. -/
def out2_2 (x0 : Vec F S1x16x512x64 .bf16) (x1 : Vec F S1024x1024 .bf16) : Vec F S1x512x1024 .f32 :=
  View.canon [⟨rO2, k2_pay2 (cat2 x0) (View.ld x1 rW2)⟩]

/-- The proof data of the third region on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

end Cert.KernelIdeal.Hand

end
-- ==== Proof.R2Body.lean ====
import proofs.«412418_j10084583211544_3_alg».proof.Proof.R2Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The output projection at one grid point

At point (b, s) the attention buffer holds the sixteen heads' rows of sequence tile s, the weight buffer holds all of
`Woᵀ` (its block index never moves, so it is brought in once and stays), and the body overwrites the whole output
buffer with (heads side by side) · `Woᵀ`. -/

/-- The attention buffer holds the point's block of the attention output (all sixteen heads, 512 rows), at every point. -/
theorem heads_held (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- The weight buffer holds the whole of `Woᵀ` at every point: brought in at the first point, its block index constant,
    and the body leaves it as it was. -/
theorem weights_held (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- The one store of the body is of the whole 1 × 512 × 1024 block, so every index of the block lies in it. -/
theorem whole_block_stored (p : Vec F S1x512x1024 .f32) (y : S1x512x1024.Idx) :
    ∃ pc ∈ ([⟨rO2, p⟩] : List (View.Piece (Elt F) S1x512x1024 .f32)), y ∈ pc.1.set :=
  View.cover_of_tiled [⟨rO2, p⟩] S1x512x1024.size (by rfl) y

set_option maxHeartbeats 1000000 in
/-- The body on whole buffers: with the attention buffer reading `x0`, the weight buffer reading `x1` and the output
    buffer at anything, it loads the sixteen heads (the first nine inside the first part), the weights, and — its
    value unused — the output block, and stores (heads side by side) · weights over the whole output block; the two
    inputs stay as they were. -/
theorem proj_body (c : Dev nD) (E : Set ℕ) (i : grid2.Coords)
    (arg2 : Memref sig .tc .vmem S1x16x512x64 .bf16) (harg2 : arg2.IsWhole)
    (arg3 : Memref sig .tc .vmem S1024x1024 .bf16) (harg3 : arg3.IsWhole)
    (arg4 : Memref sig .tc .vmem S1x512x1024 .f32) (harg4 : arg4.IsWhole)
    (x0 : Vec F S1x16x512x64 .bf16) (x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__o_proj_kernel i arg2 harg2 arg3 harg3 arg4 harg4) K := by
  simp only [cc2__o_proj_kernel_eq_skeleton]; unfold cc2__o_proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (whole_block_stored _)

/-- What the body is handed at point `t`: the region's invariant, what the core owes, and the three current buffers. -/
def projPre (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it hands back: the same invariant and debt, the inputs' blocks in place, the projected block in the output buffer. -/
def projPost (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the
    debt are not read. -/
theorem proj_at_point (c : Dev nD) (t : Fin cfg2.N) :
    projPre V c t ⊢ wp frame (wpE (defs₀ (F := F)) Variants.none c none) Set.univ (bodyAt2 t) (fun _ => projPost V c t) := by
  unfold projPre projPost bodyAt2
  simp only [heads_held, weights_held]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (proj_body c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation of region 2, at every point. -/
theorem body_obligation2 (c : Dev nD) : BodyObligation (dat2 (F := F) V c) (defs₀ (F := F)) Variants.none () Set.univ := fun t => by
  rw [bigSep_W2, bigSep_W2]
  exact proj_at_point V c t

end Cert.KernelIdeal.Hand

end
-- ==== Proof.Run.lean ====
import proofs.«412418_j10084583211544_3_alg».proof.Proof.R0Body
import proofs.«412418_j10084583211544_3_alg».proof.Proof.R1Body
import proofs.«412418_j10084583211544_3_alg».proof.Proof.R2Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! # The run of the whole program: three regions among two stretches of host operations

The buffer contents at each boundary of `@main`, folded from the launch memory: the three weight casts, the projection region,
the attention region, the transpose and cast of `Wo`, the output region. -/

/-- Core `c`'s buffers at launch. -/
abbrev W0 : Dev nD → Valuation τ sig (Elt F) := fun c b => (s₀ m ρ).mem (c, b)
/-- After the three weight casts (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the transpose and cast of `Wo` (the output region's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- At region 2's exit: its arrays at what the write-backs leave, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The result array at the end is what the output region's write-backs leave. -/
theorem W5_main_v7 (c : Dev nD) : W5 m ρ c (Proc.devRef .tc main_v7) = (dat2 (V4 m ρ) c).arrAt 2 cfg2.N :=
  W5_arr m ρ c 2

/-! ## The proof data family and the thread state -/

abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered with every unscoped buffer at `W1`, left with them at `W2`; its arrays split
    out of the unscoped buffers and put back at what the write-backs leave; the generator register into the invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`; its arrays split
    out of the unscoped buffers and put back at what the write-backs leave; the generator register into the invariant and out. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin1 (V2 m ρ) c)
    change (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (hout1 (V2 m ρ) c) ?_
    change (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W4`, left with them at `W5`; its arrays split
    out of the unscoped buffers and put back at what the write-backs leave; the generator register into the invariant and out. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ) ]

theorem main_run (c : Dev nD) : main (F := F) c = Pipeline.Seg.run (segs m ρ) := (main_chain c).trans (by chain_rfl)

set_option backward.isDefEq.respectTransparency.types false in
/-- THE RUN. From any memory with zero counters every weakly fair execution of `@main` terminates, nothing faulting, and in
    every final state each unscoped buffer of each core holds the last boundary's contents `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_main m ρ)

/-- THE RUN WITH ITS RESULT: the result array ends at what the output region's write-backs leave, the arguments as launched. -/
theorem run_value : θ_run defs (onTc (τ := τ) (main (F := F))) ⟨m, fun _ => 0, ρ⟩ (fun r => ∀ c : Dev nD,
      r.2.mem ((c.tc : Thread nD τ).loc main_v7) = (dat2 (V4 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v7 (by decide))).trans (W5_main_v7 m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_main m ρ)

end Cert.KernelIdeal.Hand

end
-- ==== Proof.Spec.lean ====
import Idealize.ShloMosaic.PureOps.Ideal
import Idealize.ShloMosaic.Lib.ValueIdx

noncomputable section

/-! # Causal multi-head attention over the extended reals: the functions both programs compute

Shapes: `x` is [2, 2048, 1024] (batch, position, channel); a weight matrix is [1024, 1024] (out channel, in channel);
queries, keys, values and the attention output are [2, 16, 2048, 64] (batch, head, position, head channel), out channel
`64 h + d` being head `h`, head channel `d`. -/

namespace Cert.Spec

open Idealize.ShloMosaic Idealize.ShloMosaic.ValueIdx

abbrev A3 : Type := (⟨3, ![2, 2048, 1024]⟩ : Shape).Idx → EReal
abbrev A2 : Type := (⟨2, ![1024, 1024]⟩ : Shape).Idx → EReal
abbrev A4 : Type := (⟨4, ![2, 16, 2048, 64]⟩ : Shape).Idx → EReal

/-- A linear layer without bias, split into heads: `P[b, h, s, d] = Σ_e x[b, s, e] · W[64 h + d, e]`. -/
def projAt (x : A3) (W : A2) (b : Fin 2) (h : Fin 16) (s : Fin 2048) (d : Fin 64) : EReal :=
  ∑ e : Fin 1024, x (ix3 b s e) * W (ix2 (⟨h.val * 64 + d.val, by omega⟩ : Fin 1024) e)

def proj (x : A3) (W : A2) : A4 := fun j => projAt x W (j 0) (j 1) (j 2) (j 3)

/-- The scaled score of query position `i` against key position `j` in head (b, h): `(Σ_d q·k) / 8` (the head width is 64). -/
def score (q k : A4) (b : Fin 2) (h : Fin 16) (i j : Fin 2048) : EReal :=
  (∑ d : Fin 64, q (ix4 b h i d) * k (ix4 b h j d)) * ((1 / 8 : ℝ) : EReal)

/-- The causal mask: a key position after the query's scores -∞. -/
def mscore (q k : A4) (b : Fin 2) (h : Fin 16) (i j : Fin 2048) : EReal :=
  if j.val ≤ i.val then score q k b h i j else ⊥

/-- The largest entry of a row, -∞ for the empty row. -/
def rowMax {n : ℕ} (t : Fin n → EReal) : EReal := Finset.univ.sup t

/-- Softmax of the row `t` against the values `v`: `Σ_j (exp (t_j - M) / L) · v_j` with `M` the row's maximum and
    `L = Σ_j exp (t_j - M)`. -/
def soft {n : ℕ} (t v : Fin n → EReal) : EReal :=
  ∑ j : Fin n, Ideal.div (Ideal.exp (t j - rowMax t)) (∑ j' : Fin n, Ideal.exp (t j' - rowMax t)) * v j

/-- One step of the online form over a tile `t` with values `v`, from the running maximum `mo`, denominator `lo` and
    numerator `ao`: the new maximum, the rescaled denominator, the rescaled numerator. -/
def onlM {n : ℕ} (mo : EReal) (t : Fin n → EReal) : EReal := max mo (rowMax t)
def onlL {n : ℕ} (mo lo : EReal) (t : Fin n → EReal) : EReal :=
  Ideal.exp (mo - onlM mo t) * lo + ∑ j : Fin n, Ideal.exp (t j - onlM mo t)
def onlA {n : ℕ} (mo ao : EReal) (t v : Fin n → EReal) : EReal :=
  Ideal.exp (mo - onlM mo t) * ao + ∑ j : Fin n, Ideal.exp (t j - onlM mo t) * v j

/-- Tile `T` (0 or 1) of a row of 2048: positions `1024 T .. 1024 T + 1023`. -/
def tile (T : Fin 2) (t : Fin 2048 → EReal) : Fin 1024 → EReal := fun j => t ⟨1024 * T.val + j.val, by omega⟩

/-- The online form over the first tile only: what a query row in the first 1024 positions ends with. -/
def flash1 (t v : Fin 2048 → EReal) : EReal :=
  Ideal.div (onlA ⊥ 0 (tile 0 t) (tile 0 v)) (onlL ⊥ 0 (tile 0 t))

/-- The online form over both tiles: what a query row in the last 1024 positions ends with. -/
def flash2 (t v : Fin 2048 → EReal) : EReal :=
  Ideal.div
    (onlA (onlM ⊥ (tile 0 t)) (onlA ⊥ 0 (tile 0 t) (tile 0 v)) (tile 1 t) (tile 1 v))
    (onlL (onlM ⊥ (tile 0 t)) (onlL ⊥ 0 (tile 0 t)) (tile 1 t))

/-- Causal attention, as a softmax row by row. -/
def attn (q k v : A4) : A4 := fun j =>
  soft (fun kk : Fin 2048 => mscore q k (j 0) (j 1) (j 2) kk) (fun kk : Fin 2048 => v (ix4 (j 0) (j 1) kk (j 3)))

/-- Causal attention, in the online form: one tile for the first 1024 query positions, two for the rest. -/
def attnOnline (q k v : A4) : A4 := fun j =>
  if (j 2).val < 1024 then
    flash1 (fun kk : Fin 2048 => mscore q k (j 0) (j 1) (j 2) kk) (fun kk : Fin 2048 => v (ix4 (j 0) (j 1) kk (j 3)))
  else
    flash2 (fun kk : Fin 2048 => mscore q k (j 0) (j 1) (j 2) kk) (fun kk : Fin 2048 => v (ix4 (j 0) (j 1) kk (j 3)))

/-- The heads laid side by side, then the output layer: `out[b, s, o] = Σ_e a[b, e / 64, s, e % 64] · Wo[o, e]`. -/
def outp (a : A4) (Wo : A2) : A3 := fun j =>
  ∑ e : Fin 1024, a (ix4 (j 0) (⟨e.val / 64, by omega⟩ : Fin 16) (j 1) (⟨e.val % 64, by omega⟩ : Fin 64)) * Wo (ix2 (j 2) e)

/-- The same against the transposed weights `Wt[e, o] = Wo[o, e]`. -/
def outpT (a : A4) (Wt : A2) : A3 := fun j =>
  ∑ e : Fin 1024, a (ix4 (j 0) (⟨e.val / 64, by omega⟩ : Fin 16) (j 1) (⟨e.val % 64, by omega⟩ : Fin 64)) * Wt (ix2 e (j 2))

/-- Every entry of an array is a real number. -/
def Fin4 (a : A4) : Prop := ∀ j, ∃ r : ℝ, a j = (r : EReal)
def Fin3 (a : A3) : Prop := ∀ j, ∃ r : ℝ, a j = (r : EReal)
def Fin2 (a : A2) : Prop := ∀ j, ∃ r : ℝ, a j = (r : EReal)

end Cert.Spec

end
-- ==== Proof.Val0.lean ====
import proofs.«412418_j10084583211544_3_alg».proof.Proof.R0Defs
import proofs.«412418_j10084583211544_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-! # What the projection region leaves in its three output arrays, over the extended reals

Over the extended reals the casts to the narrow float format are the identity and the matrix unit's product into a zero
accumulator is the plain sum, so head `h`, row `s`, channel `d` of an output array is `Σ_e x[b, s, e] · W[64 h + d, e]`. -/

/-! ## The matrix unit's product at an index -/

theorem mm_lhs_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem mm_lhs_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem mm_rhs_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem mm_rhs_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- Row `r`, column `e` of the product of a row block with a transposed weight matrix: `Σ_k a[r, k] · w[e, k]`. -/
theorem prod_apply (a : FVec Ideal S512x1024 .bf16) (w : Vec Ideal S1024x1024 .bf16) (r : Fin 512) (e : Fin 1024) :
    k0_pay25 (F := Ideal) a w (ix2 r e) = ∑ k : Fin 1024, a (ix2 r k) * w (ix2 e k) := by
  unfold k0_pay25
  rw [truncf_apply]
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 r e) ((contrEquiv1 dot_S512x1024_S1024x1024_S512x1024_1_1_0_0_n_n 1024 rfl rfl).symm k) = ix2 r k := funext fun b => Fin.ext (by
    match b with
    | ⟨0, _⟩ => exact mm_lhs_0 _ _
    | ⟨1, _⟩ => exact (mm_lhs_1 _ _).trans hk)
  have er : dot_S512x1024_S1024x1024_S512x1024_1_1_0_0_n_n.rhsIdx (ix2 r e) ((contrEquiv1 dot_S512x1024_S1024x1024_S512x1024_1_1_0_0_n_n 1024 rfl rfl).symm k) = ix2 e k := funext fun b => Fin.ext (by
    match b with
    | ⟨0, _⟩ => exact mm_rhs_0 _ _
    | ⟨1, _⟩ => exact (mm_rhs_1 _ _).trans hk)
  rw [el, er, shapeCast_self]

/-- The row block of `x` with its unit axis dropped and cast: entry `(r, k)` is `x[0, r, k]`. -/
theorem rows_apply (x : Vec Ideal S1x512x1024 .f32) (r : Fin 512) (k : Fin 1024) :
    k0_pay6 (F := Ideal) x (ix2 r k) = x (ix3 0 r k) := by
  unfold k0_pay6
  rw [truncf_apply]
  refine shapeCast_apply x _ (ix2 r k) (ix3 0 r k) ?_
  rw [Shape.rowMajor_val_three, Shape.rowMajor_val_two]
  show ((0 : ℕ) * 512 + r.val) * 1024 + k.val = r.val * 1024 + k.val
  omega

theorem pay7_eq (x : Vec Ideal S1x512x1024 .f32) (w : Vec Ideal S1024x1024 .bf16) :
    k0_pay7 (F := Ideal) x w = k0_pay25 (k0_pay6 x) w := rfl
theorem pay44_eq (a : FVec Ideal S512x1024 .bf16) (w : Vec Ideal S1024x1024 .bf16) :
    k0_pay44 (F := Ideal) a w = k0_pay25 a w := rfl

/-! ## A head's band of the product, and the sixteen stores read as one function -/

/-- Where entry `(0, h, r, d)` of an output block sits in the [512, 1024] product: row `r`, column `64 h + d`. -/
def bandIdx (y : S1x16x512x64.Idx) : S512x1024.Idx :=
  ix2 (⟨(y 2).val, (y 2).isLt⟩ : Fin 512) (⟨(y 1).val * 64 + (y 3).val, by
      have h1 : (y 1).val < 16 := (y 1).isLt
      have h3 : (y 3).val < 64 := (y 3).isLt
      omega⟩ : Fin 1024)

/-- The output block whose head `h` is columns `64 h .. 64 h + 63` of the product `P`. -/
def band (P : FVec Ideal S512x1024 .bf16) : Vec Ideal S1x16x512x64 .bf16 := fun y => P (bandIdx y)

theorem hz2 : (![0, 0] : Fin 2 → Nat) = fun _ => 0 := funext fun a => by fin_cases a <;> rfl
theorem hz3 : (![0, 0, 0] : Fin 3 → Nat) = fun _ => 0 := funext fun a => by fin_cases a <;> rfl
/-- The piece stored into head `h` — the band at column offset `off = 64 h`, reshaped — is the band function on that head's rectangle. -/
theorem band_piece (P : FVec Ideal S512x1024 .bf16) (h off : ℕ) (hoff : off = 64 * h)
    (hS : S512x1024.Slices ![0, off] S512x64) (hC : S512x64.ShapeCasts S1x1x512x64)
    (inb : ∀ a, (![0, h, 0, 0] : Fin 4 → ℕ) a + S1x1x512x64.size a ≤ S1x16x512x64.size a)
    (x : S1x1x512x64.Idx) :
    shapeCast S1x1x512x64 (extractStridedSlice S512x64 ![0, off] P hS) hC x
      = band P ((Rect.unit (s := S1x16x512x64) ![0, h, 0, 0] S1x1x512x64.size inb).emb x) := by
  have x0 : (x 0).val < 1 := (x 0).isLt
  have x1 : (x 1).val < 1 := (x 1).isLt
  have x2 : (x 2).val < 512 := (x 2).isLt
  have x3 : (x 3).val < 64 := (x 3).isLt
  refine (shapeCast_apply _ hC x (ix2 ⟨(x 2).val, x2⟩ ⟨(x 3).val, x3⟩) ?_).trans ?_
  · rw [Shape.rowMajor_val_two, Shape.rowMajor_val_four]
    show (x 2).val * 64 + (x 3).val = (((x 0).val * 1 + (x 1).val) * 512 + (x 2).val) * 64 + (x 3).val
    omega
  · unfold band
    refine extractStridedSlice_apply _ P hS _ _ fun a => ?_
    match a with
    | ⟨0, _⟩ => show (0 + 1 * (x 2).val) = 0 + (x 2).val; omega
    | ⟨1, _⟩ => show (h + 1 * (x 1).val) * 64 + (0 + 1 * (x 3).val) = off + (x 3).val; omega

theorem out0_4_eq (x0 : Vec Ideal S1x512x1024 .f32) (x1 : Vec Ideal S1024x1024 .bf16) :
    out0_4 (F := Ideal) x0 x1 = band (k0_pay25 (k0_pay6 x0) x1) := by
  have e0 : View.ld x0 rX0 = x0 := View.ld_unit_zero (S := S1x512x1024) hz3 _ x0
  have e1 : View.ld x1 rW0 = x1 := View.ld_unit_zero (S := S1024x1024) hz2 _ x1
  funext y
  unfold out0_4
  rw [e0, e1]
  rw [← pay7_eq]
  refine View.canon_apply_of_pieces (band (k0_pay7 x0 x1)) _ ?_ y
    (View.cover_of_tiledL (s := S1x16x512x64) _ S1x1x512x64.size (by sl_kernel_rfl) y)
  intro p hp
  simp only [List.mem_cons, List.not_mem_nil, or_false] at hp
  rcases hp with rfl | rfl | rfl | rfl | rfl | rfl | rfl | rfl | rfl | rfl | rfl | rfl | rfl | rfl | rfl | rfl
  · intro x
    show k0_pay24 (k0_pay7 x0 x1) x = band (k0_pay7 x0 x1) (rH0_15.emb x)
    exact band_piece (k0_pay7 x0 x1) 15 960 rfl Facts₀.slices_S512x1024_o0_960_S512x64 Facts₀.shapeCasts_S512x64_S1x1x512x64 _ x
  · intro x
    show k0_pay23 (k0_pay7 x0 x1) x = band (k0_pay7 x0 x1) (rH0_14.emb x)
    exact band_piece (k0_pay7 x0 x1) 14 896 rfl Facts₀.slices_S512x1024_o0_896_S512x64 Facts₀.shapeCasts_S512x64_S1x1x512x64 _ x
  · intro x
    show k0_pay22 (k0_pay7 x0 x1) x = band (k0_pay7 x0 x1) (rH0_13.emb x)
    exact band_piece (k0_pay7 x0 x1) 13 832 rfl Facts₀.slices_S512x1024_o0_832_S512x64 Facts₀.shapeCasts_S512x64_S1x1x512x64 _ x
  · intro x
    show k0_pay21 (k0_pay7 x0 x1) x = band (k0_pay7 x0 x1) (rH0_12.emb x)
    exact band_piece (k0_pay7 x0 x1) 12 768 rfl Facts₀.slices_S512x1024_o0_768_S512x64 Facts₀.shapeCasts_S512x64_S1x1x512x64 _ x
  · intro x
    show k0_pay20 (k0_pay19 (k0_pay7 x0 x1)) x = band (k0_pay7 x0 x1) (rH0_11.emb x)
    exact band_piece (k0_pay7 x0 x1) 11 704 rfl Facts₀.slices_S512x1024_o0_704_S512x64 Facts₀.shapeCasts_S512x64_S1x1x512x64 _ x
  · intro x
    show k0_pay18 (k0_pay7 x0 x1) x = band (k0_pay7 x0 x1) (rH0_10.emb x)
    exact band_piece (k0_pay7 x0 x1) 10 640 rfl Facts₀.slices_S512x1024_o0_640_S512x64 Facts₀.shapeCasts_S512x64_S1x1x512x64 _ x
  · intro x
    show k0_pay17 (k0_pay7 x0 x1) x = band (k0_pay7 x0 x1) (rH0_9.emb x)
    exact band_piece (k0_pay7 x0 x1) 9 576 rfl Facts₀.slices_S512x1024_o0_576_S512x64 Facts₀.shapeCasts_S512x64_S1x1x512x64 _ x
  · intro x
    show k0_pay16 (k0_pay7 x0 x1) x = band (k0_pay7 x0 x1) (rH0_8.emb x)
    exact band_piece (k0_pay7 x0 x1) 8 512 rfl Facts₀.slices_S512x1024_o0_512_S512x64 Facts₀.shapeCasts_S512x64_S1x1x512x64 _ x
  · intro x
    show k0_pay15 (k0_pay7 x0 x1) x = band (k0_pay7 x0 x1) (rH0_7.emb x)
    exact band_piece (k0_pay7 x0 x1) 7 448 rfl Facts₀.slices_S512x1024_o0_448_S512x64 Facts₀.shapeCasts_S512x64_S1x1x512x64 _ x
  · intro x
    show k0_pay14 (k0_pay7 x0 x1) x = band (k0_pay7 x0 x1) (rH0_6.emb x)
    exact band_piece (k0_pay7 x0 x1) 6 384 rfl Facts₀.slices_S512x1024_o0_384_S512x64 Facts₀.shapeCasts_S512x64_S1x1x512x64 _ x
  · intro x
    show k0_pay13 (k0_pay7 x0 x1) x = band (k0_pay7 x0 x1) (rH0_5.emb x)
    exact band_piece (k0_pay7 x0 x1) 5 320 rfl Facts₀.slices_S512x1024_o0_320_S512x64 Facts₀.shapeCasts_S512x64_S1x1x512x64 _ x
  · intro x
    show k0_pay12 x0 x1 x = band (k0_pay7 x0 x1) (rH0_4.emb x)
    exact band_piece (k0_pay7 x0 x1) 4 256 rfl Facts₀.slices_S512x1024_o0_256_S512x64 Facts₀.shapeCasts_S512x64_S1x1x512x64 _ x
  · intro x
    show k0_pay11 x0 x1 x = band (k0_pay7 x0 x1) (rH0_3.emb x)
    exact band_piece (k0_pay7 x0 x1) 3 192 rfl Facts₀.slices_S512x1024_o0_192_S512x64 Facts₀.shapeCasts_S512x64_S1x1x512x64 _ x
  · intro x
    show k0_pay10 x0 x1 x = band (k0_pay7 x0 x1) (rH0_2.emb x)
    exact band_piece (k0_pay7 x0 x1) 2 128 rfl Facts₀.slices_S512x1024_o0_128_S512x64 Facts₀.shapeCasts_S512x64_S1x1x512x64 _ x
  · intro x
    show k0_pay9 x0 x1 x = band (k0_pay7 x0 x1) (rH0_1.emb x)
    exact band_piece (k0_pay7 x0 x1) 1 64 rfl Facts₀.slices_S512x1024_o0_64_S512x64 Facts₀.shapeCasts_S512x64_S1x1x512x64 _ x
  · intro x
    show k0_pay8 x0 x1 x = band (k0_pay7 x0 x1) (rH0_0.emb x)
    exact band_piece (k0_pay7 x0 x1) 0 0 rfl Facts₀.slices_S512x1024_o0_0_S512x64 Facts₀.shapeCasts_S512x64_S1x1x512x64 _ x

theorem out0_5_eq (x0 : Vec Ideal S1x512x1024 .f32) (x1 : Vec Ideal S1024x1024 .bf16) :
    out0_5 (F := Ideal) x0 x1 = band (k0_pay25 (k0_pay6 x0) x1) := by
  have e0 : View.ld x0 rX0 = x0 := View.ld_unit_zero (S := S1x512x1024) hz3 _ x0
  have e1 : View.ld x1 rW0 = x1 := View.ld_unit_zero (S := S1024x1024) hz2 _ x1
  funext y
  unfold out0_5
  rw [e0, e1]
  refine View.canon_apply_of_pieces (band (k0_pay25 (k0_pay6 x0) x1)) _ ?_ y
    (View.cover_of_tiledL (s := S1x16x512x64) _ S1x1x512x64.size (by sl_kernel_rfl) y)
  intro p hp
  simp only [List.mem_cons, List.not_mem_nil, or_false] at hp
  rcases hp with rfl | rfl | rfl | rfl | rfl | rfl | rfl | rfl | rfl | rfl | rfl | rfl | rfl | rfl | rfl | rfl
  · intro x
    show k0_pay43 (k0_pay25 (k0_pay6 x0) x1) x = band (k0_pay25 (k0_pay6 x0) x1) (rH0_15.emb x)
    exact band_piece (k0_pay25 (k0_pay6 x0) x1) 15 960 rfl Facts₀.slices_S512x1024_o0_960_S512x64 Facts₀.shapeCasts_S512x64_S1x1x512x64 _ x
  · intro x
    show k0_pay42 (k0_pay25 (k0_pay6 x0) x1) x = band (k0_pay25 (k0_pay6 x0) x1) (rH0_14.emb x)
    exact band_piece (k0_pay25 (k0_pay6 x0) x1) 14 896 rfl Facts₀.slices_S512x1024_o0_896_S512x64 Facts₀.shapeCasts_S512x64_S1x1x512x64 _ x
  · intro x
    show k0_pay41 (k0_pay25 (k0_pay6 x0) x1) x = band (k0_pay25 (k0_pay6 x0) x1) (rH0_13.emb x)
    exact band_piece (k0_pay25 (k0_pay6 x0) x1) 13 832 rfl Facts₀.slices_S512x1024_o0_832_S512x64 Facts₀.shapeCasts_S512x64_S1x1x512x64 _ x
  · intro x
    show k0_pay40 (k0_pay25 (k0_pay6 x0) x1) x = band (k0_pay25 (k0_pay6 x0) x1) (rH0_12.emb x)
    exact band_piece (k0_pay25 (k0_pay6 x0) x1) 12 768 rfl Facts₀.slices_S512x1024_o0_768_S512x64 Facts₀.shapeCasts_S512x64_S1x1x512x64 _ x
  · intro x
    show k0_pay39 (k0_pay25 (k0_pay6 x0) x1) x = band (k0_pay25 (k0_pay6 x0) x1) (rH0_11.emb x)
    exact band_piece (k0_pay25 (k0_pay6 x0) x1) 11 704 rfl Facts₀.slices_S512x1024_o0_704_S512x64 Facts₀.shapeCasts_S512x64_S1x1x512x64 _ x
  · intro x
    show k0_pay38 (k0_pay25 (k0_pay6 x0) x1) x = band (k0_pay25 (k0_pay6 x0) x1) (rH0_10.emb x)
    exact band_piece (k0_pay25 (k0_pay6 x0) x1) 10 640 rfl Facts₀.slices_S512x1024_o0_640_S512x64 Facts₀.shapeCasts_S512x64_S1x1x512x64 _ x
  · intro x
    show k0_pay37 (k0_pay25 (k0_pay6 x0) x1) x = band (k0_pay25 (k0_pay6 x0) x1) (rH0_9.emb x)
    exact band_piece (k0_pay25 (k0_pay6 x0) x1) 9 576 rfl Facts₀.slices_S512x1024_o0_576_S512x64 Facts₀.shapeCasts_S512x64_S1x1x512x64 _ x
  · intro x
    show k0_pay36 (k0_pay35 (k0_pay25 (k0_pay6 x0) x1)) x = band (k0_pay25 (k0_pay6 x0) x1) (rH0_8.emb x)
    exact band_piece (k0_pay25 (k0_pay6 x0) x1) 8 512 rfl Facts₀.slices_S512x1024_o0_512_S512x64 Facts₀.shapeCasts_S512x64_S1x1x512x64 _ x
  · intro x
    show k0_pay34 (k0_pay25 (k0_pay6 x0) x1) x = band (k0_pay25 (k0_pay6 x0) x1) (rH0_7.emb x)
    exact band_piece (k0_pay25 (k0_pay6 x0) x1) 7 448 rfl Facts₀.slices_S512x1024_o0_448_S512x64 Facts₀.shapeCasts_S512x64_S1x1x512x64 _ x
  · intro x
    show k0_pay33 (k0_pay25 (k0_pay6 x0) x1) x = band (k0_pay25 (k0_pay6 x0) x1) (rH0_6.emb x)
    exact band_piece (k0_pay25 (k0_pay6 x0) x1) 6 384 rfl Facts₀.slices_S512x1024_o0_384_S512x64 Facts₀.shapeCasts_S512x64_S1x1x512x64 _ x
  · intro x
    show k0_pay32 (k0_pay25 (k0_pay6 x0) x1) x = band (k0_pay25 (k0_pay6 x0) x1) (rH0_5.emb x)
    exact band_piece (k0_pay25 (k0_pay6 x0) x1) 5 320 rfl Facts₀.slices_S512x1024_o0_320_S512x64 Facts₀.shapeCasts_S512x64_S1x1x512x64 _ x
  · intro x
    show k0_pay31 (k0_pay25 (k0_pay6 x0) x1) x = band (k0_pay25 (k0_pay6 x0) x1) (rH0_4.emb x)
    exact band_piece (k0_pay25 (k0_pay6 x0) x1) 4 256 rfl Facts₀.slices_S512x1024_o0_256_S512x64 Facts₀.shapeCasts_S512x64_S1x1x512x64 _ x
  · intro x
    show k0_pay30 (k0_pay25 (k0_pay6 x0) x1) x = band (k0_pay25 (k0_pay6 x0) x1) (rH0_3.emb x)
    exact band_piece (k0_pay25 (k0_pay6 x0) x1) 3 192 rfl Facts₀.slices_S512x1024_o0_192_S512x64 Facts₀.shapeCasts_S512x64_S1x1x512x64 _ x
  · intro x
    show k0_pay29 (k0_pay25 (k0_pay6 x0) x1) x = band (k0_pay25 (k0_pay6 x0) x1) (rH0_2.emb x)
    exact band_piece (k0_pay25 (k0_pay6 x0) x1) 2 128 rfl Facts₀.slices_S512x1024_o0_128_S512x64 Facts₀.shapeCasts_S512x64_S1x1x512x64 _ x
  · intro x
    show k0_pay28 (k0_pay27 (k0_pay6 x0) x1) x = band (k0_pay25 (k0_pay6 x0) x1) (rH0_1.emb x)
    exact band_piece (k0_pay25 (k0_pay6 x0) x1) 1 64 rfl Facts₀.slices_S512x1024_o0_64_S512x64 Facts₀.shapeCasts_S512x64_S1x1x512x64 _ x
  · intro x
    show k0_pay26 (k0_pay6 x0) x1 x = band (k0_pay25 (k0_pay6 x0) x1) (rH0_0.emb x)
    exact band_piece (k0_pay25 (k0_pay6 x0) x1) 0 0 rfl Facts₀.slices_S512x1024_o0_0_S512x64 Facts₀.shapeCasts_S512x64_S1x1x512x64 _ x

theorem out0_6_eq (x0 : Vec Ideal S1x512x1024 .f32) (x1 : Vec Ideal S1024x1024 .bf16) :
    out0_6 (F := Ideal) x0 x1 = band (k0_pay25 (k0_pay6 x0) x1) := by
  have e0 : View.ld x0 rX0 = x0 := View.ld_unit_zero (S := S1x512x1024) hz3 _ x0
  have e1 : View.ld x1 rW0 = x1 := View.ld_unit_zero (S := S1024x1024) hz2 _ x1
  funext y
  unfold out0_6
  rw [e0, e1]
  rw [← pay44_eq]
  refine View.canon_apply_of_pieces (band (k0_pay44 (k0_pay6 x0) x1)) _ ?_ y
    (View.cover_of_tiledL (s := S1x16x512x64) _ S1x1x512x64.size (by sl_kernel_rfl) y)
  intro p hp
  simp only [List.mem_cons, List.not_mem_nil, or_false] at hp
  rcases hp with rfl | rfl | rfl | rfl | rfl | rfl | rfl | rfl | rfl | rfl | rfl | rfl | rfl | rfl | rfl | rfl
  · intro x
    show k0_pay5 (k0_pay44 (k0_pay6 x0) x1) x = band (k0_pay44 (k0_pay6 x0) x1) (rH0_15.emb x)
    exact band_piece (k0_pay44 (k0_pay6 x0) x1) 15 960 rfl Facts₀.slices_S512x1024_o0_960_S512x64 Facts₀.shapeCasts_S512x64_S1x1x512x64 _ x
  · intro x
    show k0_pay4 (k0_pay44 (k0_pay6 x0) x1) x = band (k0_pay44 (k0_pay6 x0) x1) (rH0_14.emb x)
    exact band_piece (k0_pay44 (k0_pay6 x0) x1) 14 896 rfl Facts₀.slices_S512x1024_o0_896_S512x64 Facts₀.shapeCasts_S512x64_S1x1x512x64 _ x
  · intro x
    show k0_pay3 (k0_pay44 (k0_pay6 x0) x1) x = band (k0_pay44 (k0_pay6 x0) x1) (rH0_13.emb x)
    exact band_piece (k0_pay44 (k0_pay6 x0) x1) 13 832 rfl Facts₀.slices_S512x1024_o0_832_S512x64 Facts₀.shapeCasts_S512x64_S1x1x512x64 _ x
  · intro x
    show k0_pay2 (k0_pay44 (k0_pay6 x0) x1) x = band (k0_pay44 (k0_pay6 x0) x1) (rH0_12.emb x)
    exact band_piece (k0_pay44 (k0_pay6 x0) x1) 12 768 rfl Facts₀.slices_S512x1024_o0_768_S512x64 Facts₀.shapeCasts_S512x64_S1x1x512x64 _ x
  · intro x
    show k0_pay1 (k0_pay57 (k0_pay44 (k0_pay6 x0) x1)) x = band (k0_pay44 (k0_pay6 x0) x1) (rH0_11.emb x)
    exact band_piece (k0_pay44 (k0_pay6 x0) x1) 11 704 rfl Facts₀.slices_S512x1024_o0_704_S512x64 Facts₀.shapeCasts_S512x64_S1x1x512x64 _ x
  · intro x
    show k0_pay56 (k0_pay44 (k0_pay6 x0) x1) x = band (k0_pay44 (k0_pay6 x0) x1) (rH0_10.emb x)
    exact band_piece (k0_pay44 (k0_pay6 x0) x1) 10 640 rfl Facts₀.slices_S512x1024_o0_640_S512x64 Facts₀.shapeCasts_S512x64_S1x1x512x64 _ x
  · intro x
    show k0_pay55 (k0_pay44 (k0_pay6 x0) x1) x = band (k0_pay44 (k0_pay6 x0) x1) (rH0_9.emb x)
    exact band_piece (k0_pay44 (k0_pay6 x0) x1) 9 576 rfl Facts₀.slices_S512x1024_o0_576_S512x64 Facts₀.shapeCasts_S512x64_S1x1x512x64 _ x
  · intro x
    show k0_pay54 (k0_pay44 (k0_pay6 x0) x1) x = band (k0_pay44 (k0_pay6 x0) x1) (rH0_8.emb x)
    exact band_piece (k0_pay44 (k0_pay6 x0) x1) 8 512 rfl Facts₀.slices_S512x1024_o0_512_S512x64 Facts₀.shapeCasts_S512x64_S1x1x512x64 _ x
  · intro x
    show k0_pay53 (k0_pay44 (k0_pay6 x0) x1) x = band (k0_pay44 (k0_pay6 x0) x1) (rH0_7.emb x)
    exact band_piece (k0_pay44 (k0_pay6 x0) x1) 7 448 rfl Facts₀.slices_S512x1024_o0_448_S512x64 Facts₀.shapeCasts_S512x64_S1x1x512x64 _ x
  · intro x
    show k0_pay52 (k0_pay44 (k0_pay6 x0) x1) x = band (k0_pay44 (k0_pay6 x0) x1) (rH0_6.emb x)
    exact band_piece (k0_pay44 (k0_pay6 x0) x1) 6 384 rfl Facts₀.slices_S512x1024_o0_384_S512x64 Facts₀.shapeCasts_S512x64_S1x1x512x64 _ x
  · intro x
    show k0_pay51 (k0_pay44 (k0_pay6 x0) x1) x = band (k0_pay44 (k0_pay6 x0) x1) (rH0_5.emb x)
    exact band_piece (k0_pay44 (k0_pay6 x0) x1) 5 320 rfl Facts₀.slices_S512x1024_o0_320_S512x64 Facts₀.shapeCasts_S512x64_S1x1x512x64 _ x
  · intro x
    show k0_pay50 (k0_pay49 (k0_pay6 x0) x1) x = band (k0_pay44 (k0_pay6 x0) x1) (rH0_4.emb x)
    exact band_piece (k0_pay44 (k0_pay6 x0) x1) 4 256 rfl Facts₀.slices_S512x1024_o0_256_S512x64 Facts₀.shapeCasts_S512x64_S1x1x512x64 _ x
  · intro x
    show k0_pay48 (k0_pay6 x0) x1 x = band (k0_pay44 (k0_pay6 x0) x1) (rH0_3.emb x)
    exact band_piece (k0_pay44 (k0_pay6 x0) x1) 3 192 rfl Facts₀.slices_S512x1024_o0_192_S512x64 Facts₀.shapeCasts_S512x64_S1x1x512x64 _ x
  · intro x
    show k0_pay47 (k0_pay6 x0) x1 x = band (k0_pay44 (k0_pay6 x0) x1) (rH0_2.emb x)
    exact band_piece (k0_pay44 (k0_pay6 x0) x1) 2 128 rfl Facts₀.slices_S512x1024_o0_128_S512x64 Facts₀.shapeCasts_S512x64_S1x1x512x64 _ x
  · intro x
    show k0_pay46 (k0_pay6 x0) x1 x = band (k0_pay44 (k0_pay6 x0) x1) (rH0_1.emb x)
    exact band_piece (k0_pay44 (k0_pay6 x0) x1) 1 64 rfl Facts₀.slices_S512x1024_o0_64_S512x64 Facts₀.shapeCasts_S512x64_S1x1x512x64 _ x
  · intro x
    show k0_pay45 (k0_pay6 x0) x1 x = band (k0_pay44 (k0_pay6 x0) x1) (rH0_0.emb x)
    exact band_piece (k0_pay44 (k0_pay6 x0) x1) 0 0 rfl Facts₀.slices_S512x1024_o0_0_S512x64 Facts₀.shapeCasts_S512x64_S1x1x512x64 _ x

/-! ## Window 4: from a point's block to the array -/

/-- The printed index maps, decided over the grid: the row block of `x` moves with the output block on the batch and row
    axes, the weight matrix stays whole, and the output's head and channel block indices stay zero. -/
theorem idx_facts4 : ∀ t : Fin cfg0.N,
    win0_0.index t (0 : Fin 3) = win0_4.index t (0 : Fin 4)
    ∧ win0_0.index t (1 : Fin 3) = win0_4.index t (2 : Fin 4)
    ∧ win0_0.index t (2 : Fin 3) = 0
    ∧ win0_1.index t (0 : Fin 2) = 0 ∧ win0_1.index t (1 : Fin 2) = 0
    ∧ win0_4.index t (1 : Fin 4) = 0 ∧ win0_4.index t (3 : Fin 4) = 0
    ∧ win0_4.index t (0 : Fin 4) ≤ 1 ∧ win0_4.index t (2 : Fin 4) ≤ 3 :=
  (by decide +kernel : ∀ t : Fin grid0.N, _)

/-- Every block (b, 0, s, 0) of the output array is some point's. -/
theorem idx_onto4 : ∀ (q0 : Fin 2) (q2 : Fin 4), ∃ t : Fin cfg0.N, win0_4.index t = ![q0.val, 0, q2.val, 0] :=
  (by decide +kernel : ∀ (q0 : Fin 2) (q2 : Fin 4), ∃ t : Fin grid0.N, win0_4.index t = ![q0.val, 0, q2.val, 0])

/-- Entry (0, h, r, d) of the block point `t` leaves is the specification's projection at the array index under it. -/
theorem blk4_apply (c : Dev nD) (t : Fin cfg0.N) (y : S1x16x512x64.Idx) :
    out0_4 (F := Ideal) (iblk0 V c 0 t) (iblk0 V c 1 t) y
      = Cert.Spec.proj (V c main_arg0) (V c main_v0) (((cfg0.win 4).blk t).view.emb y) := by
  obtain ⟨e0, e1, e2, e3, e4, e5, e6, e7, e8⟩ := idx_facts4 t
  have y0 : (y 0).val < 1 := (y 0).isLt
  have y1 : (y 1).val < 16 := (y 1).isLt
  have y2 : (y 2).val < 512 := (y 2).isLt
  have y3 : (y 3).val < 64 := (y 3).isLt
  rw [out0_4_eq]
  unfold band bandIdx
  rw [prod_apply]
  unfold Cert.Spec.proj Cert.Spec.projAt
  refine Finset.sum_congr rfl fun k _ => ?_
  rw [rows_apply]
  have hX : iblk0 V c 0 t (ix3 0 ⟨(y 2).val, y2⟩ k)
      = V c main_arg0 (ix3 ((((cfg0.win 4).blk t).view.emb y) 0) ((((cfg0.win 4).blk t).view.emb y) 2) k) := by
    show V c main_arg0 (((cfg0.win 0).blk t).view.emb (ix3 0 ⟨(y 2).val, y2⟩ k)) = _
    refine congrArg (V c main_arg0) (funext fun a => Fin.ext ?_)
    match a with
    | ⟨0, _⟩ => show win0_0.index t (0 : Fin 3) * 1 + 1 * 0 = win0_4.index t (0 : Fin 4) * 1 + 1 * (y 0).val; omega
    | ⟨1, _⟩ => show win0_0.index t (1 : Fin 3) * 512 + 1 * (y 2).val = win0_4.index t (2 : Fin 4) * 512 + 1 * (y 2).val; omega
    | ⟨2, _⟩ => show win0_0.index t (2 : Fin 3) * 1024 + 1 * k.val = k.val; omega
  have hW : iblk0 V c 1 t (ix2 (⟨(y 1).val * 64 + (y 3).val, by omega⟩ : Fin 1024) k)
      = V c main_v0 (ix2 (⟨((((cfg0.win 4).blk t).view.emb y) 1).val * 64 + ((((cfg0.win 4).blk t).view.emb y) 3).val, by
          show (win0_4.index t (1 : Fin 4) * 16 + 1 * (y 1).val) * 64 + (win0_4.index t (3 : Fin 4) * 64 + 1 * (y 3).val) < 1024
          omega⟩ : Fin 1024) k) := by
    show V c main_v0 (((cfg0.win 1).blk t).view.emb (ix2 (⟨(y 1).val * 64 + (y 3).val, by omega⟩ : Fin 1024) k)) = _
    refine congrArg (V c main_v0) (funext fun a => Fin.ext ?_)
    match a with
    | ⟨0, _⟩ => show win0_1.index t (0 : Fin 2) * 1024 + 1 * ((y 1).val * 64 + (y 3).val) = (win0_4.index t (1 : Fin 4) * 16 + 1 * (y 1).val) * 64 + (win0_4.index t (3 : Fin 4) * 64 + 1 * (y 3).val); omega
    | ⟨1, _⟩ => show win0_1.index t (1 : Fin 2) * 1024 + 1 * k.val = k.val; omega
  rw [hX, hW]

/-- What point `t` writes back is its block of the specification's projection. -/
theorem flushed4_eq (c : Dev nD) (t : Fin cfg0.N) :
    (dat0 (F := Ideal) V c).flushed 4 t
      = ((cfg0.win 4).blk t).view.read (Elt Ideal) (Cert.Spec.proj (V c main_arg0) (V c main_v0)) := by
  show (cfg0.win 4).cut (grid0.coords t) ((dat0 (F := Ideal) V c).after 4 t) = _
  rw [after0_4]
  funext y
  exact blk4_apply V c t y

/-- An index of the array is in point `t`'s block iff each coordinate is in the block's range on its axis. -/
theorem mem_blk4 (t : Fin cfg0.N) (i : S2x16x2048x64.Idx) :
    i ∈ ((cfg0.win 4).blk t).view.set ↔ ∀ a : Fin 4, win0_4.index t a * S1x16x512x64.size a ≤ (i a).val ∧ (i a).val < win0_4.index t a * S1x16x512x64.size a + S1x16x512x64.size a := by
  show i ∈ ((View.whole (Pipeline.arrRef spec0 4)).slice (win0_4.rect t)).set ↔ _
  rw [View.set_slice_whole, Rect.mem_set_unit]
  exact Iff.rfl

/-- The eight blocks tile the array: every index is in the block of the point at its batch and its row block. -/
theorem cover4 (i : S2x16x2048x64.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto4 ⟨(i 0).val, hi0⟩ ⟨(i 2).val / 512, by omega⟩
  have q0 : win0_4.index t (0 : Fin 4) = (i 0).val := congrFun ht 0
  have q1 : win0_4.index t (1 : Fin 4) = 0 := congrFun ht 1
  have q2 : win0_4.index t (2 : Fin 4) = (i 2).val / 512 := congrFun ht 2
  have q3 : win0_4.index t (3 : Fin 4) = 0 := congrFun ht 3
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

theorem arr0_4 (c : Dev nD) : (dat0 (F := Ideal) V c).arrAt 4 cfg0.N = Cert.Spec.proj (V c main_arg0) (V c main_v0) := by
  exact (dat0 (F := Ideal) V c).arrAt_eq_of_cover 4 (Cert.Spec.proj (V c main_arg0) (V c main_v0)) (fun t _ => flushed4_eq V c t) cover4

/-! ## Window 5: from a point's block to the array -/

/-- The printed index maps, decided over the grid: the row block of `x` moves with the output block on the batch and row
    axes, the weight matrix stays whole, and the output's head and channel block indices stay zero. -/
theorem idx_facts5 : ∀ t : Fin cfg0.N,
    win0_0.index t (0 : Fin 3) = win0_5.index t (0 : Fin 4)
    ∧ win0_0.index t (1 : Fin 3) = win0_5.index t (2 : Fin 4)
    ∧ win0_0.index t (2 : Fin 3) = 0
    ∧ win0_2.index t (0 : Fin 2) = 0 ∧ win0_2.index t (1 : Fin 2) = 0
    ∧ win0_5.index t (1 : Fin 4) = 0 ∧ win0_5.index t (3 : Fin 4) = 0
    ∧ win0_5.index t (0 : Fin 4) ≤ 1 ∧ win0_5.index t (2 : Fin 4) ≤ 3 :=
  (by decide +kernel : ∀ t : Fin grid0.N, _)

/-- Every block (b, 0, s, 0) of the output array is some point's. -/
theorem idx_onto5 : ∀ (q0 : Fin 2) (q2 : Fin 4), ∃ t : Fin cfg0.N, win0_5.index t = ![q0.val, 0, q2.val, 0] :=
  (by decide +kernel : ∀ (q0 : Fin 2) (q2 : Fin 4), ∃ t : Fin grid0.N, win0_5.index t = ![q0.val, 0, q2.val, 0])

/-- Entry (0, h, r, d) of the block point `t` leaves is the specification's projection at the array index under it. -/
theorem blk5_apply (c : Dev nD) (t : Fin cfg0.N) (y : S1x16x512x64.Idx) :
    out0_5 (F := Ideal) (iblk0 V c 0 t) (iblk0 V c 2 t) y
      = Cert.Spec.proj (V c main_arg0) (V c main_v1) (((cfg0.win 5).blk t).view.emb y) := by
  obtain ⟨e0, e1, e2, e3, e4, e5, e6, e7, e8⟩ := idx_facts5 t
  have y0 : (y 0).val < 1 := (y 0).isLt
  have y1 : (y 1).val < 16 := (y 1).isLt
  have y2 : (y 2).val < 512 := (y 2).isLt
  have y3 : (y 3).val < 64 := (y 3).isLt
  rw [out0_5_eq]
  unfold band bandIdx
  rw [prod_apply]
  unfold Cert.Spec.proj Cert.Spec.projAt
  refine Finset.sum_congr rfl fun k _ => ?_
  rw [rows_apply]
  have hX : iblk0 V c 0 t (ix3 0 ⟨(y 2).val, y2⟩ k)
      = V c main_arg0 (ix3 ((((cfg0.win 5).blk t).view.emb y) 0) ((((cfg0.win 5).blk t).view.emb y) 2) k) := by
    show V c main_arg0 (((cfg0.win 0).blk t).view.emb (ix3 0 ⟨(y 2).val, y2⟩ k)) = _
    refine congrArg (V c main_arg0) (funext fun a => Fin.ext ?_)
    match a with
    | ⟨0, _⟩ => show win0_0.index t (0 : Fin 3) * 1 + 1 * 0 = win0_5.index t (0 : Fin 4) * 1 + 1 * (y 0).val; omega
    | ⟨1, _⟩ => show win0_0.index t (1 : Fin 3) * 512 + 1 * (y 2).val = win0_5.index t (2 : Fin 4) * 512 + 1 * (y 2).val; omega
    | ⟨2, _⟩ => show win0_0.index t (2 : Fin 3) * 1024 + 1 * k.val = k.val; omega
  have hW : iblk0 V c 2 t (ix2 (⟨(y 1).val * 64 + (y 3).val, by omega⟩ : Fin 1024) k)
      = V c main_v1 (ix2 (⟨((((cfg0.win 5).blk t).view.emb y) 1).val * 64 + ((((cfg0.win 5).blk t).view.emb y) 3).val, by
          show (win0_5.index t (1 : Fin 4) * 16 + 1 * (y 1).val) * 64 + (win0_5.index t (3 : Fin 4) * 64 + 1 * (y 3).val) < 1024
          omega⟩ : Fin 1024) k) := by
    show V c main_v1 (((cfg0.win 2).blk t).view.emb (ix2 (⟨(y 1).val * 64 + (y 3).val, by omega⟩ : Fin 1024) k)) = _
    refine congrArg (V c main_v1) (funext fun a => Fin.ext ?_)
    match a with
    | ⟨0, _⟩ => show win0_2.index t (0 : Fin 2) * 1024 + 1 * ((y 1).val * 64 + (y 3).val) = (win0_5.index t (1 : Fin 4) * 16 + 1 * (y 1).val) * 64 + (win0_5.index t (3 : Fin 4) * 64 + 1 * (y 3).val); omega
    | ⟨1, _⟩ => show win0_2.index t (1 : Fin 2) * 1024 + 1 * k.val = k.val; omega
  rw [hX, hW]

/-- What point `t` writes back is its block of the specification's projection. -/
theorem flushed5_eq (c : Dev nD) (t : Fin cfg0.N) :
    (dat0 (F := Ideal) V c).flushed 5 t
      = ((cfg0.win 5).blk t).view.read (Elt Ideal) (Cert.Spec.proj (V c main_arg0) (V c main_v1)) := by
  show (cfg0.win 5).cut (grid0.coords t) ((dat0 (F := Ideal) V c).after 5 t) = _
  rw [after0_5]
  funext y
  exact blk5_apply V c t y

/-- An index of the array is in point `t`'s block iff each coordinate is in the block's range on its axis. -/
theorem mem_blk5 (t : Fin cfg0.N) (i : S2x16x2048x64.Idx) :
    i ∈ ((cfg0.win 5).blk t).view.set ↔ ∀ a : Fin 4, win0_5.index t a * S1x16x512x64.size a ≤ (i a).val ∧ (i a).val < win0_5.index t a * S1x16x512x64.size a + S1x16x512x64.size a := by
  show i ∈ ((View.whole (Pipeline.arrRef spec0 5)).slice (win0_5.rect t)).set ↔ _
  rw [View.set_slice_whole, Rect.mem_set_unit]
  exact Iff.rfl

/-- The eight blocks tile the array: every index is in the block of the point at its batch and its row block. -/
theorem cover5 (i : S2x16x2048x64.Idx) :
    ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto5 ⟨(i 0).val, hi0⟩ ⟨(i 2).val / 512, by omega⟩
  have q0 : win0_5.index t (0 : Fin 4) = (i 0).val := congrFun ht 0
  have q1 : win0_5.index t (1 : Fin 4) = 0 := congrFun ht 1
  have q2 : win0_5.index t (2 : Fin 4) = (i 2).val / 512 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 16 ≤ (i 1).val ∧ (i 1).val < win0_5.index t (1 : Fin 4) * 16 + 16; omega
  | ⟨2, _⟩ => show win0_5.index t (2 : Fin 4) * 512 ≤ (i 2).val ∧ (i 2).val < win0_5.index t (2 : Fin 4) * 512 + 512; omega
  | ⟨3, _⟩ => show win0_5.index t (3 : Fin 4) * 64 ≤ (i 3).val ∧ (i 3).val < win0_5.index t (3 : Fin 4) * 64 + 64; omega

theorem arr0_5 (c : Dev nD) : (dat0 (F := Ideal) V c).arrAt 5 cfg0.N = Cert.Spec.proj (V c main_arg0) (V c main_v1) := by
  exact (dat0 (F := Ideal) V c).arrAt_eq_of_cover 5 (Cert.Spec.proj (V c main_arg0) (V c main_v1)) (fun t _ => flushed5_eq V c t) cover5

/-! ## Window 6: from a point's block to the array -/

/-- The printed index maps, decided over the grid: the row block of `x` moves with the output block on the batch and row
    axes, the weight matrix stays whole, and the output's head and channel block indices stay zero. -/
theorem idx_facts6 : ∀ t : Fin cfg0.N,
    win0_0.index t (0 : Fin 3) = win0_6.index t (0 : Fin 4)
    ∧ win0_0.index t (1 : Fin 3) = win0_6.index t (2 : Fin 4)
    ∧ win0_0.index t (2 : Fin 3) = 0
    ∧ win0_3.index t (0 : Fin 2) = 0 ∧ win0_3.index t (1 : Fin 2) = 0
    ∧ win0_6.index t (1 : Fin 4) = 0 ∧ win0_6.index t (3 : Fin 4) = 0
    ∧ win0_6.index t (0 : Fin 4) ≤ 1 ∧ win0_6.index t (2 : Fin 4) ≤ 3 :=
  (by decide +kernel : ∀ t : Fin grid0.N, _)

/-- Every block (b, 0, s, 0) of the output array is some point's. -/
theorem idx_onto6 : ∀ (q0 : Fin 2) (q2 : Fin 4), ∃ t : Fin cfg0.N, win0_6.index t = ![q0.val, 0, q2.val, 0] :=
  (by decide +kernel : ∀ (q0 : Fin 2) (q2 : Fin 4), ∃ t : Fin grid0.N, win0_6.index t = ![q0.val, 0, q2.val, 0])

/-- Entry (0, h, r, d) of the block point `t` leaves is the specification's projection at the array index under it. -/
theorem blk6_apply (c : Dev nD) (t : Fin cfg0.N) (y : S1x16x512x64.Idx) :
    out0_6 (F := Ideal) (iblk0 V c 0 t) (iblk0 V c 3 t) y
      = Cert.Spec.proj (V c main_arg0) (V c main_v2) (((cfg0.win 6).blk t).view.emb y) := by
  obtain ⟨e0, e1, e2, e3, e4, e5, e6, e7, e8⟩ := idx_facts6 t
  have y0 : (y 0).val < 1 := (y 0).isLt
  have y1 : (y 1).val < 16 := (y 1).isLt
  have y2 : (y 2).val < 512 := (y 2).isLt
  have y3 : (y 3).val < 64 := (y 3).isLt
  rw [out0_6_eq]
  unfold band bandIdx
  rw [prod_apply]
  unfold Cert.Spec.proj Cert.Spec.projAt
  refine Finset.sum_congr rfl fun k _ => ?_
  rw [rows_apply]
  have hX : iblk0 V c 0 t (ix3 0 ⟨(y 2).val, y2⟩ k)
      = V c main_arg0 (ix3 ((((cfg0.win 6).blk t).view.emb y) 0) ((((cfg0.win 6).blk t).view.emb y) 2) k) := by
    show V c main_arg0 (((cfg0.win 0).blk t).view.emb (ix3 0 ⟨(y 2).val, y2⟩ k)) = _
    refine congrArg (V c main_arg0) (funext fun a => Fin.ext ?_)
    match a with
    | ⟨0, _⟩ => show win0_0.index t (0 : Fin 3) * 1 + 1 * 0 = win0_6.index t (0 : Fin 4) * 1 + 1 * (y 0).val; omega
    | ⟨1, _⟩ => show win0_0.index t (1 : Fin 3) * 512 + 1 * (y 2).val = win0_6.index t (2 : Fin 4) * 512 + 1 * (y 2).val; omega
    | ⟨2, _⟩ => show win0_0.index t (2 : Fin 3) * 1024 + 1 * k.val = k.val; omega
  have hW : iblk0 V c 3 t (ix2 (⟨(y 1).val * 64 + (y 3).val, by omega⟩ : Fin 1024) k)
      = V c main_v2 (ix2 (⟨((((cfg0.win 6).blk t).view.emb y) 1).val * 64 + ((((cfg0.win 6).blk t).view.emb y) 3).val, by
          show (win0_6.index t (1 : Fin 4) * 16 + 1 * (y 1).val) * 64 + (win0_6.index t (3 : Fin 4) * 64 + 1 * (y 3).val) < 1024
          omega⟩ : Fin 1024) k) := by
    show V c main_v2 (((cfg0.win 3).blk t).view.emb (ix2 (⟨(y 1).val * 64 + (y 3).val, by omega⟩ : Fin 1024) k)) = _
    refine congrArg (V c main_v2) (funext fun a => Fin.ext ?_)
    match a with
    | ⟨0, _⟩ => show win0_3.index t (0 : Fin 2) * 1024 + 1 * ((y 1).val * 64 + (y 3).val) = (win0_6.index t (1 : Fin 4) * 16 + 1 * (y 1).val) * 64 + (win0_6.index t (3 : Fin 4) * 64 + 1 * (y 3).val); omega
    | ⟨1, _⟩ => show win0_3.index t (1 : Fin 2) * 1024 + 1 * k.val = k.val; omega
  rw [hX, hW]

/-- What point `t` writes back is its block of the specification's projection. -/
theorem flushed6_eq (c : Dev nD) (t : Fin cfg0.N) :
    (dat0 (F := Ideal) V c).flushed 6 t
      = ((cfg0.win 6).blk t).view.read (Elt Ideal) (Cert.Spec.proj (V c main_arg0) (V c main_v2)) := by
  show (cfg0.win 6).cut (grid0.coords t) ((dat0 (F := Ideal) V c).after 6 t) = _
  rw [after0_6]
  funext y
  exact blk6_apply V c t y

/-- An index of the array is in point `t`'s block iff each coordinate is in the block's range on its axis. -/
theorem mem_blk6 (t : Fin cfg0.N) (i : S2x16x2048x64.Idx) :
    i ∈ ((cfg0.win 6).blk t).view.set ↔ ∀ a : Fin 4, win0_6.index t a * S1x16x512x64.size a ≤ (i a).val ∧ (i a).val < win0_6.index t a * S1x16x512x64.size a + S1x16x512x64.size a := by
  show i ∈ ((View.whole (Pipeline.arrRef spec0 6)).slice (win0_6.rect t)).set ↔ _
  rw [View.set_slice_whole, Rect.mem_set_unit]
  exact Iff.rfl

/-- The eight blocks tile the array: every index is in the block of the point at its batch and its row block. -/
theorem cover6 (i : S2x16x2048x64.Idx) :
    ∃ t : Fin cfg0.N, (cfg0.win 6).flush t = true ∧ i ∈ ((cfg0.win 6).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto6 ⟨(i 0).val, hi0⟩ ⟨(i 2).val / 512, by omega⟩
  have q0 : win0_6.index t (0 : Fin 4) = (i 0).val := congrFun ht 0
  have q1 : win0_6.index t (1 : Fin 4) = 0 := congrFun ht 1
  have q2 : win0_6.index t (2 : Fin 4) = (i 2).val / 512 := congrFun ht 2
  have q3 : win0_6.index t (3 : Fin 4) = 0 := congrFun ht 3
  refine ⟨t, flush0_6 t, ?_⟩
  rw [mem_blk6]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 16 ≤ (i 1).val ∧ (i 1).val < win0_6.index t (1 : Fin 4) * 16 + 16; omega
  | ⟨2, _⟩ => show win0_6.index t (2 : Fin 4) * 512 ≤ (i 2).val ∧ (i 2).val < win0_6.index t (2 : Fin 4) * 512 + 512; omega
  | ⟨3, _⟩ => show win0_6.index t (3 : Fin 4) * 64 ≤ (i 3).val ∧ (i 3).val < win0_6.index t (3 : Fin 4) * 64 + 64; omega

theorem arr0_6 (c : Dev nD) : (dat0 (F := Ideal) V c).arrAt 6 cfg0.N = Cert.Spec.proj (V c main_arg0) (V c main_v2) := by
  exact (dat0 (F := Ideal) V c).arrAt_eq_of_cover 6 (Cert.Spec.proj (V c main_arg0) (V c main_v2)) (fun t _ => flushed6_eq V c t) cover6

end Cert.KernelIdeal.Hand

end
-- ==== Proof.Val1Pay.lean ====
import proofs.«412418_j10084583211544_3_alg».proof.Proof.R1Defs
import proofs.«412418_j10084583211544_3_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Idealize.ShloMosaic.ValueIdx

/-! # The attention kernel's arithmetic read at an index, over the extended reals

Row `r` of a tile pair (query tile `qt`, key tile `kv`): the masked scaled scores of the row against the key tile's 1024
positions, and the running state's three entries after one update, in the online form's terms. -/

/-- The masked scaled scores of query row `r` of tile `qt` against the 1024 keys of tile `kv`, off the two loaded blocks. -/
def tscore (xq xk : Vec Ideal S1x1x1024x64 .bf16) (qt kv : Fin 2) (r : Fin 1024) : Fin 1024 → EReal := fun j =>
  if 1024 * kv.val + j.val ≤ 1024 * qt.val + r.val then
    (∑ d : Fin 64, xq (ix4 0 0 r d) * xk (ix4 0 0 j d)) * ((1 / 8 : ℝ) : EReal)
  else ⊥

/-! ## The pieces: constants, layout reads, the two products, the mask, the row maximum and the row sum

Every lemma below reads one operation of the kernel at explicit coordinates: (r, j) of a [1024, 1024] tile, (r, d) of a
[1024, 64] block, (r, 0) of a [1024, 1] column, (0, 0, r, d) of a loaded [1, 1, 1024, 64] block. -/

namespace V1P

/-! ## The constants -/

theorem ofBits_ninf : Ideal.ofBits .f32 0xFF800000#32 = (⊥ : EReal) := by simp [Ideal.ofBits, Ideal.ieee]
theorem ofBits_eighth : Ideal.ofBits .f32 0x3E000000#32 = ((1 / 8 : ℝ) : EReal) := by
  simp [Ideal.ofBits, Ideal.ieee, -EReal.coe_mul]; norm_num
theorem neg_big_bot : Named.named (F := Ideal) κ "neg_big" (φ := .f32) 0xFF333332#32 = (⊥ : EReal) :=
  IdealRules.named_const.ideal_named_scalar _ _ _ _ rfl

theorem cast_q {α : Type} (xq : S1x1x1024x64.Idx → α) (r : Fin 1024) (d : Fin 64) :
    shapeCast S1024x64 xq shapeCasts_S1x1x1024x64_S1024x64 (ix2 r d) = xq (ix4 0 0 r d) :=
  shapeCast_apply xq shapeCasts_S1x1x1024x64_S1024x64 _ _ (by
    rw [Shape.rowMajor_val_four, Shape.rowMajor_val_two]
    show ((0 * 1 + 0) * 1024 + r.val) * 64 + d.val = r.val * 64 + d.val
    omega)

theorem lhs_qk_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem lhs_qk_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
theorem rhs_qk_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
theorem rhs_qk_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The product of a [1024, 64] matrix with a [64, 1024] one into a zero accumulator, at (r, j): the sum over the 64 shared
    coordinates. -/
theorem qk_matmul_apply (a : FVec Ideal S1024x64 .bf16) (b : FVec Ideal S64x1024 .bf16) (r j : Fin 1024) :
    matmul dot_S1024x64_S64x1024_S1024x1024_1_0_0_1_n_n none a b (constant (F := Ideal) S1024x1024 .f32 0x00000000#32) (ix2 r j)
      = ∑ d : Fin 64, a (ix2 r d) * b (ix2 d j) := by
  simp only [matmul]
  rw [Ideal.matmul_constant_zero_apply, ← Equiv.sum_comp (ValueIdx.contrEquiv1 dot_S1024x64_S64x1024_S1024x1024_1_0_0_1_n_n 64 rfl rfl).symm]
  refine Finset.sum_congr rfl fun k _ => ?_
  have hk := ValueIdx.contrEquiv1_symm_val dot_S1024x64_S64x1024_S1024x1024_1_0_0_1_n_n 64 rfl rfl k
  have el : dot_S1024x64_S64x1024_S1024x1024_1_0_0_1_n_n.lhsIdx (ix2 r j) ((ValueIdx.contrEquiv1 dot_S1024x64_S64x1024_S1024x1024_1_0_0_1_n_n 64 rfl rfl).symm k) = ix2 r k := funext fun a => Fin.ext (by
    match a with
    | ⟨0, _⟩ => exact lhs_qk_0 _ _
    | ⟨1, _⟩ => exact (lhs_qk_1 _ _).trans hk)
  have er : dot_S1024x64_S64x1024_S1024x1024_1_0_0_1_n_n.rhsIdx (ix2 r j) ((ValueIdx.contrEquiv1 dot_S1024x64_S64x1024_S1024x1024_1_0_0_1_n_n 64 rfl rfl).symm k) = ix2 k j := funext fun a => Fin.ext (by
    match a with
    | ⟨0, _⟩ => exact (rhs_qk_0 _ _).trans hk
    | ⟨1, _⟩ => exact rhs_qk_1 _ _)
  rw [el, er]

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem word_val (t : Fin 2) (r : Fin 1024) :
    (BitVec.ofNat 32 r.val + BitVec.ofNat 32 t.val * 1024#32).toNat = 1024 * t.val + r.val := by
  have ht := t.isLt; have hr := r.isLt
  simp only [BitVec.toNat_add, BitVec.toNat_mul, BitVec.toNat_ofNat]
  omega

theorem mask_iff (qt kv : Fin 2) (r j : Fin 1024) :
    cmpi .sge
      (broadcastTo S1024x1024 (addi (iota .tc S1024x1 32 [0] iota_S1024x1_d0_w32) (broadcast S1024x1 (Scalar.muli (BitVec.ofNat 32 qt.val) 1024#32))) broadcasts_S1024x1_S1024x1024)
      (broadcastTo S1024x1024 (addi (iota .tc S1x1024 32 [1] iota_S1x1024_d1_w32) (broadcast S1x1024 (Scalar.muli (BitVec.ofNat 32 kv.val) 1024#32))) broadcasts_S1x1024_S1024x1024)
      (ix2 r j) = 1#1 ↔ 1024 * kv.val + j.val ≤ 1024 * qt.val + r.val := by
  have e1 : broadcastTo S1024x1024 (addi (iota .tc S1024x1 32 [0] iota_S1024x1_d0_w32) (broadcast S1024x1 (Scalar.muli (BitVec.ofNat 32 qt.val) 1024#32))) broadcasts_S1024x1_S1024x1024 (ix2 r j)
      = BitVec.ofNat 32 r.val + BitVec.ofNat 32 qt.val * 1024#32 := by
    refine (broadcastTo_a1_ab_apply _ broadcasts_S1024x1_S1024x1024 r j).trans ?_
    show iota .tc S1024x1 32 [0] iota_S1024x1_d0_w32 (ix2 r 0) + _ = _
    rw [iota_single_apply]; rfl
  have e2 : broadcastTo S1024x1024 (addi (iota .tc S1x1024 32 [1] iota_S1x1024_d1_w32) (broadcast S1x1024 (Scalar.muli (BitVec.ofNat 32 kv.val) 1024#32))) broadcasts_S1x1024_S1024x1024 (ix2 r j)
      = BitVec.ofNat 32 j.val + BitVec.ofNat 32 kv.val * 1024#32 := by
    refine (broadcastTo_1b_ab_apply _ broadcasts_S1x1024_S1024x1024 r j).trans ?_
    show iota .tc S1x1024 32 [1] iota_S1x1024_d1_w32 (ix2 0 j) + _ = _
    rw [iota_single_apply]; rfl
  show IntOp.cmpi .sge _ _ = 1#1 ↔ _
  rw [e1, e2]
  have hq := qt.isLt; have hk := kv.isLt; have hr := r.isLt; have hj := j.isLt
  rw [Idealize.ShloMosaic.StableHlo.Predicate.sge_iff_toNat (by rw [word_val]; omega) (by rw [word_val]; omega), word_val, word_val]

/-- The masked scaled score tile at (r, j). -/
theorem pay9_apply (qt kv : Fin 2) (xq xk : Vec Ideal S1x1x1024x64 .bf16) (r j : Fin 1024) :
    k1_pay9 (F := Ideal) (BitVec.ofNat 32 qt.val) (BitVec.ofNat 32 kv.val) xq xk (ix2 r j) = tscore xq xk qt kv r j := by
  unfold k1_pay9 tscore
  simp only [select_apply, mulf_apply, broadcast_apply]
  rw [qk_matmul_apply]
  have hs : (∑ d : Fin 64, shapeCast S1024x64 xq shapeCasts_S1x1x1024x64_S1024x64 (ix2 r d)
        * transpose S64x1024 [1, 0] (shapeCast S1024x64 xk shapeCasts_S1x1x1024x64_S1024x64) transposes_S1024x64_p1_0_S64x1024 (ix2 d j))
      = ∑ d : Fin 64, xq (ix4 0 0 r d) * xk (ix4 0 0 j d) :=
    Finset.sum_congr rfl fun d _ => by rw [cast_q, transpose_ix2_apply, cast_q]
  rw [hs]
  by_cases hc : 1024 * kv.val + j.val ≤ 1024 * qt.val + r.val
  · rw [if_pos hc, (mask_iff qt kv r j).mpr hc, select_one]
    exact congrArg _ ofBits_eighth
  · rw [if_neg hc, eq_zero_of_ne_one (fun h => hc ((mask_iff qt kv r j).mp h)), select_zero]
    exact neg_big_bot

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

theorem lift_row (r k : Fin 1024) : reduces_S1024x1024_S1024.lift (ix1 r) k = ix2 r k :=
  funext fun c => Fin.ext (match c with | ⟨0, _⟩ => rfl | ⟨1, _⟩ => rfl)

theorem fold_max_eq_sup (f : Fin 1024 → EReal) : (Finset.univ : Finset (Fin 1024)).fold max ⊥ f = Finset.univ.sup f := rfl

/-- A row maximum kept as a column, at row r. -/
theorem rowmax_apply (T : FVec Ideal S1024x1024 .f32) (hφ : FKind.Formats .f32)
    (hacc : (0xFF800000#32 : BitVec 32) = FKind.maximumf.neutral .f32 hφ) (r : Fin 1024) :
    shapeCast S1024x1 (multiReduction .maximumf [1] S1024 T 0xFF800000#32 reduces_S1024x1024_S1024 hφ hacc) shapeCasts_S1024_S1024x1 (ix2 r 0)
      = Finset.univ.sup (fun j : Fin 1024 => T (ix2 r j)) := by
  refine (shapeCast_a_a1_apply _ shapeCasts_S1024_S1024x1 r 0).trans ?_
  refine (Ideal.multiReduction_maximumf_single T 0xFF800000#32 reduces_S1024x1024_S1024 hφ hacc (ix1 r)).trans ?_
  show (Finset.univ : Finset (Fin 1024)).fold max (Ideal.ofBits .f32 0xFF800000#32) (fun k : Fin 1024 => T (reduces_S1024x1024_S1024.lift (ix1 r) k)) = _
  rw [ofBits_ninf, fold_max_eq_sup]
  simp only [lift_row]

theorem pay10_apply (a2 a3 : BitVec 32) (xq xk : Vec Ideal S1x1x1024x64 .bf16) (m : Vec Ideal S1024x1 .f32) (r : Fin 1024) :
    k1_pay10 (F := Ideal) a2 a3 xq xk m (ix2 r 0)
      = max (m (ix2 r 0)) (Finset.univ.sup fun j : Fin 1024 => k1_pay9 (F := Ideal) a2 a3 xq xk (ix2 r j)) := by
  unfold k1_pay10
  generalize k1_pay9 (F := Ideal) a2 a3 xq xk = T
  exact congrArg (max (m (ix2 r 0))) (rowmax_apply T _ _ r)

theorem pay11_apply (a2 a3 : BitVec 32) (xq xk : Vec Ideal S1x1x1024x64 .bf16) (m m' : Vec Ideal S1024x1 .f32) (r : Fin 1024) :
    k1_pay11 (F := Ideal) a2 a3 xq xk m m' (ix2 r 0)
      = Ideal.exp (m' (ix2 r 0) - k1_pay10 (F := Ideal) a2 a3 xq xk m (ix2 r 0)) := by
  unfold k1_pay11; rfl

theorem pay12_apply (a2 a3 : BitVec 32) (xq xk : Vec Ideal S1x1x1024x64 .bf16) (m : Vec Ideal S1024x1 .f32) (r j : Fin 1024) :
    k1_pay12 (F := Ideal) a2 a3 xq xk m (ix2 r j)
      = Ideal.exp (k1_pay9 (F := Ideal) a2 a3 xq xk (ix2 r j) - k1_pay10 (F := Ideal) a2 a3 xq xk m (ix2 r 0)) := by
  unfold k1_pay12
  show Ideal.exp (k1_pay9 (F := Ideal) a2 a3 xq xk (ix2 r j)
    - broadcastTo S1024x1024 (k1_pay10 (F := Ideal) a2 a3 xq xk m) broadcasts_S1024x1_S1024x1024 (ix2 r j)) = _
  rw [broadcastTo_a1_ab_apply]

theorem pay13_apply (a2 a3 : BitVec 32) (xq xk : Vec Ideal S1x1x1024x64 .bf16) (m m' l : Vec Ideal S1024x1 .f32) (r : Fin 1024) :
    k1_pay13 (F := Ideal) a2 a3 xq xk m m' l (ix2 r 0) = k1_pay11 (F := Ideal) a2 a3 xq xk m m' (ix2 r 0) * l (ix2 r 0) := by
  unfold k1_pay13; rfl

/-- A row sum kept as a column, at row r. -/
theorem rowsum_apply (P : FVec Ideal S1024x1024 .f32) (hφ : FKind.Formats .f32)
    (hacc : (0x00000000#32 : BitVec 32) = FKind.add.neutral .f32 hφ) (r : Fin 1024) :
    shapeCast S1024x1 (multiReduction .add [1] S1024 P 0x00000000#32 reduces_S1024x1024_S1024 hφ hacc) shapeCasts_S1024_S1024x1 (ix2 r 0)
      = ∑ j : Fin 1024, P (ix2 r j) := by
  refine (shapeCast_a_a1_apply _ shapeCasts_S1024_S1024x1 r 0).trans ?_
  refine (Ideal.multiReduction_add_single P 0x00000000#32 reduces_S1024x1024_S1024 hφ hacc (ix1 r)).trans ?_
  show ∑ k : Fin 1024, P (reduces_S1024x1024_S1024.lift (ix1 r) k) = _
  simp only [lift_row]

theorem pay4_apply (P : FVec Ideal S1024x1024 .f32) (c : FVec Ideal S1024x1 .f32) (r : Fin 1024) :
    k1_pay4 (F := Ideal) P c (ix2 r 0) = c (ix2 r 0) + ∑ j : Fin 1024, P (ix2 r j) := by
  unfold k1_pay4
  simp only [shapeCast_self, addf_apply]
  exact congrArg (c (ix2 r 0) + ·) (rowsum_apply P _ _ r)

theorem lhs_pv_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs_pv_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs_pv_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs_pv_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The product of a [1024, 1024] matrix with a [1024, 64] one into a zero accumulator, at (r, d): the sum over the 1024
    shared coordinates. -/
theorem pv_matmul_apply (a : FVec Ideal S1024x1024 .bf16) (b : FVec Ideal S1024x64 .bf16) (r : Fin 1024) (d : Fin 64) :
    matmul dot_S1024x1024_S1024x64_S1024x64_1_0_0_1_n_n none a b (constant (F := Ideal) S1024x64 .f32 0x00000000#32) (ix2 r d)
      = ∑ j : Fin 1024, a (ix2 r j) * b (ix2 j d) := by
  simp only [matmul]
  rw [Ideal.matmul_constant_zero_apply, ← Equiv.sum_comp (ValueIdx.contrEquiv1 dot_S1024x1024_S1024x64_S1024x64_1_0_0_1_n_n 1024 rfl rfl).symm]
  refine Finset.sum_congr rfl fun k _ => ?_
  have hk := ValueIdx.contrEquiv1_symm_val dot_S1024x1024_S1024x64_S1024x64_1_0_0_1_n_n 1024 rfl rfl k
  have el : dot_S1024x1024_S1024x64_S1024x64_1_0_0_1_n_n.lhsIdx (ix2 r d) ((ValueIdx.contrEquiv1 dot_S1024x1024_S1024x64_S1024x64_1_0_0_1_n_n 1024 rfl rfl).symm k) = ix2 r k := funext fun a => Fin.ext (by
    match a with
    | ⟨0, _⟩ => exact lhs_pv_0 _ _
    | ⟨1, _⟩ => exact (lhs_pv_1 _ _).trans hk)
  have er : dot_S1024x1024_S1024x64_S1024x64_1_0_0_1_n_n.rhsIdx (ix2 r d) ((ValueIdx.contrEquiv1 dot_S1024x1024_S1024x64_S1024x64_1_0_0_1_n_n 1024 rfl rfl).symm k) = ix2 k d := funext fun a => Fin.ext (by
    match a with
    | ⟨0, _⟩ => exact (rhs_pv_0 _ _).trans hk
    | ⟨1, _⟩ => exact rhs_pv_1 _ _)
  rw [el, er]

theorem pay5_apply (V : FVec Ideal S1024x64 .bf16) (e : FVec Ideal S1024x1 .f32) (P : FVec Ideal S1024x1024 .f32)
    (acc : Vec Ideal S1024x64 .f32) (r : Fin 1024) (d : Fin 64) :
    k1_pay5 (F := Ideal) V e P acc (ix2 r d) = e (ix2 r 0) * acc (ix2 r d) + ∑ j : Fin 1024, P (ix2 r j) * V (ix2 j d) := by
  unfold k1_pay5
  simp only [shapeCast_self, addf_apply, mulf_apply]
  rw [pv_matmul_apply, broadcastTo_a1_ab_apply]
  rfl

theorem cast_out {α : Type} (x : S1024x64.Idx → α) (r : Fin 1024) (d : Fin 64) :
    shapeCast S1x1x1024x64 x shapeCasts_S1024x64_S1x1x1024x64 (ix4 0 0 r d) = x (ix2 r d) :=
  shapeCast_apply x shapeCasts_S1024x64_S1x1x1024x64 _ _ (by
    rw [Shape.rowMajor_val_two, Shape.rowMajor_val_four]
    show r.val * 64 + d.val = ((0 * 1 + 0) * 1024 + r.val) * 64 + d.val
    omega)

end V1P

open V1P

/-! ## The running state at an index -/

theorem reset1_m (r : Fin 1024) : (reset1 (F := Ideal)).1 (ix2 r 0) = (⊥ : EReal) := by
  show k1_pay1 (F := Ideal) (ix2 r 0) = ⊥
  unfold k1_pay1
  simp only [shapeCast_self, broadcast_apply]
  exact ofBits_ninf
theorem reset1_l (r : Fin 1024) : (reset1 (F := Ideal)).2.1 (ix2 r 0) = (0 : EReal) := by
  show k1_pay2 (F := Ideal) (ix2 r 0) = 0
  unfold k1_pay2
  simp only [shapeCast_self, broadcast_apply]
  exact Ideal.ofBits_zero_f32
theorem reset1_acc (r : Fin 1024) (d : Fin 64) : (reset1 (F := Ideal)).2.2 (ix2 r d) = (0 : EReal) := by
  show k1_pay3 (F := Ideal) (ix2 r d) = 0
  unfold k1_pay3
  simp only [shapeCast_self, broadcast_apply]
  exact Ideal.ofBits_zero_f32

theorem pay9_row (qt kv : Fin 2) (xq xk : Vec Ideal S1x1x1024x64 .bf16) (r : Fin 1024) :
    (fun j : Fin 1024 => k1_pay9 (F := Ideal) (BitVec.ofNat 32 qt.val) (BitVec.ofNat 32 kv.val) xq xk (ix2 r j))
      = tscore xq xk qt kv r :=
  funext fun j => pay9_apply qt kv xq xk r j

/-- The new running maximum of row r. -/
theorem newmax_apply (qt kv : Fin 2) (xq xk : Vec Ideal S1x1x1024x64 .bf16) (m : Vec Ideal S1024x1 .f32) (r : Fin 1024) :
    k1_pay10 (F := Ideal) (BitVec.ofNat 32 qt.val) (BitVec.ofNat 32 kv.val) xq xk m (ix2 r 0)
      = Cert.Spec.onlM (m (ix2 r 0)) (tscore xq xk qt kv r) := by
  rw [pay10_apply, pay9_row]; rfl

theorem comp1_m (qt kv : Fin 2) (xq xk xv : Vec Ideal S1x1x1024x64 .bf16) (s : St Ideal) (r : Fin 1024) :
    (comp1 (BitVec.ofNat 32 qt.val) (BitVec.ofNat 32 kv.val) xq xk xv s).1 (ix2 r 0)
      = Cert.Spec.onlM (s.1 (ix2 r 0)) (tscore xq xk qt kv r) := by
  show k1_pay6 (F := Ideal) (k1_pay10 (F := Ideal) (BitVec.ofNat 32 qt.val) (BitVec.ofNat 32 kv.val) xq xk s.1) (ix2 r 0) = _
  unfold k1_pay6
  rw [shapeCast_self]
  exact newmax_apply qt kv xq xk s.1 r

theorem comp1_l (qt kv : Fin 2) (xq xk xv : Vec Ideal S1x1x1024x64 .bf16) (s : St Ideal) (r : Fin 1024) :
    (comp1 (BitVec.ofNat 32 qt.val) (BitVec.ofNat 32 kv.val) xq xk xv s).2.1 (ix2 r 0)
      = Cert.Spec.onlL (s.1 (ix2 r 0)) (s.2.1 (ix2 r 0)) (tscore xq xk qt kv r) := by
  show k1_pay4 (F := Ideal) (k1_pay12 (F := Ideal) (BitVec.ofNat 32 qt.val) (BitVec.ofNat 32 kv.val) xq xk s.1)
    (k1_pay13 (F := Ideal) (BitVec.ofNat 32 qt.val) (BitVec.ofNat 32 kv.val) xq xk s.1 s.1 s.2.1) (ix2 r 0) = _
  rw [pay4_apply, pay13_apply, pay11_apply, newmax_apply]
  unfold Cert.Spec.onlL
  refine congrArg (_ + ·) (Finset.sum_congr rfl fun j _ => ?_)
  rw [pay12_apply, pay9_apply, newmax_apply]

theorem comp1_acc (qt kv : Fin 2) (xq xk xv : Vec Ideal S1x1x1024x64 .bf16) (s : St Ideal) (r : Fin 1024) (d : Fin 64) :
    (comp1 (BitVec.ofNat 32 qt.val) (BitVec.ofNat 32 kv.val) xq xk xv s).2.2 (ix2 r d)
      = Cert.Spec.onlA (s.1 (ix2 r 0)) (s.2.2 (ix2 r d)) (tscore xq xk qt kv r) (fun j : Fin 1024 => xv (ix4 0 0 j d)) := by
  show k1_pay5 (F := Ideal) (k1_pay8 (F := Ideal) xv)
    (k1_pay11 (F := Ideal) (BitVec.ofNat 32 qt.val) (BitVec.ofNat 32 kv.val) xq xk s.1 s.1)
    (k1_pay12 (F := Ideal) (BitVec.ofNat 32 qt.val) (BitVec.ofNat 32 kv.val) xq xk s.1) s.2.2 (ix2 r d) = _
  rw [pay5_apply, pay11_apply, newmax_apply]
  unfold Cert.Spec.onlA
  refine congrArg (_ + ·) (Finset.sum_congr rfl fun j _ => ?_)
  rw [pay12_apply, pay9_apply, newmax_apply]
  unfold k1_pay8
  rw [cast_q]

theorem fin1_apply (s : St Ideal) (r : Fin 1024) (d : Fin 64) :
    fin1 s (ix4 0 0 r d) = Ideal.div (s.2.2 (ix2 r d)) (s.2.1 (ix2 r 0)) := by
  show k1_pay7 (F := Ideal) s.2.2 s.2.1 (ix4 0 0 r d) = _
  unfold k1_pay7
  refine (cast_out _ r d).trans ?_
  show Ideal.div (s.2.2 (ix2 r d)) (broadcastTo S1024x64 s.2.1 broadcasts_S1024x1_S1024x64 (ix2 r d)) = _
  rw [broadcastTo_a1_ab_apply]

end Cert.KernelIdeal.Hand

end
-- ==== Proof.Val1.lean ====
import proofs.«412418_j10084583211544_3_alg».proof.Proof.Val1Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-! # What the attention region leaves in its output array, over the extended reals

Head (b, h), query position `i`, channel `d`: the online form over one key tile for `i < 1024` and over two for the rest. -/

namespace Val1

/-! ## Rows of a tile, and the coordinates of a grid point

Point `t` of the grid [2, 16, 2, 2] is (b, h, qt, kv) with kv the fastest axis. -/

/-- Row `r` of tile `T` of the 2048 positions. -/
abbrev row (T : Fin 2) (r : Fin 1024) : Fin 2048 := ⟨1024 * T.val + r.val, by omega⟩

/-- The batch coordinate of point `t`. -/
abbrev pb (t : ℕ) : Fin 2 := ⟨t / 64 % 2, Nat.mod_lt _ (by decide)⟩
/-- The head coordinate of point `t`. -/
abbrev ph (t : ℕ) : Fin 16 := ⟨t / 4 % 16, Nat.mod_lt _ (by decide)⟩
/-- The query tile of point `t`. -/
abbrev pq (t : ℕ) : Fin 2 := ⟨t / 2 % 2, Nat.mod_lt _ (by decide)⟩
/-- The key tile point `t` is given: the smaller of its key coordinate and its query tile. -/
abbrev pm (t : ℕ) : Fin 2 := ⟨min (t % 2) (t / 2 % 2), by omega⟩

/-! ## The online form off the blocks is the online form off the arrays

If the query block's row `r` is row `1024 qt + r` of the query array at head (b, h) and the key block's row `j` is row
`1024 kv + j` of the key array, the tile's masked scores are tile `kv` of the masked score row of query position
`1024 qt + r`: the mask `1024 kv + j ≤ 1024 qt + r` is "key position at most query position", the score the same sum
over the 64 channels times 1/8. -/

theorem tscore_eq_tile (Q K : Cert.Spec.A4) (xq xk : Vec Ideal S1x1x1024x64 .bf16) (b : Fin 2) (h : Fin 16) (qt kv : Fin 2)
    (r : Fin 1024)
    (hq : ∀ d : Fin 64, xq (ix4 0 0 r d) = Q (ix4 b h (row qt r) d))
    (hk : ∀ (j : Fin 1024) (d : Fin 64), xk (ix4 0 0 j d) = K (ix4 b h (row kv j) d)) :
    tscore xq xk qt kv r = Cert.Spec.tile kv (fun kk : Fin 2048 => Cert.Spec.mscore Q K b h (row qt r) kk) := by
  funext j
  unfold tscore Cert.Spec.tile Cert.Spec.mscore Cert.Spec.score
  simp only [hq, hk]

/-- The value block's column `d` is tile `kv` of the value array's column `d` at head (b, h). -/
theorem vcol_eq_tile (W : Cert.Spec.A4) (xv : Vec Ideal S1x1x1024x64 .bf16) (b : Fin 2) (h : Fin 16) (kv : Fin 2) (d : Fin 64)
    (hv : ∀ (j : Fin 1024), xv (ix4 0 0 j d) = W (ix4 b h (row kv j) d)) :
    (fun j : Fin 1024 => xv (ix4 0 0 j d)) = Cert.Spec.tile kv (fun kk : Fin 2048 => W (ix4 b h kk d)) := by
  funext j
  exact hv j

/-- A query row of the first tile: one update from the reset state, then the quotient, is the online form over the first
    key tile. -/
theorem fin1_one (Q K W : Cert.Spec.A4) (xq xk xv : Vec Ideal S1x1x1024x64 .bf16) (b : Fin 2) (h : Fin 16) (r : Fin 1024) (d : Fin 64)
    (hq : ∀ d : Fin 64, xq (ix4 0 0 r d) = Q (ix4 b h (row 0 r) d))
    (hk : ∀ (j : Fin 1024) (d : Fin 64), xk (ix4 0 0 j d) = K (ix4 b h (row 0 j) d))
    (hv : ∀ (j : Fin 1024), xv (ix4 0 0 j d) = W (ix4 b h (row 0 j) d)) :
    fin1 (comp1 (BitVec.ofNat 32 (0 : Fin 2).val) (BitVec.ofNat 32 (0 : Fin 2).val) xq xk xv (reset1 (F := Ideal))) (ix4 0 0 r d)
      = Cert.Spec.attnOnline Q K W (ix4 b h (row 0 r) d) := by
  rw [fin1_apply, comp1_acc, comp1_l, reset1_m, reset1_l, reset1_acc,
    tscore_eq_tile Q K xq xk b h 0 0 r hq hk, vcol_eq_tile W xv b h 0 d hv]
  show _ = (if (row 0 r).val < 1024 then
      Cert.Spec.flash1 (fun kk : Fin 2048 => Cert.Spec.mscore Q K b h (row 0 r) kk) (fun kk : Fin 2048 => W (ix4 b h kk d))
    else
      Cert.Spec.flash2 (fun kk : Fin 2048 => Cert.Spec.mscore Q K b h (row 0 r) kk) (fun kk : Fin 2048 => W (ix4 b h kk d)))
  rw [if_pos (by show 1024 * 0 + r.val < 1024; omega)]
  rfl

/-- A query row of the second tile: two updates from the reset state, over the first key tile and then the second, then
    the quotient, is the online form over both key tiles. The two updates may read the query block from two loads, as long
    as both hold the query array's row. -/
theorem fin1_two (Q K W : Cert.Spec.A4) (xq xk xv xq' xk' xv' : Vec Ideal S1x1x1024x64 .bf16) (b : Fin 2) (h : Fin 16)
    (r : Fin 1024) (d : Fin 64)
    (hq : ∀ d : Fin 64, xq (ix4 0 0 r d) = Q (ix4 b h (row 1 r) d))
    (hk : ∀ (j : Fin 1024) (d : Fin 64), xk (ix4 0 0 j d) = K (ix4 b h (row 0 j) d))
    (hv : ∀ (j : Fin 1024), xv (ix4 0 0 j d) = W (ix4 b h (row 0 j) d))
    (hq' : ∀ d : Fin 64, xq' (ix4 0 0 r d) = Q (ix4 b h (row 1 r) d))
    (hk' : ∀ (j : Fin 1024) (d : Fin 64), xk' (ix4 0 0 j d) = K (ix4 b h (row 1 j) d))
    (hv' : ∀ (j : Fin 1024), xv' (ix4 0 0 j d) = W (ix4 b h (row 1 j) d)) :
    fin1 (comp1 (BitVec.ofNat 32 (1 : Fin 2).val) (BitVec.ofNat 32 (1 : Fin 2).val) xq' xk' xv'
        (comp1 (BitVec.ofNat 32 (1 : Fin 2).val) (BitVec.ofNat 32 (0 : Fin 2).val) xq xk xv (reset1 (F := Ideal)))) (ix4 0 0 r d)
      = Cert.Spec.attnOnline Q K W (ix4 b h (row 1 r) d) := by
  rw [fin1_apply, comp1_acc, comp1_l, comp1_m, comp1_acc, comp1_l, reset1_m, reset1_l, reset1_acc,
    tscore_eq_tile Q K xq xk b h 1 0 r hq hk, vcol_eq_tile W xv b h 0 d hv,
    tscore_eq_tile Q K xq' xk' b h 1 1 r hq' hk', vcol_eq_tile W xv' b h 1 d hv']
  show _ = (if (row 1 r).val < 1024 then
      Cert.Spec.flash1 (fun kk : Fin 2048 => Cert.Spec.mscore Q K b h (row 1 r) kk) (fun kk : Fin 2048 => W (ix4 b h kk d))
    else
      Cert.Spec.flash2 (fun kk : Fin 2048 => Cert.Spec.mscore Q K b h (row 1 r) kk) (fun kk : Fin 2048 => W (ix4 b h kk d)))
  rw [if_neg (by show ¬ (1024 * 1 + r.val < 1024); omega)]
  rfl

/-! ## The blocks are the arrays' tiles

The block indices, decided over the 128 grid points: the query and output windows sit at (b, h, qt, 0), the key and value
windows at (b, h, min kv qt, 0). An element (0, 0, r, d) of a block [1, 1, 1024, 64] at block index (b, h, T, 0) is the
array's element (b, h, 1024 T + r, d). -/

theorem idx1 : ∀ t : Fin cfg1.N,
    (win1_0.index t (0 : Fin 4) = t.val / 64 % 2 ∧ win1_0.index t (1 : Fin 4) = t.val / 4 % 16
      ∧ win1_0.index t (2 : Fin 4) = t.val / 2 % 2 ∧ win1_0.index t (3 : Fin 4) = 0)
    ∧ (win1_1.index t (0 : Fin 4) = t.val / 64 % 2 ∧ win1_1.index t (1 : Fin 4) = t.val / 4 % 16
      ∧ win1_1.index t (2 : Fin 4) = min (t.val % 2) (t.val / 2 % 2) ∧ win1_1.index t (3 : Fin 4) = 0)
    ∧ (win1_2.index t (0 : Fin 4) = t.val / 64 % 2 ∧ win1_2.index t (1 : Fin 4) = t.val / 4 % 16
      ∧ win1_2.index t (2 : Fin 4) = min (t.val % 2) (t.val / 2 % 2) ∧ win1_2.index t (3 : Fin 4) = 0)
    ∧ (win1_3.index t (0 : Fin 4) = t.val / 64 % 2 ∧ win1_3.index t (1 : Fin 4) = t.val / 4 % 16
      ∧ win1_3.index t (2 : Fin 4) = t.val / 2 % 2 ∧ win1_3.index t (3 : Fin 4) = 0) :=
  (by decide +kernel : ∀ t : Fin grid1.N, _)

/-- The grid coordinates the body branches on: the query tile and the key coordinate. -/
theorem coords1 : ∀ t : Fin cfg1.N, ((grid1.coords t) 2).val = t.val / 2 % 2 ∧ ((grid1.coords t) 3).val = t.val % 2 :=
  (by decide +kernel : ∀ t : Fin grid1.N, _)

theorem N1 : cfg1.N = 128 := by decide +kernel

theorem emb1_0 (t : Fin cfg1.N) (r : Fin 1024) (d : Fin 64) :
    ((cfg1.win 0).blk t).view.emb (ix4 0 0 r d) = ix4 (pb t.val) (ph t.val) (row (pq t.val) r) d := by
  obtain ⟨⟨e0, e1, e2, e3⟩, -, -, -⟩ := idx1 t
  funext a; apply Fin.ext
  match a with
  | ⟨0, _⟩ => show win1_0.index t (0 : Fin 4) * 1 + 1 * 0 = t.val / 64 % 2; omega
  | ⟨1, _⟩ => show win1_0.index t (1 : Fin 4) * 1 + 1 * 0 = t.val / 4 % 16; omega
  | ⟨2, _⟩ => show win1_0.index t (2 : Fin 4) * 1024 + 1 * r.val = 1024 * (t.val / 2 % 2) + r.val; omega
  | ⟨3, _⟩ => show win1_0.index t (3 : Fin 4) * 64 + 1 * d.val = d.val; omega

theorem emb1_1 (t : Fin cfg1.N) (r : Fin 1024) (d : Fin 64) :
    ((cfg1.win 1).blk t).view.emb (ix4 0 0 r d) = ix4 (pb t.val) (ph t.val) (row (pm t.val) r) d := by
  obtain ⟨-, ⟨e0, e1, e2, e3⟩, -, -⟩ := idx1 t
  funext a; apply Fin.ext
  match a with
  | ⟨0, _⟩ => show win1_1.index t (0 : Fin 4) * 1 + 1 * 0 = t.val / 64 % 2; omega
  | ⟨1, _⟩ => show win1_1.index t (1 : Fin 4) * 1 + 1 * 0 = t.val / 4 % 16; omega
  | ⟨2, _⟩ => show win1_1.index t (2 : Fin 4) * 1024 + 1 * r.val = 1024 * (min (t.val % 2) (t.val / 2 % 2)) + r.val; omega
  | ⟨3, _⟩ => show win1_1.index t (3 : Fin 4) * 64 + 1 * d.val = d.val; omega

theorem emb1_2 (t : Fin cfg1.N) (r : Fin 1024) (d : Fin 64) :
    ((cfg1.win 2).blk t).view.emb (ix4 0 0 r d) = ix4 (pb t.val) (ph t.val) (row (pm t.val) r) d := by
  obtain ⟨-, -, ⟨e0, e1, e2, e3⟩, -⟩ := idx1 t
  funext a; apply Fin.ext
  match a with
  | ⟨0, _⟩ => show win1_2.index t (0 : Fin 4) * 1 + 1 * 0 = t.val / 64 % 2; omega
  | ⟨1, _⟩ => show win1_2.index t (1 : Fin 4) * 1 + 1 * 0 = t.val / 4 % 16; omega
  | ⟨2, _⟩ => show win1_2.index t (2 : Fin 4) * 1024 + 1 * r.val = 1024 * (min (t.val % 2) (t.val / 2 % 2)) + r.val; omega
  | ⟨3, _⟩ => show win1_2.index t (3 : Fin 4) * 64 + 1 * d.val = d.val; omega

theorem emb1_3 (t : Fin cfg1.N) (r : Fin 1024) (d : Fin 64) :
    ((cfg1.win 3).blk t).view.emb (ix4 0 0 r d) = ix4 (pb t.val) (ph t.val) (row (pq t.val) r) d := by
  obtain ⟨-, -, -, ⟨e0, e1, e2, e3⟩⟩ := idx1 t
  funext a; apply Fin.ext
  match a with
  | ⟨0, _⟩ => show win1_3.index t (0 : Fin 4) * 1 + 1 * 0 = t.val / 64 % 2; omega
  | ⟨1, _⟩ => show win1_3.index t (1 : Fin 4) * 1 + 1 * 0 = t.val / 4 % 16; omega
  | ⟨2, _⟩ => show win1_3.index t (2 : Fin 4) * 1024 + 1 * r.val = 1024 * (t.val / 2 % 2) + r.val; omega
  | ⟨3, _⟩ => show win1_3.index t (3 : Fin 4) * 64 + 1 * d.val = d.val; omega

/-- The query block at point `t`, read at (0, 0, r, d). -/
theorem iblk1_0_apply (c : Dev nD) (t : Fin cfg1.N) (r : Fin 1024) (d : Fin 64) :
    iblk1 V c 0 t (ix4 0 0 r d) = V c main_v3_0 (ix4 (pb t.val) (ph t.val) (row (pq t.val) r) d) := by
  show V c main_v3_0 (((cfg1.win 0).blk t).view.emb (ix4 0 0 r d)) = _
  rw [emb1_0]

/-- The key block at point `t`, read at (0, 0, j, d). -/
theorem iblk1_1_apply (c : Dev nD) (t : Fin cfg1.N) (j : Fin 1024) (d : Fin 64) :
    iblk1 V c 1 t (ix4 0 0 j d) = V c main_v3_1 (ix4 (pb t.val) (ph t.val) (row (pm t.val) j) d) := by
  show V c main_v3_1 (((cfg1.win 1).blk t).view.emb (ix4 0 0 j d)) = _
  rw [emb1_1]

/-- The value block at point `t`, read at (0, 0, j, d). -/
theorem iblk1_2_apply (c : Dev nD) (t : Fin cfg1.N) (j : Fin 1024) (d : Fin 64) :
    iblk1 V c 2 t (ix4 0 0 j d) = V c main_v3_2 (ix4 (pb t.val) (ph t.val) (row (pm t.val) j) d) := by
  show V c main_v3_2 (((cfg1.win 2).blk t).view.emb (ix4 0 0 j d)) = _
  rw [emb1_2]

/-! ## The running state at a finishing point

A point with key coordinate 0 resets and updates once, whatever it was handed. The point after it, with key coordinate 1,
keeps the state in the first query tile (the key tile is past the queries) and updates once more in the second. -/

/-- One point's effect, its two conditions on the point's coordinates spelled out. -/
theorem step1_eq (c : Dev nD) (t : Fin cfg1.N) (s : St Ideal) :
    step1 V c t s
      = if ((grid1.coords t) 3).val ≤ ((grid1.coords t) 2).val then
          comp1 (BitVec.ofNat 32 ((grid1.coords t) 2).val) (BitVec.ofNat 32 ((grid1.coords t) 3).val)
            (iblk1 V c 0 t) (iblk1 V c 1 t) (iblk1 V c 2 t) (if ((grid1.coords t) 3).val = 0 then reset1 else s)
        else (if ((grid1.coords t) 3).val = 0 then reset1 else s) := rfl

/-- A point with key coordinate 0: reset, then one update over key tile 0. -/
theorem step1_first (c : Dev nD) (t : Fin cfg1.N) (T : Fin 2) (hk : t.val % 2 = 0) (hq : t.val / 2 % 2 = T.val) (s : St Ideal) :
    step1 V c t s = comp1 (BitVec.ofNat 32 T.val) (BitVec.ofNat 32 (0 : Fin 2).val) (iblk1 V c 0 t) (iblk1 V c 1 t) (iblk1 V c 2 t) reset1 := by
  obtain ⟨e2, e3⟩ := coords1 t
  have h3 : ((grid1.coords t) 3).val = 0 := by omega
  have h2 : ((grid1.coords t) 2).val = T.val := by omega
  rw [step1_eq, h3, h2, if_pos (Nat.zero_le _), if_pos rfl]
  rfl

/-- A point with key coordinate 1 in the first query tile: nothing. -/
theorem step1_second_skip (c : Dev nD) (t : Fin cfg1.N) (hk : t.val % 2 = 1) (hq : t.val / 2 % 2 = 0) (s : St Ideal) :
    step1 V c t s = s := by
  obtain ⟨e2, e3⟩ := coords1 t
  have h3 : ((grid1.coords t) 3).val = 1 := by omega
  have h2 : ((grid1.coords t) 2).val = 0 := by omega
  rw [step1_eq, h3, h2, if_neg (by decide), if_neg (by decide)]

/-- A point with key coordinate 1 in the second query tile: one update over key tile 1. -/
theorem step1_second (c : Dev nD) (t : Fin cfg1.N) (hk : t.val % 2 = 1) (hq : t.val / 2 % 2 = 1) (s : St Ideal) :
    step1 V c t s = comp1 (BitVec.ofNat 32 (1 : Fin 2).val) (BitVec.ofNat 32 (1 : Fin 2).val) (iblk1 V c 0 t) (iblk1 V c 1 t) (iblk1 V c 2 t) s := by
  obtain ⟨e2, e3⟩ := coords1 t
  have h3 : ((grid1.coords t) 3).val = 1 := by omega
  have h2 : ((grid1.coords t) 2).val = 1 := by omega
  rw [step1_eq, h3, h2, if_pos (Nat.le_refl _), if_neg (by decide)]
  rfl

/-- The state after a point with key coordinate 0. -/
theorem stAt1_first (c : Dev nD) (n : ℕ) (h : n < cfg1.N) (T : Fin 2) (hk : n % 2 = 0) (hq : n / 2 % 2 = T.val) :
    stAt1 V c n h = comp1 (BitVec.ofNat 32 T.val) (BitVec.ofNat 32 (0 : Fin 2).val)
      (iblk1 V c 0 ⟨n, h⟩) (iblk1 V c 1 ⟨n, h⟩) (iblk1 V c 2 ⟨n, h⟩) reset1 := by
  cases n with
  | zero => rw [stAt1_zero]; exact step1_first V c ⟨0, h⟩ T hk hq _
  | succ m => rw [stAt1_succ]; exact step1_first V c ⟨m + 1, h⟩ T hk hq _

/-! ## What a finishing point writes back

The quotient of the state at a finishing point (b, h, qt, 1), at row `r` and channel `d`, is the online form at query
position `1024 qt + r`: over key tile 0 alone for qt = 0, over both for qt = 1. -/

theorem fin1_stAt1 (c : Dev nD) (n : ℕ) (h : n + 1 < cfg1.N) (hk : n % 2 = 0) (r : Fin 1024) (d : Fin 64) :
    fin1 (stAt1 V c (n + 1) h) (ix4 0 0 r d)
      = Cert.Spec.attnOnline (V c main_v3_0) (V c main_v3_1) (V c main_v3_2)
          (ix4 (pb (n + 1)) (ph (n + 1)) (row (pq (n + 1)) r) d) := by
  have hn : n < cfg1.N := Nat.lt_of_succ_lt h
  have eb : pb n = pb (n + 1) := Fin.ext (by show n / 64 % 2 = (n + 1) / 64 % 2; omega)
  have eh : ph n = ph (n + 1) := Fin.ext (by show n / 4 % 16 = (n + 1) / 4 % 16; omega)
  have em : pm n = 0 := Fin.ext (by show min (n % 2) (n / 2 % 2) = 0; omega)
  rcases Nat.mod_two_eq_zero_or_one (n / 2) with hq | hq
  · -- the first query tile
    have eq : pq (n + 1) = 0 := Fin.ext (by show (n + 1) / 2 % 2 = 0; omega)
    have eq' : pq n = 0 := Fin.ext (by show n / 2 % 2 = 0; omega)
    rw [stAt1_succ, step1_second_skip V c ⟨n + 1, h⟩ (by show (n + 1) % 2 = 1; omega) (by show (n + 1) / 2 % 2 = 0; omega),
      stAt1_first V c n hn 0 hk hq, eq]
    refine fin1_one _ _ _ _ _ _ _ _ r d (fun d' => ?_) (fun j d' => ?_) (fun j => ?_)
    · rw [iblk1_0_apply, eb, eh, eq']
    · rw [iblk1_1_apply, eb, eh, em]
    · rw [iblk1_2_apply, eb, eh, em]
  · -- the second query tile
    have eq : pq (n + 1) = 1 := Fin.ext (by show (n + 1) / 2 % 2 = 1; omega)
    have eq' : pq n = 1 := Fin.ext (by show n / 2 % 2 = 1; omega)
    have em' : pm (n + 1) = 1 := Fin.ext (by show min ((n + 1) % 2) ((n + 1) / 2 % 2) = 1; omega)
    rw [stAt1_succ, step1_second V c ⟨n + 1, h⟩ (by show (n + 1) % 2 = 1; omega) (by show (n + 1) / 2 % 2 = 1; omega),
      stAt1_first V c n hn 1 hk hq, eq]
    refine fin1_two _ _ _ _ _ _ _ _ _ _ _ r d (fun d' => ?_) (fun j d' => ?_) (fun j => ?_) (fun d' => ?_) (fun j d' => ?_) (fun j => ?_)
    · rw [iblk1_0_apply, eb, eh, eq']
    · rw [iblk1_1_apply, eb, eh, em]
    · rw [iblk1_2_apply, eb, eh, em]
    · rw [iblk1_0_apply, eq]
    · rw [iblk1_1_apply, em']
    · rw [iblk1_2_apply, em']

/-- What a finishing point writes back is its block of the online form of the three entry arrays. -/
theorem flushed1_3 (c : Dev nD) (t : Fin cfg1.N) (hf : (cfg1.win 3).flush t = true) :
    (dat1 (F := Ideal) V c).flushed 3 t
      = ((cfg1.win 3).blk t).view.read (Elt Ideal) (Cert.Spec.attnOnline (V c main_v3_0) (V c main_v3_1) (V c main_v3_2)) := by
  have ho : t.val % 2 = 1 := (flush1_3 t).mp hf
  obtain ⟨tv, ht⟩ := t
  obtain ⟨n, rfl⟩ : ∃ n, tv = n + 1 := ⟨tv - 1, by have : tv % 2 = 1 := ho; omega⟩
  have hk : n % 2 = 0 := by have : (n + 1) % 2 = 1 := ho; omega
  show (cfg1.win 3).cut (grid1.coords ⟨n + 1, ht⟩) ((dat1 (F := Ideal) V c).after 3 ⟨n + 1, ht⟩) = _
  rw [after1_3]
  funext y
  obtain ⟨a, b, r, d, rfl⟩ : ∃ (a : Fin 1) (b : Fin 1) (r : Fin 1024) (d : Fin 64), y = ix4 a b r d :=
    ⟨y 0, y 1, y 2, y 3, eq_ix4 y⟩
  obtain rfl : a = 0 := Subsingleton.elim _ _
  obtain rfl : b = 0 := Subsingleton.elim _ _
  rw [View.read_apply]
  show fin1 (stAt1 V c (n + 1) ht) (ix4 0 0 r d)
    = Cert.Spec.attnOnline (V c main_v3_0) (V c main_v3_1) (V c main_v3_2) (((cfg1.win 3).blk ⟨n + 1, ht⟩).view.emb (ix4 0 0 r d))
  rw [emb1_3]
  exact fin1_stAt1 V c n ht hk r d

/-! ## The cover, and the array

The 64 finishing points' blocks tile the output: position (b, h, i, d) is in the block of point 64 b + 4 h + 2 (i / 1024) + 1. -/

theorem cover1_3 (i : S2x16x2048x64.Idx) :
    ∃ t : Fin cfg1.N, (cfg1.win 3).flush t = true ∧ i ∈ ((cfg1.win 3).blk t).view.set := by
  obtain ⟨b, h, s, d, rfl⟩ : ∃ (b : Fin 2) (h : Fin 16) (s : Fin 2048) (d : Fin 64), i = ix4 b h s d :=
    ⟨i 0, i 1, i 2, i 3, eq_ix4 i⟩
  have hb := b.isLt; have hh := h.isLt; have hs := s.isLt
  have hlt : 64 * b.val + 4 * h.val + 2 * (s.val / 1024) + 1 < cfg1.N := by rw [N1]; omega
  refine ⟨⟨64 * b.val + 4 * h.val + 2 * (s.val / 1024) + 1, hlt⟩, (flush1_3 _).mpr (by show (64 * b.val + 4 * h.val + 2 * (s.val / 1024) + 1) % 2 = 1; omega), ?_⟩
  have e : ix4 b h s d = ((cfg1.win 3).blk ⟨64 * b.val + 4 * h.val + 2 * (s.val / 1024) + 1, hlt⟩).view.emb (ix4 0 0 (⟨s.val % 1024, Nat.mod_lt _ (by decide)⟩ : Fin 1024) d) := by
    rw [emb1_3]
    funext a; apply Fin.ext
    match a with
    | ⟨0, _⟩ => show b.val = (64 * b.val + 4 * h.val + 2 * (s.val / 1024) + 1) / 64 % 2; omega
    | ⟨1, _⟩ => show h.val = (64 * b.val + 4 * h.val + 2 * (s.val / 1024) + 1) / 4 % 16; omega
    | ⟨2, _⟩ => show s.val = 1024 * ((64 * b.val + 4 * h.val + 2 * (s.val / 1024) + 1) / 2 % 2) + s.val % 1024; omega
    | ⟨3, _⟩ => rfl
  rw [e]
  exact View.emb_mem_set _ _

end Val1

/-- The output array after the region: every finishing point writes its block of the online form, and the finishing points'
    blocks cover the array. -/
theorem arr1_3 (c : Dev nD) :
    (dat1 (F := Ideal) V c).arrAt 3 cfg1.N = Cert.Spec.attnOnline (V c main_v3_0) (V c main_v3_1) (V c main_v3_2) :=
  (dat1 (F := Ideal) V c).arrAt_eq_of_cover 3 _ (fun t hf => Val1.flushed1_3 V c t hf) Val1.cover1_3

end Cert.KernelIdeal.Hand

end
-- ==== Proof.Val2.lean ====
import proofs.«412418_j10084583211544_3_alg».proof.Proof.R2Defs
import proofs.«412418_j10084583211544_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-! # The output projection's value

The third region's body lays the sixteen heads' 512 × 64 tiles of its attention block side by side into a 512 × 1024 tile and
multiplies by the 1024 × 1024 matrix `Wt` into a zero accumulator. Below: the product at an index, the concatenation at an
index, and then the passage from the eight blocks the grid points write back to the whole result array. -/

namespace OutProj

/-! ## The product at an index -/

theorem lhs_o_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_o_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_o_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_o_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product of a 512 × 1024 tile with a 1024 × 1024 matrix into a zero accumulator, stored as a [1, 512, 1024] block:
    entry (0, r, o) is `Σ_e y[r, e] · w[e, o]`. -/
theorem pay2_apply (y : FVec Ideal S512x1024 .bf16) (w : FVec Ideal S1024x1024 .bf16) (r : Fin 512) (o : Fin 1024) :
    k2_pay2 y w (ix3 0 r o) = ∑ e : Fin 1024, y (ix2 r e) * w (ix2 e o) := by
  unfold k2_pay2
  rw [shapeCast_self]
  refine (shapeCast_apply _ _ (ix3 0 r o) (ix2 r o) ?_).trans ?_
  · rw [Shape.rowMajor_val_two, Shape.rowMajor_val_three]
    show r.val * 1024 + o.val = (0 * 512 + r.val) * 1024 + o.val
    omega
  · refine (Ideal.matmul_constant_zero_apply dot_S512x1024_S1024x1024_S512x1024_1_0_0_1_n_n none y w (ix2 r o)).trans ?_
    rw [← Equiv.sum_comp (ValueIdx.contrEquiv1 dot_S512x1024_S1024x1024_S512x1024_1_0_0_1_n_n 1024 rfl rfl).symm]
    refine Finset.sum_congr rfl fun k _ => ?_
    have hk := ValueIdx.contrEquiv1_symm_val dot_S512x1024_S1024x1024_S512x1024_1_0_0_1_n_n 1024 rfl rfl k
    have el : dot_S512x1024_S1024x1024_S512x1024_1_0_0_1_n_n.lhsIdx (ix2 r o) ((ValueIdx.contrEquiv1 dot_S512x1024_S1024x1024_S512x1024_1_0_0_1_n_n 1024 rfl rfl).symm k) = ix2 r k := funext fun a => Fin.ext (by
      match a with
      | ⟨0, _⟩ => exact lhs_o_0 _ _
      | ⟨1, _⟩ => exact (lhs_o_1 _ _).trans hk)
    have er : dot_S512x1024_S1024x1024_S512x1024_1_0_0_1_n_n.rhsIdx (ix2 r o) ((ValueIdx.contrEquiv1 dot_S512x1024_S1024x1024_S512x1024_1_0_0_1_n_n 1024 rfl rfl).symm k) = ix2 k o := funext fun a => Fin.ext (by
      match a with
      | ⟨0, _⟩ => exact (rhs_o_0 _ _).trans hk
      | ⟨1, _⟩ => exact rhs_o_1 _ _)
    rw [el, er]

/-! ## The sixteen heads side by side, at an index -/

/-- The rectangle of one head of a [1, 16, 512, 64] block stays inside it. -/
theorem inbHead (h : Fin 16) : ∀ a, (![0, h.val, 0, 0] : Fin 4 → Nat) a + S1x1x512x64.size a ≤ S1x16x512x64.size a := by
  intro a
  have := h.isLt
  match a with
  | ⟨0, _⟩ => show 0 + 1 ≤ 1; omega
  | ⟨1, _⟩ => show h.val + 1 ≤ 16; omega
  | ⟨2, _⟩ => show 0 + 512 ≤ 512; omega
  | ⟨3, _⟩ => show 0 + 64 ≤ 64; omega

/-- Head `h` of the block as a 512 × 64 tile. -/
def headTile (x0 : Vec Ideal S1x16x512x64 .bf16) (h : Fin 16) : FVec Ideal S512x64 .bf16 :=
  shapeCast S512x64 (View.ld x0 (Rect.unit (s := S1x16x512x64) ![0, h.val, 0, 0] S1x1x512x64.size (inbHead h))) shapeCasts_S1x1x512x64_S512x64

/-- Entry (r, d) of head `h`'s tile is entry (0, h, r, d) of the block. -/
theorem headTile_apply (x0 : Vec Ideal S1x16x512x64 .bf16) (h : Fin 16) (r : Fin 512) (d : Fin 64) :
    headTile x0 h (ix2 r d) = x0 (ix4 0 h r d) := by
  unfold headTile
  refine (shapeCast_apply _ _ (ix2 r d) (ix4 (0 : Fin 1) (0 : Fin 1) r d) ?_).trans ?_
  · rw [Shape.rowMajor_val_two, Shape.rowMajor_val_four]
    show ((0 * 1 + 0) * 512 + r.val) * 64 + d.val = r.val * 64 + d.val
    omega
  · show x0 _ = x0 _
    congr 1
    funext a
    apply Fin.ext
    match a with
    | ⟨0, _⟩ => show 0 + 1 * 0 = 0; omega
    | ⟨1, _⟩ => show h.val + 1 * 0 = h.val; omega
    | ⟨2, _⟩ => show 0 + 1 * r.val = r.val; omega
    | ⟨3, _⟩ => show 0 + 1 * d.val = d.val; omega

/-- The concatenation is the list of the sixteen head tiles in order. -/
theorem cat2_eq (x0 : Vec Ideal S1x16x512x64 .bf16) :
    cat2 x0 = concatenate S512x1024 1 (List.ofFn fun n : Fin 16 => (⟨S512x64, headTile x0 n⟩ : (s : Shape) × (s.Idx → Elt Ideal .bf16)))
      concatenates_S512x64_S512x64_S512x64_S512x64_S512x64_S512x64_S512x64_S512x64_S512x64_S512x64_S512x64_S512x64_S512x64_S512x64_S512x64_S512x64_S512x1024_d1 := rfl

/-- Entry (r, e) of the concatenation is entry (0, e / 64, r, e % 64) of the block. -/
theorem cat2_apply (x0 : Vec Ideal S1x16x512x64 .bf16) (r : Fin 512) (e : Fin 1024) :
    cat2 x0 (ix2 r e) = x0 (ix4 0 (⟨e.val / 64, by omega⟩ : Fin 16) r (⟨e.val % 64, by omega⟩ : Fin 64)) := by
  rw [cat2_eq]
  refine (concatenate_ofFn_apply (1 : Fin S512x1024.rank) (fun n : Fin 16 => headTile x0 n) _ rfl 64 rfl (ix2 r e)
    (⟨e.val / 64, by omega⟩ : Fin 16) rfl (ix2 r (⟨e.val % 64, by omega⟩ : Fin 64)) rfl ?_).trans (headTile_apply x0 _ r _)
  intro b hb
  match b with
  | ⟨0, _⟩ => rfl
  | ⟨1, _⟩ => exact absurd rfl hb

/-! ## From blocks to the array

Point (b, s) of the grid reads rows `512 s .. 512 s + 511` of all sixteen heads of batch `b`, the whole weight matrix, and
writes rows `512 s .. 512 s + 511` of batch `b` of the result. -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The block indices of the three windows over the grid: the attention output's block follows the result's on the batch
    and row axes and is whole on the head and head-channel axes; the weights' block is the whole matrix; the result's
    block index is (b, s, 0) with b < 2 and s < 4. -/
theorem blockIdx2 : ∀ t : Fin cfg2.N,
      win2_0.index t (0 : Fin 4) = win2_2.index t (0 : Fin 3)
    ∧ win2_0.index t (1 : Fin 4) = 0
    ∧ win2_0.index t (2 : Fin 4) = win2_2.index t (1 : Fin 3)
    ∧ win2_0.index t (3 : Fin 4) = 0
    ∧ win2_1.index t (0 : Fin 2) = 0
    ∧ win2_1.index t (1 : Fin 2) = 0
    ∧ win2_2.index t (0 : Fin 3) ≤ 1
    ∧ win2_2.index t (1 : Fin 3) ≤ 3
    ∧ win2_2.index t (2 : Fin 3) = 0 :=
  (by decide +kernel : ∀ t : Fin grid2.N, _)

/-- Every block (b, s, 0) of the result is some point's. -/
theorem blockOnto2 : ∀ (q0 : Fin 2) (q1 : Fin 4), ∃ t : Fin cfg2.N, win2_2.index t = ![q0.val, q1.val, 0] :=
  (by decide +kernel : ∀ (q0 : Fin 2) (q1 : Fin 4), ∃ t : Fin grid2.N, win2_2.index t = ![q0.val, q1.val, 0])

/-- What point `t` writes back is block `t` of the projection of the attention output by the transposed weights. -/
theorem flushed2_eq (c : Dev nD) (t : Fin cfg2.N) :
    (dat2 (F := Ideal) V c).flushed 2 t
      = ((cfg2.win 2).blk t).view.read (Elt Ideal) (Cert.Spec.outpT (V c main_v4) (V c main_v6)) := by
  show (cfg2.win 2).cut (grid2.coords t) ((dat2 (F := Ideal) V c).after 2 t) = _
  rw [after2_2]
  unfold out2_2
  rw [View.canon_unit_zero zeros3]
  simp only [View.ld_unit_zero (S := S1024x1024) zeros2]
  obtain ⟨e0, e1, e2, e3, e4, e5, e6, e7, e8⟩ := blockIdx2 t
  funext j
  have hj0 : (j 0).val < 1 := (j 0).isLt
  have hj1 : (j 1).val < 512 := (j 1).isLt
  have hj2 : (j 2).val < 1024 := (j 2).isLt
  show k2_pay2 (cat2 (iblk2 V c 0 t)) (iblk2 V c 1 t) (win2_2.xinj (grid2.coords t) j)
    = Cert.Spec.outpT (V c main_v4) (V c main_v6) (((cfg2.win 2).blk t).view.emb j)
  have hx : win2_2.xinj (grid2.coords t) j = ix3 (0 : Fin 1) (⟨(j 1).val, hj1⟩ : Fin 512) (⟨(j 2).val, hj2⟩ : Fin 1024) := by
    funext a; apply Fin.ext
    match a with
    | ⟨0, _⟩ => show (j 0).val = 0; omega
    | ⟨1, _⟩ => rfl
    | ⟨2, _⟩ => rfl
  refine (congrArg _ hx).trans ((pay2_apply _ _ _ _).trans ?_)
  unfold Cert.Spec.outpT
  refine Finset.sum_congr rfl fun e _ => ?_
  rw [cat2_apply]
  congr 1
  · show V c main_v4 (((cfg2.win 0).blk t).view.emb (ix4 (0 : Fin 1) (⟨e.val / 64, by omega⟩ : Fin 16) (⟨(j 1).val, hj1⟩ : Fin 512) (⟨e.val % 64, by omega⟩ : Fin 64))) = V c main_v4 _
    congr 1
    funext a; apply Fin.ext
    match a with
    | ⟨0, _⟩ => show win2_0.index t (0 : Fin 4) * 1 + 1 * 0 = win2_2.index t (0 : Fin 3) * 1 + 1 * (j 0).val; omega
    | ⟨1, _⟩ => show win2_0.index t (1 : Fin 4) * 16 + 1 * (e.val / 64) = e.val / 64; omega
    | ⟨2, _⟩ => show win2_0.index t (2 : Fin 4) * 512 + 1 * (j 1).val = win2_2.index t (1 : Fin 3) * 512 + 1 * (j 1).val; omega
    | ⟨3, _⟩ => show win2_0.index t (3 : Fin 4) * 64 + 1 * (e.val % 64) = e.val % 64; omega
  · show V c main_v6 (((cfg2.win 1).blk t).view.emb (ix2 e (⟨(j 2).val, hj2⟩ : Fin 1024))) = V c main_v6 _
    congr 1
    funext a; apply Fin.ext
    match a with
    | ⟨0, _⟩ => show win2_1.index t (0 : Fin 2) * 1024 + 1 * e.val = e.val; omega
    | ⟨1, _⟩ => show win2_1.index t (1 : Fin 2) * 1024 + 1 * (j 2).val = win2_2.index t (2 : Fin 3) * 1024 + 1 * (j 2).val; omega

/-- An index of the result is in point `t`'s block iff each coordinate is in the block's range on its axis. -/
theorem mem_blk2 (t : Fin cfg2.N) (i : S2x2048x1024.Idx) :
    i ∈ ((cfg2.win 2).blk t).view.set ↔ ∀ a : Fin 3, win2_2.index t a * S1x512x1024.size a ≤ (i a).val ∧ (i a).val < win2_2.index t a * S1x512x1024.size a + S1x512x1024.size a := by
  show i ∈ ((View.whole main_v7).slice (win2_2.rect t)).set ↔ _
  rw [View.set_slice_whole, Rect.mem_set_unit]
  exact Iff.rfl

/-- The eight blocks tile the result: index (b, s, o) lies in the block of the point with block index (b, s / 512, 0). -/
theorem cover2 (i : S2x2048x1024.Idx) :
    ∃ t : Fin cfg2.N, (cfg2.win 2).flush t = true ∧ i ∈ ((cfg2.win 2).blk t).view.set := by
  have hi0 : (i 0).val < 2 := (i 0).isLt
  have hi1 : (i 1).val < 2048 := (i 1).isLt
  have hi2 : (i 2).val < 1024 := (i 2).isLt
  obtain ⟨t, ht⟩ := blockOnto2 ⟨(i 0).val, hi0⟩ ⟨(i 1).val / 512, by omega⟩
  have q0 : win2_2.index t (0 : Fin 3) = (i 0).val := congrFun ht 0
  have q1 : win2_2.index t (1 : Fin 3) = (i 1).val / 512 := congrFun ht 1
  have q2 : win2_2.index t (2 : Fin 3) = 0 := congrFun ht 2
  refine ⟨t, flush2_2 t, ?_⟩
  rw [mem_blk2]
  intro a
  match a with
  | ⟨0, _⟩ => show win2_2.index t (0 : Fin 3) * 1 ≤ (i 0).val ∧ (i 0).val < win2_2.index t (0 : Fin 3) * 1 + 1; omega
  | ⟨1, _⟩ => show win2_2.index t (1 : Fin 3) * 512 ≤ (i 1).val ∧ (i 1).val < win2_2.index t (1 : Fin 3) * 512 + 512; omega
  | ⟨2, _⟩ => show win2_2.index t (2 : Fin 3) * 1024 ≤ (i 2).val ∧ (i 2).val < win2_2.index t (2 : Fin 3) * 1024 + 1024; omega

end OutProj

/-! # What the output region leaves in the result array, over the extended reals

Row `s` of batch `b`, out channel `o`: `Σ_e a[b, e / 64, s, e % 64] · Wt[e, o]`, the heads of the attention output side by side
against the transposed output weights. -/

theorem arr2_2 (c : Dev nD) : (dat2 (F := Ideal) V c).arrAt 2 cfg2.N = Cert.Spec.outpT (V c main_v4) (V c main_v6) :=
  (dat2 (F := Ideal) V c).arrAt_eq_of_cover 2 (Cert.Spec.outpT (V c main_v4) (V c main_v6))
    (fun t _ => OutProj.flushed2_eq V c t) OutProj.cover2

end Cert.KernelIdeal.Hand

end
-- ==== Proof.Algebra.lean ====
import proofs.«412418_j10084583211544_3_alg».proof.Proof.Spec
import Mathlib.Algebra.BigOperators.Fin
import Mathlib.Algebra.BigOperators.Field
import Mathlib.Algebra.Order.BigOperators.Group.Finset
import Mathlib.Analysis.Complex.Exponential
import Mathlib.Data.EReal.Operations
import Mathlib.Data.Finset.Lattice.Fold

noncomputable section

/-! # The online form of a softmax row is the softmax

Over the extended reals, for a row whose entries are real or -∞ with at least one real entry in its first tile, and real
values: the running maximum, denominator and numerator, rescaled by `exp (m_old - m_new)` at each tile, end at the row's
maximum `M`, at `Σ exp (t - M)` and at `Σ exp (t - M) · v`; their quotient is the softmax against the values. -/

namespace Cert.Spec

open Idealize.ShloMosaic Idealize.ShloMosaic.ValueIdx

/-! ## Reals inside the extended reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A finite sum of products of reals is a real. -/
theorem sum_mul_real {n : ℕ} (f g : Fin n → EReal) (hf : ∀ j, ∃ r : ℝ, f j = (r : EReal))
    (hg : ∀ j, ∃ r : ℝ, g j = (r : EReal)) : ∃ r : ℝ, ∑ j, f j * g j = (r : EReal) := by
  refine ⟨∑ j, (f j).toReal * (g j).toReal, ?_⟩
  rw [coe_sum]
  refine Finset.sum_congr rfl fun j _ => ?_
  obtain ⟨a, ha⟩ := hf j
  obtain ⟨b, hb⟩ := hg j
  rw [ha, hb, EReal.toReal_coe, EReal.toReal_coe, EReal.coe_mul]

/-! ## The real `exp (x - M)` of an entry that is real or -∞ -/

/-- `exp (x - M)` as a real number, for an entry `x` real or -∞ and a real `M`: 0 at -∞. -/
def ee (M : ℝ) (x : EReal) : ℝ := if x = ⊥ then 0 else Real.exp (x.toReal - M)

theorem ee_bot (M : ℝ) : ee M ⊥ = 0 := if_pos rfl

theorem ee_coe (M r : ℝ) : ee M (r : EReal) = Real.exp (r - M) := by
  rw [ee, if_neg (EReal.coe_ne_bot r), EReal.toReal_coe]

theorem ee_nonneg (M : ℝ) (x : EReal) : 0 ≤ ee M x := by
  unfold ee
  split_ifs
  · exact le_rfl
  · exact (Real.exp_pos _).le

theorem ee_pos (M : ℝ) {x : EReal} (hx : x ≠ ⊥) : 0 < ee M x := by
  rw [ee, if_neg hx]
  exact Real.exp_pos _

/-- Rescaling from the maximum `m` to the maximum `m'`: `exp (m - m') · exp (x - m) = exp (x - m')`, both sides 0 at
    `x = -∞`. -/
theorem ee_mul_ee (m' m : ℝ) (x : EReal) : ee m' (m : EReal) * ee m x = ee m' x := by
  rw [ee_coe]
  unfold ee
  split_ifs
  · rw [mul_zero]
  · rw [← Real.exp_add]
    congr 1
    ring

/-- The extended-real `exp (x - M)` is that real: `-∞ - M = -∞` and `exp (-∞) = 0`. -/
theorem exp_sub_coe (M : ℝ) (x : EReal) (hx : x = ⊥ ∨ ∃ r : ℝ, x = (r : EReal)) :
    Ideal.exp (x - (M : EReal)) = ((ee M x : ℝ) : EReal) := by
  rcases hx with rfl | ⟨r, rfl⟩
  · rw [EReal.bot_sub, Ideal.exp_bot, ee_bot, EReal.coe_zero]
  · rw [← EReal.coe_sub, Ideal.exp_coe, ee_coe]

/-- The denominator `Σ_j exp (t_j - M)` and the numerator `Σ_j exp (t_j - M) · v_j` of a row, as reals. -/
def den {n : ℕ} (M : ℝ) (t : Fin n → EReal) : ℝ := ∑ j, ee M (t j)
def num {n : ℕ} (M : ℝ) (t v : Fin n → EReal) : ℝ := ∑ j, ee M (t j) * (v j).toReal

/-- A row with a real entry has a positive denominator. -/
theorem den_pos {n : ℕ} (M : ℝ) (t : Fin n → EReal) (h : ∃ j, t j ≠ ⊥) : 0 < den M t := by
  obtain ⟨j, hj⟩ := h
  exact Finset.sum_pos' (fun i _ => ee_nonneg M (t i)) ⟨j, Finset.mem_univ j, ee_pos M hj⟩

theorem ee_mul_den {n : ℕ} (m' m : ℝ) (t : Fin n → EReal) : ee m' (m : EReal) * den m t = den m' t := by
  unfold den
  rw [Finset.mul_sum]
  exact Finset.sum_congr rfl fun j _ => ee_mul_ee m' m (t j)

theorem ee_mul_num {n : ℕ} (m' m : ℝ) (t v : Fin n → EReal) : ee m' (m : EReal) * num m t v = num m' t v := by
  unfold num
  rw [Finset.mul_sum]
  refine Finset.sum_congr rfl fun j _ => ?_
  rw [← mul_assoc, ee_mul_ee]

theorem sum_exp_eq {n : ℕ} (M : ℝ) (t : Fin n → EReal) (ht : ∀ j, t j = ⊥ ∨ ∃ r : ℝ, t j = (r : EReal)) :
    ∑ j, Ideal.exp (t j - (M : EReal)) = ((den M t : ℝ) : EReal) := by
  unfold den
  rw [coe_sum]
  exact Finset.sum_congr rfl fun j _ => exp_sub_coe M (t j) (ht j)

theorem sum_exp_mul_eq {n : ℕ} (M : ℝ) (t v : Fin n → EReal) (ht : ∀ j, t j = ⊥ ∨ ∃ r : ℝ, t j = (r : EReal))
    (hv : ∀ j, ∃ r : ℝ, v j = (r : EReal)) :
    ∑ j, Ideal.exp (t j - (M : EReal)) * v j = ((num M t v : ℝ) : EReal) := by
  unfold num
  rw [coe_sum]
  refine Finset.sum_congr rfl fun j _ => ?_
  obtain ⟨r, hr⟩ := hv j
  rw [exp_sub_coe M (t j) (ht j), hr, EReal.toReal_coe, EReal.coe_mul]

/-! ## The maximum of a row -/

/-- The maximum of entries real or -∞ is real or -∞. -/
theorem rowMax_real_or_bot {n : ℕ} (t : Fin n → EReal) (ht : ∀ j, t j = ⊥ ∨ ∃ r : ℝ, t j = (r : EReal)) :
    rowMax t = ⊥ ∨ ∃ r : ℝ, rowMax t = (r : EReal) := by
  unfold rowMax
  refine Finset.sup_induction (p := fun x : EReal => x = ⊥ ∨ ∃ r : ℝ, x = (r : EReal)) (Or.inl rfl) ?_
    (fun j _ => ht j)
  intro a ha b hb
  rcases le_total a b with h | h
  · rw [sup_eq_right.2 h]
    exact hb
  · rw [sup_eq_left.2 h]
    exact ha

/-- With one real entry the maximum is real. -/
theorem rowMax_real {n : ℕ} (t : Fin n → EReal) (ht : ∀ j, t j = ⊥ ∨ ∃ r : ℝ, t j = (r : EReal))
    (h : ∃ j, ∃ r : ℝ, t j = (r : EReal)) : ∃ M : ℝ, rowMax t = (M : EReal) := by
  rcases rowMax_real_or_bot t ht with hb | hr
  · obtain ⟨j, r, hj⟩ := h
    have hle : t j ≤ rowMax t := Finset.le_sup (f := t) (Finset.mem_univ j)
    rw [hb, hj] at hle
    exact absurd hle (not_le.2 (EReal.bot_lt_coe r))
  · exact hr

/-! ## The softmax and one online step, in reals -/

/-- The softmax of a row with real maximum `M` is the real quotient of its numerator by its denominator. -/
theorem soft_eq {n : ℕ} (t v : Fin n → EReal) (M : ℝ) (hM : rowMax t = (M : EReal))
    (ht : ∀ j, t j = ⊥ ∨ ∃ r : ℝ, t j = (r : EReal)) (hv : ∀ j, ∃ r : ℝ, v j = (r : EReal))
    (hne : ∃ j, t j ≠ ⊥) : soft t v = ((num M t v / den M t : ℝ) : EReal) := by
  have hd : den M t ≠ 0 := (den_pos M t hne).ne'
  have hterm : ∀ j, Ideal.div (Ideal.exp (t j - (M : EReal))) ((den M t : ℝ) : EReal) * v j
      = ((ee M (t j) * (v j).toReal / den M t : ℝ) : EReal) := by
    intro j
    obtain ⟨r, hr⟩ := hv j
    rw [Ideal.div_coe hd, exp_sub_coe M (t j) (ht j), hr, EReal.toReal_coe, ← EReal.coe_mul, ← EReal.coe_mul]
    congr 1
    ring
  unfold soft
  rw [hM, sum_exp_eq M t ht, Finset.sum_congr rfl fun j _ => hterm j, ← coe_sum, num, Finset.sum_div]

theorem onlM_bot {n : ℕ} (t : Fin n → EReal) : onlM ⊥ t = rowMax t := by
  unfold onlM
  exact bot_sup_eq _

/-- One online step whose new maximum `m'` is real, from an old maximum real or -∞ and a real old denominator. -/
theorem onlL_eq {n : ℕ} (mo : EReal) (lo : ℝ) (t : Fin n → EReal) (m' : ℝ) (hm : onlM mo t = (m' : EReal))
    (hmo : mo = ⊥ ∨ ∃ r : ℝ, mo = (r : EReal)) (ht : ∀ j, t j = ⊥ ∨ ∃ r : ℝ, t j = (r : EReal)) :
    onlL mo (lo : EReal) t = ((ee m' mo * lo + den m' t : ℝ) : EReal) := by
  unfold onlL
  rw [hm, exp_sub_coe m' mo hmo, sum_exp_eq m' t ht, ← EReal.coe_mul, ← EReal.coe_add]

theorem onlA_eq {n : ℕ} (mo : EReal) (ao : ℝ) (t v : Fin n → EReal) (m' : ℝ) (hm : onlM mo t = (m' : EReal))
    (hmo : mo = ⊥ ∨ ∃ r : ℝ, mo = (r : EReal)) (ht : ∀ j, t j = ⊥ ∨ ∃ r : ℝ, t j = (r : EReal))
    (hv : ∀ j, ∃ r : ℝ, v j = (r : EReal)) :
    onlA mo (ao : EReal) t v = ((ee m' mo * ao + num m' t v : ℝ) : EReal) := by
  unfold onlA
  rw [hm, exp_sub_coe m' mo hmo, sum_exp_mul_eq m' t v ht hv, ← EReal.coe_mul, ← EReal.coe_add]

/-! ## A row of 2048 as its two tiles of 1024 -/

/-- A sum over the 2048 positions is the sum over the first tile plus the sum over the second. -/
theorem sum_tiles {α : Type*} [AddCommMonoid α] (f : Fin 2048 → α) :
    ∑ j, f j = ∑ j : Fin 1024, f ⟨1024 * (0 : Fin 2).val + j.val, by omega⟩
      + ∑ j : Fin 1024, f ⟨1024 * (1 : Fin 2).val + j.val, by omega⟩ := by
  refine (Fin.sum_univ_add (a := 1024) (b := 1024) f).trans ?_
  congr 1 <;> refine Finset.sum_congr rfl fun j _ => congrArg f (Fin.ext ?_) <;> simp

theorem den_tiles (M : ℝ) (t : Fin 2048 → EReal) : den M t = den M (tile 0 t) + den M (tile 1 t) :=
  sum_tiles fun j => ee M (t j)

theorem num_tiles (M : ℝ) (t v : Fin 2048 → EReal) :
    num M t v = num M (tile 0 t) (tile 0 v) + num M (tile 1 t) (tile 1 v) :=
  sum_tiles fun j => ee M (t j) * (v j).toReal

/-- The maximum over the 2048 positions is the larger of the two tiles' maxima. -/
theorem rowMax_tiles (t : Fin 2048 → EReal) : rowMax t = max (rowMax (tile 0 t)) (rowMax (tile 1 t)) := by
  apply le_antisymm
  · refine Finset.sup_le fun j _ => ?_
    by_cases h : j.val < 1024
    · refine le_trans ?_ (le_max_left _ _)
      have hj : t j = tile 0 t ⟨j.val, h⟩ := by
        unfold tile
        exact congrArg t (Fin.ext (by simp))
      rw [hj]
      exact Finset.le_sup (f := tile 0 t) (Finset.mem_univ _)
    · refine le_trans ?_ (le_max_right _ _)
      have hj : t j = tile 1 t ⟨j.val - 1024, by omega⟩ := by
        unfold tile
        exact congrArg t (Fin.ext (by simp; omega))
      rw [hj]
      exact Finset.le_sup (f := tile 1 t) (Finset.mem_univ _)
  · refine max_le (Finset.sup_le fun j _ => ?_) (Finset.sup_le fun j _ => ?_)
    · exact Finset.le_sup (f := t) (Finset.mem_univ _)
    · exact Finset.le_sup (f := t) (Finset.mem_univ _)

/-! ## The two online forms -/

/-- A row in the first 1024 query positions: its second tile is all -∞ and contributes nothing. -/
theorem flash1_eq_soft (t v : Fin 2048 → EReal)
    (ht : ∀ j, t j = ⊥ ∨ ∃ r : ℝ, t j = (r : EReal)) (hv : ∀ j, ∃ r : ℝ, v j = (r : EReal))
    (h0 : ∃ j : Fin 1024, ∃ r : ℝ, tile 0 t j = (r : EReal))
    (h1 : ∀ j : Fin 1024, tile 1 t j = ⊥) : flash1 t v = soft t v := by
  have ht0 : ∀ j, tile 0 t j = ⊥ ∨ ∃ r : ℝ, tile 0 t j = (r : EReal) := fun j => ht _
  have hv0 : ∀ j, ∃ r : ℝ, tile 0 v j = (r : EReal) := fun j => hv _
  obtain ⟨m0, hm0⟩ := rowMax_real (tile 0 t) ht0 h0
  have hM0 : onlM ⊥ (tile 0 t) = (m0 : EReal) := by rw [onlM_bot, hm0]
  -- the second tile's maximum is -∞, so the row's maximum is the first tile's
  have hr1 : rowMax (tile 1 t) = ⊥ := by
    unfold rowMax
    exact le_bot_iff.1 (Finset.sup_le fun j _ => (h1 j).le)
  have hM : rowMax t = (m0 : EReal) := by
    rw [rowMax_tiles, hm0, hr1]
    exact sup_bot_eq _
  have hne0 : ∃ j, tile 0 t j ≠ ⊥ := by
    obtain ⟨j, r, hj⟩ := h0
    exact ⟨j, by rw [hj]; exact EReal.coe_ne_bot r⟩
  have hne : ∃ j, t j ≠ ⊥ := by
    obtain ⟨j, hj⟩ := hne0
    exact ⟨_, hj⟩
  -- the second tile adds zeros to the denominator and to the numerator
  have hd1 : den m0 (tile 1 t) = 0 := Finset.sum_eq_zero fun j _ => by rw [h1 j, ee_bot]
  have hn1 : num m0 (tile 1 t) (tile 1 v) = 0 := Finset.sum_eq_zero fun j _ => by rw [h1 j, ee_bot, zero_mul]
  rw [soft_eq t v m0 hM ht hv hne, num_tiles m0 t v, den_tiles m0 t, hd1, hn1, add_zero, add_zero]
  unfold flash1
  rw [← EReal.coe_zero, onlA_eq ⊥ 0 (tile 0 t) (tile 0 v) m0 hM0 (Or.inl rfl) ht0 hv0,
    onlL_eq ⊥ 0 (tile 0 t) m0 hM0 (Or.inl rfl) ht0, mul_zero, zero_add, zero_add,
    Ideal.div_coe (den_pos m0 _ hne0).ne', ← EReal.coe_mul, mul_one_div]

/-- A row in the last 1024 query positions: two tiles. -/
theorem flash2_eq_soft (t v : Fin 2048 → EReal)
    (ht : ∀ j, t j = ⊥ ∨ ∃ r : ℝ, t j = (r : EReal)) (hv : ∀ j, ∃ r : ℝ, v j = (r : EReal))
    (h0 : ∃ j : Fin 1024, ∃ r : ℝ, tile 0 t j = (r : EReal)) : flash2 t v = soft t v := by
  have ht0 : ∀ j, tile 0 t j = ⊥ ∨ ∃ r : ℝ, tile 0 t j = (r : EReal) := fun j => ht _
  have hv0 : ∀ j, ∃ r : ℝ, tile 0 v j = (r : EReal) := fun j => hv _
  have ht1 : ∀ j, tile 1 t j = ⊥ ∨ ∃ r : ℝ, tile 1 t j = (r : EReal) := fun j => ht _
  have hv1 : ∀ j, ∃ r : ℝ, tile 1 v j = (r : EReal) := fun j => hv _
  obtain ⟨m0, hm0⟩ := rowMax_real (tile 0 t) ht0 h0
  have hM0 : onlM ⊥ (tile 0 t) = (m0 : EReal) := by rw [onlM_bot, hm0]
  -- the maximum after the second tile is real, and it is the row's maximum
  obtain ⟨m1, hm1⟩ : ∃ m1 : ℝ, max (m0 : EReal) (rowMax (tile 1 t)) = (m1 : EReal) := by
    rcases rowMax_real_or_bot (tile 1 t) ht1 with h | ⟨r, h⟩
    · exact ⟨m0, by rw [h]; exact sup_bot_eq _⟩
    · exact ⟨max m0 r, by rw [h]; exact (EReal.coe_strictMono.monotone.map_max).symm⟩
  have hM1 : onlM (m0 : EReal) (tile 1 t) = (m1 : EReal) := hm1
  have hM : rowMax t = (m1 : EReal) := by rw [rowMax_tiles, hm0, hm1]
  have hne : ∃ j, t j ≠ ⊥ := by
    obtain ⟨j, r, hj⟩ := h0
    have hj' : tile 0 t j ≠ ⊥ := by rw [hj]; exact EReal.coe_ne_bot r
    exact ⟨_, hj'⟩
  have hd : den m1 (tile 0 t) + den m1 (tile 1 t) ≠ 0 := by
    rw [← den_tiles]
    exact (den_pos m1 t hne).ne'
  rw [soft_eq t v m1 hM ht hv hne, num_tiles m1 t v, den_tiles m1 t]
  unfold flash2
  -- after the first tile the old terms are gone; the second step rescales the first tile's sums to the new maximum
  rw [hM0, ← EReal.coe_zero, onlA_eq ⊥ 0 (tile 0 t) (tile 0 v) m0 hM0 (Or.inl rfl) ht0 hv0,
    onlL_eq ⊥ 0 (tile 0 t) m0 hM0 (Or.inl rfl) ht0, mul_zero, zero_add, zero_add,
    onlA_eq (m0 : EReal) _ (tile 1 t) (tile 1 v) m1 hM1 (Or.inr ⟨m0, rfl⟩) ht1 hv1,
    onlL_eq (m0 : EReal) _ (tile 1 t) m1 hM1 (Or.inr ⟨m0, rfl⟩) ht1, ee_mul_num, ee_mul_den,
    Ideal.div_coe hd, ← EReal.coe_mul, mul_one_div]

/-! ## Attention -/

/-- A finite sum of products of reals is a real. -/
theorem proj_fin (x : A3) (W : A2) (hx : Fin3 x) (hW : Fin2 W) : Fin4 (proj x W) := by
  unfold Fin4
  intro j
  unfold proj projAt
  exact sum_mul_real _ _ (fun e => hx _) (fun e => hW _)

/-- A scaled score of real queries and keys is real: a finite sum of products of reals, times 1/8. -/
theorem score_real (q k : A4) (hq : Fin4 q) (hk : Fin4 k) (b : Fin 2) (h : Fin 16) (i j : Fin 2048) :
    ∃ r : ℝ, score q k b h i j = (r : EReal) := by
  obtain ⟨s, hs⟩ := sum_mul_real (fun d : Fin 64 => q (ix4 b h i d)) (fun d : Fin 64 => k (ix4 b h j d))
    (fun d => hq _) (fun d => hk _)
  have hs' : ∑ d : Fin 64, q (ix4 b h i d) * k (ix4 b h j d) = (s : EReal) := hs
  exact ⟨s * (1 / 8), by unfold score; rw [hs', EReal.coe_mul]⟩

/-- A masked score is real at or before the query position and -∞ after it. -/
theorem mscore_real_or_bot (q k : A4) (hq : Fin4 q) (hk : Fin4 k) (b : Fin 2) (h : Fin 16) (i j : Fin 2048) :
    mscore q k b h i j = ⊥ ∨ ∃ r : ℝ, mscore q k b h i j = (r : EReal) := by
  unfold mscore
  split_ifs
  · exact Or.inr (score_real q k hq hk b h i j)
  · exact Or.inl rfl

theorem mscore_of_le (q k : A4) (b : Fin 2) (h : Fin 16) (i j : Fin 2048) (hji : j.val ≤ i.val) :
    mscore q k b h i j = score q k b h i j := if_pos hji

theorem mscore_of_lt (q k : A4) (b : Fin 2) (h : Fin 16) (i j : Fin 2048) (hij : i.val < j.val) :
    mscore q k b h i j = ⊥ := if_neg (not_le.2 hij)

theorem mscore_real_of_le (q k : A4) (hq : Fin4 q) (hk : Fin4 k) (b : Fin 2) (h : Fin 16) (i j : Fin 2048)
    (hji : j.val ≤ i.val) : ∃ r : ℝ, mscore q k b h i j = (r : EReal) := by
  rw [mscore_of_le q k b h i j hji]
  exact score_real q k hq hk b h i j

/-- For finite queries, keys and values the online form of causal attention is causal attention. -/
theorem attnOnline_eq_attn (q k v : A4) (hq : Fin4 q) (hk : Fin4 k) (hv : Fin4 v) : attnOnline q k v = attn q k v := by
  funext j
  unfold attnOnline attn
  have ht := fun kk : Fin 2048 => mscore_real_or_bot q k hq hk (j 0) (j 1) (j 2) kk
  have hv' : ∀ kk : Fin 2048, ∃ r : ℝ, v (ix4 (j 0) (j 1) kk (j 3)) = (r : EReal) := fun kk => hv _
  -- key position 0 is never after the query position: the first tile has a real entry
  have h0 : ∃ jj : Fin 1024, ∃ r : ℝ,
      tile 0 (fun kk : Fin 2048 => mscore q k (j 0) (j 1) (j 2) kk) jj = (r : EReal) := by
    refine ⟨⟨0, by omega⟩, ?_⟩
    show ∃ r : ℝ, mscore q k (j 0) (j 1) (j 2) _ = (r : EReal)
    exact mscore_real_of_le q k hq hk _ _ _ _ (by simp)
  split_ifs with h
  · -- a query position below 1024 is before every key position of the second tile
    refine flash1_eq_soft _ _ ht hv' h0 fun jj => ?_
    show mscore q k (j 0) (j 1) (j 2) _ = ⊥
    exact mscore_of_lt _ _ _ _ _ _ (by simp; omega)
  · exact flash2_eq_soft _ _ ht hv' h0

end Cert.Spec

end
-- ==== Proof.Glue.lean ====
import proofs.«412418_j10084583211544_3_alg».proof.Proof.Run
import proofs.«412418_j10084583211544_3_alg».proof.Proof.Val0
import proofs.«412418_j10084583211544_3_alg».proof.Proof.Val1
import proofs.«412418_j10084583211544_3_alg».proof.Proof.Val2
import proofs.«412418_j10084583211544_3_alg».proof.Proof.Algebra
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Idealize.ShloMosaic.ValueIdx

open Cert.Spec

variable (m : (ℓ : Loc nD τ sig) → Buf (Elt Ideal) ℓ) (ρ : Dev nD → PrngReg)

/-! # The kernel program's result over the extended reals, from the launch memory

Each region's entry arrays read off the boundary contents: the projection region finds `x` and the three weight matrices (cast,
which changes nothing over the extended reals); the attention region finds the three projections; the output region finds the
attention output and the transposed, cast `Wo`. -/

/-- The launch contents of the five arguments, as the specification's arrays. -/
abbrev aX (c : Dev nD) : A3 := m ((c : Thread nD τ).loc main_arg0)
abbrev aWq (c : Dev nD) : A2 := m ((c : Thread nD τ).loc main_arg1)
abbrev aWk (c : Dev nD) : A2 := m ((c : Thread nD τ).loc main_arg2)
abbrev aWv (c : Dev nD) : A2 := m ((c : Thread nD τ).loc main_arg3)
abbrev aWo (c : Dev nD) : A2 := m ((c : Thread nD τ).loc main_arg4)

theorem V1_arg0 (c : Dev nD) : (V1 m ρ c main_arg0 : A3) = aX m c :=
  StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem V1_v0 (c : Dev nD) : (V1 m ρ c main_v0 : A2) = aWq m c := by
  show (StableHlo.after hostOps0 (W0 m ρ c) (Proc.devRef .tc main_v0) : A2) = _
  after_results; rfl
theorem V1_v1 (c : Dev nD) : (V1 m ρ c main_v1 : A2) = aWk m c := by
  show (StableHlo.after hostOps0 (W0 m ρ c) (Proc.devRef .tc main_v1) : A2) = _
  after_results; rfl
theorem V1_v2 (c : Dev nD) : (V1 m ρ c main_v2 : A2) = aWv m c := by
  show (StableHlo.after hostOps0 (W0 m ρ c) (Proc.devRef .tc main_v2) : A2) = _
  after_results; rfl

/-- The attention region finds the three projections. -/
theorem V2_q (c : Dev nD) : (V2 m ρ c main_v3_0 : A4) = proj (aX m c) (aWq m c) := by
  rw [← V1_arg0 m ρ c, ← V1_v0 m ρ c]; exact (W2_arr m ρ c 4).trans (arr0_4 (V1 m ρ) c)
theorem V2_k (c : Dev nD) : (V2 m ρ c main_v3_1 : A4) = proj (aX m c) (aWk m c) := by
  rw [← V1_arg0 m ρ c, ← V1_v1 m ρ c]; exact (W2_arr m ρ c 5).trans (arr0_5 (V1 m ρ) c)
theorem V2_v (c : Dev nD) : (V2 m ρ c main_v3_2 : A4) = proj (aX m c) (aWv m c) := by
  rw [← V1_arg0 m ρ c, ← V1_v2 m ρ c]; exact (W2_arr m ρ c 6).trans (arr0_6 (V1 m ρ) c)

/-- The output region finds the attention region's output array, which the host stretch between them does not write. -/
theorem V4_attn (c : Dev nD) :
    (V4 m ρ c main_v4 : A4) = attnOnline (proj (aX m c) (aWq m c)) (proj (aX m c) (aWk m c)) (proj (aX m c) (aWv m c)) := by
  rw [← V2_q m ρ c, ← V2_k m ρ c, ← V2_v m ρ c]
  refine Eq.trans ?_ ((W3_arr m ρ c 3).trans (arr1_3 (V2 m ρ) c))
  exact StableHlo.after_of_forall_not_mem (b := Proc.devRef .tc main_v4) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- `Wo` reaches the second host stretch as launched. -/
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl

/-- The output region's weight window holds `Wo` transposed: entry (e, o) is `Wo[o, e]`. -/
theorem V4_wt (c : Dev nD) (e o : Fin 1024) : (V4 m ρ c main_v6 : A2) (ix2 e o) = aWo m c (ix2 o e) := by
  have h : (V4 m ρ c main_v6 : A2)
      = (truncf (F := Ideal) .bf16 (transpose S1024x1024 [1, 0] (show FVec Ideal S1024x1024 .f32 from W3 m ρ c (Proc.devRef .tc main_arg4))
          transposes_S1024x1024_S1024x1024_1_0) bitsLt_bf16_f32 : A2) := by
    show (StableHlo.after hostOps2 (W3 m ρ c) (Proc.devRef .tc main_v6) : A2) = _
    after_results <;> rfl
  rw [h, W3_arg4 m ρ c]
  show transpose S1024x1024 [1, 0] _ _ (ix2 e o) = _
  exact transpose_apply _ _ _ _ (ix2 o e) (fun b => by match b with | ⟨0, _⟩ => rfl | ⟨1, _⟩ => rfl)

/-- Against the transposed weights the output layer is the output layer. -/
theorem outpT_wt (c : Dev nD) (a : A4) : outpT a (V4 m ρ c main_v6) = outp a (aWo m c) := by
  funext j
  unfold outpT outp
  refine Finset.sum_congr rfl fun e _ => ?_
  rw [V4_wt m ρ c e (j 2)]

/-- THE KERNEL PROGRAM'S RESULT for finite inputs: the output layer of causal attention of the three projections. -/
theorem kernel_value (c : Dev nD) (hx : Fin3 (aX m c)) (hq : Fin2 (aWq m c)) (hk : Fin2 (aWk m c)) (hv : Fin2 (aWv m c)) :
    ((dat2 (F := Ideal) (V4 m ρ) c).arrAt 2 cfg2.N : A3)
      = outp (attn (proj (aX m c) (aWq m c)) (proj (aX m c) (aWk m c)) (proj (aX m c) (aWv m c))) (aWo m c) := by
  rw [arr2_2 (V4 m ρ) c, V4_attn m ρ c, outpT_wt m ρ c,
    attnOnline_eq_attn _ _ _ (proj_fin _ _ hx hq) (proj_fin _ _ hx hk) (proj_fin _ _ hx hv)]

end Cert.KernelIdeal.Hand

end
-- ==== Proof.Finite.lean ====
import proofs.«412418_j10084583211544_3_alg».proof.Pre_finite_inputs
import proofs.«412418_j10084583211544_3_alg».proof.Proof.Gen.Pre_finite_inputs
import proofs.«412418_j10084583211544_3_alg».proof.Proof.Spec
import Idealize.ShloMosaic.Lib.ReduceAll
import Idealize.ShloMosaic.PureOps.Ideal.Laws

noncomputable section

/-! # The precondition says every input entry is a real number

The printed predicate is the conjunction, over the five inputs, of "every entry's absolute value is below +∞"; over the extended
reals an entry with `|x| < ⊤` is neither `⊤` nor `⊥`, so it is a real. -/

namespace Cert.Proof.Finite

open Idealize.ShloMosaic Idealize.ShloMosaic.ValueIdx Cert.Pre_finite_inputs Cert.Pre_finite_inputs.Gen

/-- The rank-0 shape has exactly one index, so a reduction over all axes has one result. -/
instance : Subsingleton S_.Idx := ⟨fun a b => funext fun d => d.elim0⟩

/-- An extended real whose absolute value `max a (-a)` is below `⊤` is a real: for `a = ⊤` the maximum is `⊤`, and for
    `a = ⊥` it is `-⊥ = ⊤` again. -/
theorem real_of_abs_lt_top (a : EReal) (h : max a (-a) < ⊤) : ∃ r : ℝ, a = (r : EReal) := by
  induction a using EReal.rec with
  | bot => simp at h
  | coe r => exact ⟨r, rfl⟩
  | top => simp at h

/-- The pattern `0x7F800000` (sign 0, exponent all ones, significand 0) denotes `+∞`. -/
theorem inf_bits : Ideal.ofBits .f32 0x7F800000#32 = (⊤ : EReal) := by
  simp [Ideal.ofBits, Ideal.ieee]

/-- One conjunct of the predicate, at any shape: if "`|x| < +∞` at every index", reduced by `and` over all axes from
    `true`, is `true`, then every entry of `x` is a real. The reduction being `1` gives the comparison `1` at each
    index `i`; there it reads `max (x i) (-(x i)) < ⊤`, the bound being the broadcast of the pattern of `+∞`. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
      (constantI S_ 1 1#1) hr hu ix0 = 1#1) (i : s.Idx) : ∃ r : ℝ, x i = (r : EReal) := by
  have h1 := Host.reduce_andi_all _ _ hr hu ix0 e i
  have h2 : Ideal.cmp .olt (max (x i) (-(x i))) (Ideal.ofBits .f32 0x7F800000#32) = 1#1 := h1
  rw [inf_bits] at h2
  apply real_of_abs_lt_top
  have h3 : BitVec.ofBool (decide (max (x i) (-(x i)) < ⊤)) = 1#1 := h2
  by_contra hc
  rw [decide_eq_false hc] at h3
  exact absurd h3 (by decide)

/-- A conjunction of two rank-0 truth values that is `1` has both sides `1`. -/
theorem andi_ix0 (a b : IVec S_ 1) (h : andi a b ix0 = 1#1) : a ix0 = 1#1 ∧ b ix0 = 1#1 :=
  IntOp.andi_eq_one.1 h

theorem fin_of_fn (x0 : FVec Ideal S2x2048x1024 .f32) (x1 x2 x3 x4 : FVec Ideal S1024x1024 .f32)
    (h : Cert.Pre_finite_inputs.fn (F := Ideal) x0 x1 x2 x3 x4 = fun _ => 1#1) :
    Cert.Spec.Fin3 x0 ∧ Cert.Spec.Fin2 x1 ∧ Cert.Spec.Fin2 x2 ∧ Cert.Spec.Fin2 x3 ∧ Cert.Spec.Fin2 x4 := by
  -- the predicate at its one index: (((c0 ∧ c1) ∧ c2) ∧ c3) ∧ c4, with ck the conjunct of input k
  have h0 := congrFun h ix0
  dsimp only [fn, fn_part1] at h0
  obtain ⟨h0, e4⟩ := andi_ix0 _ _ h0
  obtain ⟨h0, e3⟩ := andi_ix0 _ _ h0
  obtain ⟨h0, e2⟩ := andi_ix0 _ _ h0
  obtain ⟨e0, e1⟩ := andi_ix0 _ _ h0
  exact ⟨fun j => all_real x0 _ _ _ e0 j, fun j => all_real x1 _ _ _ e1 j, fun j => all_real x2 _ _ _ e2 j,
    fun j => all_real x3 _ _ _ e3 j, fun j => all_real x4 _ _ _ e4 j⟩

end Cert.Proof.Finite

end
-- ==== Proof.RefProj.lean ====
import proofs.«412418_j10084583211544_3_alg».proof.Proof.Gen.ReferenceIdeal.Read
import proofs.«412418_j10084583211544_3_alg».proof.Proof.Spec
import Idealize.ShloMosaic.Lib.ReduceAll

noncomputable section

/-! # The reference program's stages are the specification's functions -/

namespace Cert.ReferenceIdeal.RefValue

open Cert.ReferenceIdeal Cert.ReferenceIdeal.Gen Cert.ReferenceIdeal.Read Idealize.ShloMosaic Idealize.ShloMosaic.TcCoe Idealize.ShloMosaic.ValueIdx

abbrev X3 : Type := (⟨S2x2048x1024, .f32⟩ : BufTy).Contents (Elt Ideal)
abbrev X2 : Type := (⟨S1024x1024, .f32⟩ : BufTy).Contents (Elt Ideal)

/-! ## The reshape's arithmetic

Entry (b, s, h, d) of [2, 2048, 16, 64] sits at the row-major position ((b · 2048 + s) · 16 + h) · 64 + d, and the same
position of [2, 2048, 1024] is entry (b, s, 64 h + d): the position's quotient by 2048 · 1024 is b, its quotient by 1024
modulo 2048 is s, and its remainder modulo 1024 is 64 h + d. -/

theorem flat_b (b : Fin 2) (h : Fin 16) (s : Fin 2048) (d : Fin 64) :
    (((b.val * 2048 + s.val) * 16 + h.val) * 64 + d.val) / 2097152 = b.val := by
  have := b.isLt; have := h.isLt; have := s.isLt; have := d.isLt; omega
theorem flat_s (b : Fin 2) (h : Fin 16) (s : Fin 2048) (d : Fin 64) :
    (((b.val * 2048 + s.val) * 16 + h.val) * 64 + d.val) / 1024 % 2048 = s.val := by
  have := b.isLt; have := h.isLt; have := s.isLt; have := d.isLt; omega
theorem flat_e (b : Fin 2) (h : Fin 16) (s : Fin 2048) (d : Fin 64) :
    (((b.val * 2048 + s.val) * 16 + h.val) * 64 + d.val) % 1024 = h.val * 64 + d.val := by
  have := b.isLt; have := h.isLt; have := s.isLt; have := d.isLt; omega

/-- The other way: entry (b, s, e) of [2, 2048, 1024] sits at position (b · 2048 + s) · 1024 + e, which in
    [2, 2048, 16, 64] is entry (b, s, e / 64, e % 64). -/
theorem unflat_b (b : Fin 2) (s : Fin 2048) (e : Fin 1024) :
    ((b.val * 2048 + s.val) * 1024 + e.val) / 2097152 = b.val := by
  have := b.isLt; have := s.isLt; have := e.isLt; omega
theorem unflat_s (b : Fin 2) (s : Fin 2048) (e : Fin 1024) :
    ((b.val * 2048 + s.val) * 1024 + e.val) / 1024 % 2048 = s.val := by
  have := b.isLt; have := s.isLt; have := e.isLt; omega
theorem unflat_h (b : Fin 2) (s : Fin 2048) (e : Fin 1024) :
    ((b.val * 2048 + s.val) * 1024 + e.val) / 64 % 16 = e.val / 64 := by
  have := b.isLt; have := s.isLt; have := e.isLt; omega
theorem unflat_d (b : Fin 2) (s : Fin 2048) (e : Fin 1024) :
    ((b.val * 2048 + s.val) * 1024 + e.val) % 64 = e.val % 64 := by
  have := b.isLt; have := s.isLt; have := e.isLt; omega

/-! ## The three projections

The product contracts the channel axes; the reshape splits the out channel 64 h + d into (h, d); the transpose puts the head
axis before the position axis. -/

/-- Entry (b, h, s, d) of the transposed, reshaped product reads the input at (b, s, e) … -/
theorem lidx_q (b : Fin 2) (h : Fin 16) (s : Fin 2048) (d : Fin 64) (e : Fin 1024) :
    lidx_main_v0 (idx_main_v1 (idx_main_v2 (ix4 b h s d))) e = ix3 b s e :=
  funext fun a => Fin.ext (by
    match a with
    | ⟨0, _⟩ => exact flat_b b h s d
    | ⟨1, _⟩ => exact flat_s b h s d
    | ⟨2, _⟩ => rfl)
/-- … and the weights at (64 h + d, e). -/
theorem ridx_q (b : Fin 2) (h : Fin 16) (s : Fin 2048) (d : Fin 64) (e : Fin 1024) :
    ridx_main_v0 (idx_main_v1 (idx_main_v2 (ix4 b h s d))) e = ix2 (⟨h.val * 64 + d.val, by omega⟩ : Fin 1024) e :=
  funext fun a => Fin.ext (by
    match a with
    | ⟨0, _⟩ => exact flat_e b h s d
    | ⟨1, _⟩ => rfl)

/-- Entry (b, h, s, d) of the transposed, reshaped product reads the input at (b, s, e) … -/
theorem lidx_k (b : Fin 2) (h : Fin 16) (s : Fin 2048) (d : Fin 64) (e : Fin 1024) :
    lidx_main_v3 (idx_main_v4 (idx_main_v5 (ix4 b h s d))) e = ix3 b s e :=
  funext fun a => Fin.ext (by
    match a with
    | ⟨0, _⟩ => exact flat_b b h s d
    | ⟨1, _⟩ => exact flat_s b h s d
    | ⟨2, _⟩ => rfl)
/-- … and the weights at (64 h + d, e). -/
theorem ridx_k (b : Fin 2) (h : Fin 16) (s : Fin 2048) (d : Fin 64) (e : Fin 1024) :
    ridx_main_v3 (idx_main_v4 (idx_main_v5 (ix4 b h s d))) e = ix2 (⟨h.val * 64 + d.val, by omega⟩ : Fin 1024) e :=
  funext fun a => Fin.ext (by
    match a with
    | ⟨0, _⟩ => exact flat_e b h s d
    | ⟨1, _⟩ => rfl)

/-- Entry (b, h, s, d) of the transposed, reshaped product reads the input at (b, s, e) … -/
theorem lidx_v (b : Fin 2) (h : Fin 16) (s : Fin 2048) (d : Fin 64) (e : Fin 1024) :
    lidx_main_v6 (idx_main_v7 (idx_main_v8 (ix4 b h s d))) e = ix3 b s e :=
  funext fun a => Fin.ext (by
    match a with
    | ⟨0, _⟩ => exact flat_b b h s d
    | ⟨1, _⟩ => exact flat_s b h s d
    | ⟨2, _⟩ => rfl)
/-- … and the weights at (64 h + d, e). -/
theorem ridx_v (b : Fin 2) (h : Fin 16) (s : Fin 2048) (d : Fin 64) (e : Fin 1024) :
    ridx_main_v6 (idx_main_v7 (idx_main_v8 (ix4 b h s d))) e = ix2 (⟨h.val * 64 + d.val, by omega⟩ : Fin 1024) e :=
  funext fun a => Fin.ext (by
    match a with
    | ⟨0, _⟩ => exact flat_e b h s d
    | ⟨1, _⟩ => rfl)

/-- A projection, reshaped into heads and transposed head-major, is the specification's projection. -/
theorem v2_eq (x0 : X3) (x1 : X2) : val_main_v2 (F := Ideal) x0 x1 = Cert.Spec.proj x0 x1 := by
  funext j
  obtain ⟨b, h, s, d, rfl⟩ : ∃ (b : Fin 2) (h : Fin 16) (s : Fin 2048) (d : Fin 64), j = ix4 b h s d :=
    ⟨j 0, j 1, j 2, j 3, eq_ix4 j⟩
  rw [val_main_v2_apply, val_main_v1_apply, val_main_v0_apply]
  unfold Cert.Spec.proj Cert.Spec.projAt
  refine Finset.sum_congr rfl fun e _ => ?_
  rw [lidx_q, ridx_q]
theorem v5_eq (x0 : X3) (x2 : X2) : val_main_v5 (F := Ideal) x0 x2 = Cert.Spec.proj x0 x2 := by
  funext j
  obtain ⟨b, h, s, d, rfl⟩ : ∃ (b : Fin 2) (h : Fin 16) (s : Fin 2048) (d : Fin 64), j = ix4 b h s d :=
    ⟨j 0, j 1, j 2, j 3, eq_ix4 j⟩
  rw [val_main_v5_apply, val_main_v4_apply, val_main_v3_apply]
  unfold Cert.Spec.proj Cert.Spec.projAt
  refine Finset.sum_congr rfl fun e _ => ?_
  rw [lidx_k, ridx_k]
theorem v8_eq (x0 : X3) (x3 : X2) : val_main_v8 (F := Ideal) x0 x3 = Cert.Spec.proj x0 x3 := by
  funext j
  obtain ⟨b, h, s, d, rfl⟩ : ∃ (b : Fin 2) (h : Fin 16) (s : Fin 2048) (d : Fin 64), j = ix4 b h s d :=
    ⟨j 0, j 1, j 2, j 3, eq_ix4 j⟩
  rw [val_main_v8_apply, val_main_v7_apply, val_main_v6_apply]
  unfold Cert.Spec.proj Cert.Spec.projAt
  refine Finset.sum_congr rfl fun e _ => ?_
  rw [lidx_v, ridx_v]

/-! ## The output layer

Entry (b, s, o) of the last product sums, over the channel e, the reshaped array at (b, s, e) times the weights at (o, e);
the reshaped array at (b, s, e) is the transposed one at (b, s, e / 64, e % 64), which is the attention stage at
(b, e / 64, s, e % 64). -/

theorem aidx_out (b : Fin 2) (s : Fin 2048) (o e : Fin 1024) :
    idx_main_v28 (idx_main_v29 (lidx_main_v30 (ix3 b s o) e))
      = ix4 b (⟨e.val / 64, by omega⟩ : Fin 16) s (⟨e.val % 64, by omega⟩ : Fin 64) :=
  funext fun a => Fin.ext (by
    match a with
    | ⟨0, _⟩ => exact unflat_b b s e
    | ⟨1, _⟩ => exact unflat_h b s e
    | ⟨2, _⟩ => exact unflat_s b s e
    | ⟨3, _⟩ => exact unflat_d b s e)
theorem ridx_out (b : Fin 2) (s : Fin 2048) (o e : Fin 1024) :
    ridx_main_v30 (ix3 b s o) e = ix2 o e :=
  funext fun a => Fin.ext (by
    match a with
    | ⟨0, _⟩ => rfl
    | ⟨1, _⟩ => rfl)

/-- The last three stages — heads back side by side, then the output layer — are the specification's output projection of the
    attention stage. -/
theorem v30_eq (x0 : X3) (x1 x2 x3 x4 : X2) :
    val_main_v30 (F := Ideal) x0 x1 x2 x3 x4 = Cert.Spec.outp (val_main_v27 (F := Ideal) x0 x1 x2 x3) x4 := by
  funext j
  obtain ⟨b, s, o, rfl⟩ : ∃ (b : Fin 2) (s : Fin 2048) (o : Fin 1024), j = ix3 b s o := ⟨j 0, j 1, j 2, eq_ix3 j⟩
  rw [val_main_v30_apply]
  unfold Cert.Spec.outp
  refine Finset.sum_congr rfl fun e _ => ?_
  rw [val_main_v29_apply, val_main_v28_apply]
  generalize val_main_v27 (F := Ideal) x0 x1 x2 x3 = a
  rw [aidx_out, ridx_out]

end Cert.ReferenceIdeal.RefValue

end
-- ==== Proof.RefAttn.lean ====
import proofs.«412418_j10084583211544_3_alg».proof.Proof.Gen.ReferenceIdeal.Read
import proofs.«412418_j10084583211544_3_alg».proof.Proof.Spec
import Idealize.ShloMosaic.Lib.ReduceAll

noncomputable section

/-! # The reference program's stages are the specification's functions -/

namespace Cert.ReferenceIdeal.AttnValue

open Cert.ReferenceIdeal Cert.ReferenceIdeal.Gen Cert.ReferenceIdeal.Read Idealize.ShloMosaic Idealize.ShloMosaic.TcCoe Idealize.ShloMosaic.ValueIdx

abbrev X3 : Type := (⟨S2x2048x1024, .f32⟩ : BufTy).Contents (Elt Ideal)
abbrev X2 : Type := (⟨S1024x1024, .f32⟩ : BufTy).Contents (Elt Ideal)

/-- A natural below 2048, as a 32-bit word read signed, is itself. -/
theorem toInt_ofNat32 (n : Nat) (h : n < 2048) : (BitVec.ofNat 32 n).toInt = (n : Int) := by
  rw [BitVec.toInt_ofNat']
  exact Int.bmod_eq_of_le (by omega) (by omega)

/-- Selecting between the bits 1 and 0 on a bit gives the bit back. -/
theorem select_one_zero (c : BitVec 1) : Scalar.select c 1#1 0#1 = c := by revert c; decide

/-- The lower-triangular mask: entry (i, kk) is set exactly when the column kk is at most the row i. -/
theorem mask_iff (i kk : Fin 2048) : val_main_v14 (F := Ideal) (ix2 i kk) = 1#1 ↔ kk.val ≤ i.val := by
  rw [val_main_v14_apply, val_main_call0_v4_apply, val_main_call0_v2_apply, val_main_call0_v0_apply, val_main_call0_v1_apply,
    val_main_call0_c_apply, val_main_call0_v3_apply, val_main_v13_apply, val_main_c_apply, val_main_call0_v5_apply,
    val_main_call0_c_0_apply]
  show Scalar.select (IntOp.cmpi .sge (IntOp.addi (BitVec.ofNat 32 i.val) 0#32) (BitVec.ofNat 32 kk.val)) 1#1 0#1 = 1#1 ↔ _
  rw [select_one_zero, IntOp.cmpi_sge, IntOp.addi, BitVec.add_zero, toInt_ofNat32 _ i.isLt, toInt_ofNat32 _ kk.isLt]
  exact Int.ofNat_le

/-- The word 0x42800000 is the real number 64. -/
theorem sixtyfour : Ideal.ofBits .f32 0x42800000#32 = ((64 : ℝ) : EReal) := by
  simp [Ideal.ofBits, Ideal.ieee]
  norm_cast
  norm_num

/-- Its square root is 8. -/
theorem sqrt_sixtyfour : Ideal.sqrt (Ideal.ofBits .f32 0x42800000#32) = ((8 : ℝ) : EReal) := by
  rw [sixtyfour, Ideal.sqrt_coe, if_neg (by norm_num)]
  congr 1
  rw [show (64 : ℝ) = 8 ^ 2 by norm_num]
  exact Real.sqrt_sq (by norm_num)

/-- The word 0xFF800000 is -∞. -/
theorem neg_inf : Ideal.ofBits .f32 0xFF800000#32 = (⊥ : EReal) := by
  simp [Ideal.ofBits, Ideal.ieee]

/-- A select on a bit that is set exactly when p holds is the if on p. -/
theorem select_of_iff {α : Type} (c : BitVec 1) (a b : α) (p : Prop) [Decidable p] (hc : c = 1#1 ↔ p) :
    Scalar.select c a b = if p then a else b := by
  by_cases hp : p
  · rw [if_pos hp, hc.2 hp, select_one]
  · rw [if_neg hp, eq_zero_of_ne_one (fun e => hp (hc.1 e)), select_zero]

/-- The masked scaled score stage at (b, h, i, kk) is the specification's masked score of the two projections. -/
theorem v15_at (x0 : X3) (x1 x2 : X2) (b : Fin 2) (h : Fin 16) (i kk : Fin 2048) :
    val_main_v15 (F := Ideal) x0 x1 x2 (ix4 b h i kk)
      = Cert.Spec.mscore (val_main_v2 (F := Ideal) x0 x1) (val_main_v5 (F := Ideal) x0 x2) b h i kk := by
  rw [val_main_v15_apply, val_main_call1_v1_apply, val_main_v12_apply, val_main_v9_apply, val_main_v11_apply, val_main_v10_apply,
    val_main_cst_apply, val_main_call1_v2_apply, val_main_call1_v0_apply, val_main_cst_0_apply]
  generalize val_main_v2 (F := Ideal) x0 x1 = q
  generalize val_main_v5 (F := Ideal) x0 x2 = k
  have e1 : idx_main_call1_v1 (ix4 b h i kk) = ix2 i kk :=
    funext fun a => Fin.ext (by match a with | ⟨0, _⟩ => rfl | ⟨1, _⟩ => rfl)
  have el : ∀ d : Fin 64, lidx_main_v9 (ix4 b h i kk) d = ix4 b h i d := fun d =>
    funext fun a => Fin.ext (by match a with | ⟨0, _⟩ => rfl | ⟨1, _⟩ => rfl | ⟨2, _⟩ => rfl | ⟨3, _⟩ => rfl)
  have er : ∀ d : Fin 64, ridx_main_v9 (ix4 b h i kk) d = ix4 b h kk d := fun d =>
    funext fun a => Fin.ext (by match a with | ⟨0, _⟩ => rfl | ⟨1, _⟩ => rfl | ⟨2, _⟩ => rfl | ⟨3, _⟩ => rfl)
  rw [e1, select_of_iff _ _ _ _ (mask_iff i kk)]
  simp only [el, er, Ideal.ofBits_def, Ideal.hostUnary_sqrt_def, Ideal.hostDivf_def, sqrt_sixtyfour, neg_inf]
  rw [Ideal.div_coe (by norm_num)]
  rfl

/-- The index over (b, h, i) with the key position kk put on the reduced axis is (b, h, i, kk). -/
theorem lift_ix3 (hr : S2x16x2048x2048.Reduces [3] S2x16x2048) (b : Fin 2) (h : Fin 16) (i kk : Fin 2048) :
    hr.lift (ix3 b h i) kk = ix4 b h i kk :=
  funext fun a => Fin.ext (by match a with | ⟨0, _⟩ => rfl | ⟨1, _⟩ => rfl | ⟨2, _⟩ => rfl | ⟨3, _⟩ => rfl)

/-- A maximum reduction from -∞ over the last axis, at (b, h, i): a fold of max over the 2048 key positions, the row's maximum. -/
theorem rowMax_reduce (y : FVec Ideal S2x16x2048x2048 .f32) (b : Fin 2) (h : Fin 16) (i : Fin 2048) :
    Host.reduce (FloatOps.maximumf (F := Ideal) (φ := .f32)) y (val_main_cst_1 (F := Ideal)) reducesTo_S2x16x2048x2048_S2x16x2048_d3 h_S_ (ix3 b h i)
      = Cert.Spec.rowMax (fun kk : Fin 2048 => y (ix4 b h i kk)) := by
  have hr : S2x16x2048x2048.Reduces [3] S2x16x2048 := by decide
  rw [Host.reduce_eq_fold_single FloatOps.maximumf y _ reducesTo_S2x16x2048x2048_S2x16x2048_d3 hr h_S_, val_main_cst_1_apply,
    Ideal.ofBits_def, neg_inf]
  unfold Cert.Spec.rowMax Finset.sup
  exact congrArg (fun f => Finset.fold max (⊥ : EReal) f (Finset.univ : Finset (Fin 2048))) (funext fun kk => congrArg y (lift_ix3 hr b h i kk))

/-- The row maximum stage at (b, h, i) is the specification's row maximum of the masked score stage's row. -/
theorem v16_at (x0 : X3) (x1 x2 : X2) (b : Fin 2) (h : Fin 16) (i : Fin 2048) :
    val_main_v16 (F := Ideal) x0 x1 x2 (ix3 b h i)
      = Cert.Spec.rowMax (fun kk : Fin 2048 => val_main_v15 (F := Ideal) x0 x1 x2 (ix4 b h i kk)) := by
  unfold val_main_v16
  exact rowMax_reduce (val_main_v15 (F := Ideal) x0 x1 x2) b h i

/-- The row maximum, broadcast back over the key positions: at (b, h, i, kk) the row maximum of the masked scores of row (b, h, i). -/
theorem v20_at (x0 : X3) (x1 x2 : X2) (b : Fin 2) (h : Fin 16) (i kk : Fin 2048) :
    val_main_v20 (F := Ideal) x0 x1 x2 (ix4 b h i kk)
      = Cert.Spec.rowMax (fun kk' : Fin 2048 =>
          Cert.Spec.mscore (val_main_v2 (F := Ideal) x0 x1) (val_main_v5 (F := Ideal) x0 x2) b h i kk') := by
  rw [val_main_v20_apply, val_main_v19_apply, val_main_v18_apply, val_main_v17_apply, val_main_cst_2_apply]
  have e : idx_main_v19 (idx_main_v20 (ix4 b h i kk)) = ix3 b h i :=
    funext fun a => Fin.ext (by match a with | ⟨0, _⟩ => rfl | ⟨1, _⟩ => rfl | ⟨2, _⟩ => rfl)
  rw [e, v16_at]
  simp only [v15_at, Ideal.ofBits_def, Ideal.maximumf_def, neg_inf]
  exact max_bot_left _

/-- The exponential stage at (b, h, i, kk): exp of the masked score minus its row's maximum. -/
theorem v22_at (x0 : X3) (x1 x2 : X2) (b : Fin 2) (h : Fin 16) (i kk : Fin 2048) :
    val_main_v22 (F := Ideal) x0 x1 x2 (ix4 b h i kk)
      = Ideal.exp (Cert.Spec.mscore (val_main_v2 (F := Ideal) x0 x1) (val_main_v5 (F := Ideal) x0 x2) b h i kk
          - Cert.Spec.rowMax (fun kk' : Fin 2048 =>
              Cert.Spec.mscore (val_main_v2 (F := Ideal) x0 x1) (val_main_v5 (F := Ideal) x0 x2) b h i kk')) := by
  rw [val_main_v22_apply, val_main_v21_apply, v15_at, v20_at]
  rfl

/-- The row sum, broadcast back: at (b, h, i, kk) the sum over the row's key positions of the exponentials. -/
theorem v25_at (x0 : X3) (x1 x2 : X2) (b : Fin 2) (h : Fin 16) (i kk : Fin 2048) :
    val_main_v25 (F := Ideal) x0 x1 x2 (ix4 b h i kk)
      = ∑ kk' : Fin 2048,
          Ideal.exp (Cert.Spec.mscore (val_main_v2 (F := Ideal) x0 x1) (val_main_v5 (F := Ideal) x0 x2) b h i kk'
            - Cert.Spec.rowMax (fun kk'' : Fin 2048 =>
                Cert.Spec.mscore (val_main_v2 (F := Ideal) x0 x1) (val_main_v5 (F := Ideal) x0 x2) b h i kk'')) := by
  rw [val_main_v25_apply, val_main_v24_apply, val_main_v23_apply, val_main_cst_3_apply, Ideal.ofBits_def, Ideal.ofBits_zero_f32,
    zero_add]
  refine Finset.sum_congr rfl fun kk' _ => ?_
  have e : idx_main_v23 (idx_main_v24 (idx_main_v25 (ix4 b h i kk))) kk' = ix4 b h i kk' :=
    funext fun a => Fin.ext (by match a with | ⟨0, _⟩ => rfl | ⟨1, _⟩ => rfl | ⟨2, _⟩ => rfl | ⟨3, _⟩ => rfl)
  rw [e, v22_at]

/-- The attention stages — scores, scale, causal mask, softmax, product with the values — are the specification's causal
    attention of the three projections. -/
theorem v27_eq (x0 : X3) (x1 x2 x3 : X2) :
    val_main_v27 (F := Ideal) x0 x1 x2 x3
      = Cert.Spec.attn (val_main_v2 (F := Ideal) x0 x1) (val_main_v5 (F := Ideal) x0 x2) (val_main_v8 (F := Ideal) x0 x3) := by
  funext j
  obtain ⟨b, h, s, d, rfl⟩ : ∃ b h s d, j = ix4 b h s d := ⟨j 0, j 1, j 2, j 3, eq_ix4 j⟩
  rw [val_main_v27_apply]
  show _ = Cert.Spec.soft
    (fun kk : Fin 2048 => Cert.Spec.mscore (val_main_v2 (F := Ideal) x0 x1) (val_main_v5 (F := Ideal) x0 x2) b h s kk)
    (fun kk : Fin 2048 => val_main_v8 (F := Ideal) x0 x3 (ix4 b h kk d))
  unfold Cert.Spec.soft
  refine Finset.sum_congr rfl fun kk _ => ?_
  have el : lidx_main_v27 (ix4 b h s d) kk = ix4 b h s kk :=
    funext fun a => Fin.ext (by match a with | ⟨0, _⟩ => rfl | ⟨1, _⟩ => rfl | ⟨2, _⟩ => rfl | ⟨3, _⟩ => rfl)
  have er : ridx_main_v27 (ix4 b h s d) kk = ix4 b h kk d :=
    funext fun a => Fin.ext (by match a with | ⟨0, _⟩ => rfl | ⟨1, _⟩ => rfl | ⟨2, _⟩ => rfl | ⟨3, _⟩ => rfl)
  rw [el, er, val_main_v26_apply, v22_at, v25_at]
  rfl

end Cert.ReferenceIdeal.AttnValue

end
-- ==== Proof.lean ====
/- Causal multi-head self-attention in three kernel regions — the three projections split into heads, attention in the
   online form over key tiles of 1024 positions (a running row maximum, denominator and numerator carried between grid points,
   the tiles above the diagonal skipped), and the output layer — against the plain softmax attention of the reference.
   Over the extended reals both compute, for finite inputs,
       out[b, s, o] = Σ_e A[b, e / 64, s, e % 64] · Wo[o, e],   A = causal softmax attention of the three projections,
   the kernel's scale 1/8 being the reference's 1 / sqrt 64 and its masking value being -∞ by the statement's table.
   The frames of the two kernel programs come from one run of @main through its five segments; the reference's from its run. -/
import proofs.«412418_j10084583211544_3_alg».proof.Defs
import proofs.«412418_j10084583211544_3_alg».proof.Proof.Gen.Kernel
import proofs.«412418_j10084583211544_3_alg».proof.Proof.Gen.KernelIdeal
import proofs.«412418_j10084583211544_3_alg».proof.Proof.Gen.ReferenceIdeal
import proofs.«412418_j10084583211544_3_alg».proof.Proof.Gen.Pre_finite_inputs
import proofs.«412418_j10084583211544_3_alg».proof.Proof.Gen.ReferenceIdeal.Run
import proofs.«412418_j10084583211544_3_alg».proof.Proof.Gen.ReferenceIdeal.Read
import proofs.«412418_j10084583211544_3_alg».proof.Proof.WRun
import proofs.«412418_j10084583211544_3_alg».proof.Proof.Glue
import proofs.«412418_j10084583211544_3_alg».proof.Proof.Finite
import proofs.«412418_j10084583211544_3_alg».proof.Proof.RefProj
import proofs.«412418_j10084583211544_3_alg».proof.Proof.RefAttn
import Idealize.ShloMosaic.PureOps.IdealRules

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Hand.frame (F := Bits) m ρ

/-- So does the idealized program. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the masking value is named, and the table gives the name -∞. -/
theorem preserves : Cert.preserves_Kernel_KernelIdeal :=
  IdealRules.named_const.statement Cert.KernelIdeal.κ "neg_big" .f32 0xFF333332#32 ⊥ rfl

/-- From memories agreeing on the five arguments, both programs end at the output layer of causal attention of the three
    projections of the arguments: the kernel program by its three regions' values and the online form's identity, the
    reference stage by stage. -/
theorem algebraic : Cert.algebraic_KernelIdeal_ReferenceIdeal := by
  intro m ρ m' ρ' hpre hagree
  have hfin := fun c : Dev Cert.KernelIdeal.nD => Cert.Proof.Finite.fin_of_fn _ _ _ _ _ (hpre c)
  refine ⟨fun c => Cert.ReferenceIdeal.Read.val_main_v30 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.Hand.run_value (F := Ideal) m ρ)
    refine (Cert.KernelIdeal.Hand.kernel_value m ρ c (hfin c).1 (hfin c).2.1 (hfin c).2.2.1 (hfin c).2.2.2.1).trans ?_
    beta_reduce
    rw [Cert.ReferenceIdeal.RefValue.v30_eq, Cert.ReferenceIdeal.AttnValue.v27_eq, Cert.ReferenceIdeal.RefValue.v2_eq,
      Cert.ReferenceIdeal.RefValue.v5_eq, Cert.ReferenceIdeal.RefValue.v8_eq]
  · refine (θ_run Cert.ReferenceIdeal.defs _ _).mono (fun _ h c => ⟨?_, (h c).2⟩)
      (Cert.ReferenceIdeal.Value.run (F := Ideal) m' ρ')
    rw [(h c).1, Cert.ReferenceIdeal.Read.val_main_v30_eq, (hagree c).1, (hagree c).2.1, (hagree c).2.2.1, (hagree c).2.2.2.1,
      (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
